-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S51200x128 : Shape := ⟨2, ![51200, 128]⟩
abbrev S51200x1 : Shape := ⟨2, ![51200, 1]⟩
abbrev S1x128 : Shape := ⟨2, ![1, 128]⟩
abbrev S2048x128 : Shape := ⟨2, ![2048, 128]⟩
abbrev S2048x1 : Shape := ⟨2, ![2048, 1]⟩

abbrev nBuf : Space → Nat
  | .hbm => 68
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .i32⟩
  | .hbm, ⟨37, _⟩ => ⟨S_, .f32⟩
  | .hbm, ⟨38, _⟩ => ⟨S51200x128, .f32⟩
  | .hbm, ⟨39, _⟩ => ⟨S_, .i32⟩
  | .hbm, ⟨40, _⟩ => ⟨S_, .f32⟩
  | .hbm, ⟨41, _⟩ => ⟨S51200x1, .f32⟩
  | .hbm, ⟨42, _⟩ => ⟨S_, .i32⟩
  | .hbm, ⟨43, _⟩ => ⟨S_, .f32⟩
  | .hbm, ⟨44, _⟩ => ⟨S51200x128, .f32⟩
  | .hbm, ⟨45, _⟩ => ⟨S128x128, .f32⟩
  | .hbm, ⟨46, _⟩ => ⟨S51200x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S51200x128, .f32⟩
  | .hbm, ⟨67, _⟩ => ⟨S50000x128, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S128x128, .f32⟩
  | .local _ .vmem, ⟨5, _⟩ => ⟨S128, .f32⟩
  | .local _ .vmem, ⟨6, _⟩ => ⟨S2048x128, .f32⟩
  | .local _ .vmem, ⟨7, _⟩ => ⟨S2048x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x128, .f32⟩
  | .local _ .vmem, ⟨17, _⟩ => ⟨S1x128, .f32⟩
  | .local _ .vmem, ⟨18, _⟩ => ⟨S2048x128, .f32⟩
  | .local _ .vmem, ⟨19, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_call1_v0 : Ref sig .tc := ⟨.hbm, 37, rfl⟩
abbrev main_v20 : Ref sig .tc := ⟨.hbm, 38, rfl⟩
abbrev main_c_6 : Ref sig .tc := ⟨.hbm, 39, rfl⟩
abbrev main_call2_v0 : Ref sig .tc := ⟨.hbm, 40, rfl⟩
abbrev main_v21 : Ref sig .tc := ⟨.hbm, 41, rfl⟩
abbrev main_c_7 : Ref sig .tc := ⟨.hbm, 42, rfl⟩
abbrev main_call3_v0 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_v24_2 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_cst_9 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  pads_S50000x128_S51200x128_012000_000 : S50000x128.Pads (![0, 0] : Fin 2 → Nat) ![1200, 0] ![0, 0] S51200x128
  h_S_ : 0 < S_.numel
  pads_S50000x1_S51200x1_012000_000 : S50000x1.Pads (![0, 0] : Fin 2 → Nat) ![1200, 0] ![0, 0] S51200x1
  transposes_S128x128_S128x128_1_0 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  iota_S2048x1_d0_w32 : S2048x1.Iotas .tc 32 [0]
  natLt_1_32 : 1 < 32
  reduces_S2048x128_S128 : S2048x128.Reduces [0] S128
  bcast_S_S1x128 : S_.BroadcastsInDim S1x128 (![] : Fin 0 → Fin S1x128.rank)
  bcast_S128_S1x128_1 : S128.BroadcastsInDim S1x128 (![1] : Fin 1 → Fin S1x128.rank)
  slices_S51200x128_S50000x128_0_0 : S51200x128.Slices ![0, 0] S50000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S51200x128.size a
  hwx0_0 : ∀ i : grid0.Coords, EltTy.bits .f32 = 32 ∨ (Rect.block (s := S51200x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S51200x1.size a
  hwx0_1 : ∀ i : grid0.Coords, EltTy.bits .f32 = 32 ∨ (Rect.block (s := S51200x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S51200x128.size a
  hwx0_4 : ∀ i : grid0.Coords, EltTy.bits .f32 = 32 ∨ (Rect.block (s := S51200x128) S2048x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .f32 = 32 ∨ (Rect.block (s := S51200x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S51200x128.size a
  hwx1_1 : ∀ i : grid1.Coords, EltTy.bits .f32 = 32 ∨ (Rect.block (s := S51200x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S51200x128.size a
  hwx1_4 : ∀ i : grid1.Coords, EltTy.bits .f32 = 32 ∨ (Rect.block (s := S51200x128) S2048x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v20) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24_0) S2048x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24_0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KBody0.lean ====
/-
  The first kernel region's body (linear map, bias, degree-norm scale; running column sums of the masked block and of
  its squares) run on whole staging memrefs. Two cases, by the body's one branch: at the grid's first point the two
  running-sum buffers are reset to zero before they are read; at every later point they are read as the point before
  left them. Either way the point writes its block of the pre-activation matrix, adds the block's masked column sums
  to the first buffer and those of the squares to the second, and copies both buffers out to the two one-row outputs.
-/
import proofs.«182140_j34411277975785_1_alg».proof.Proof.Gen.Kernel.Launch
import proofs.«182140_j34411277975785_1_alg».proof.Proof.Gen.Kernel.Skeleton
import proofs.«182140_j34411277975785_1_alg».proof.Proof.Gen.Kernel.Points
import Idealize.ShloMosaic.Lib.Pipeline.Value
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: the grid's first point. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev rB : Rect S2048x128 := Rect.unit (s := S2048x128) ![0, 0] S2048x128.size inb_S2048x128_S2048x128_0_0
abbrev rN : Rect S2048x1 := Rect.unit (s := S2048x1) ![0, 0] S2048x1.size inb_S2048x1_S2048x1_0_0
abbrev rW : Rect S128x128 := Rect.unit (s := S128x128) ![0, 0] S128x128.size inb_S128x128_S128x128_0_0
abbrev rb : Rect S128 := Rect.unit (s := S128) ![0] S128.size inb_S128_S128_0
abbrev rV : Rect S1x128 := Rect.unit (s := S1x128) ![0, 0] S1x128.size inb_S1x128_S1x128_0_0

theorem hz2 : (![0, 0] : Fin 2 → Nat) = fun _ => 0 := by funext a; fin_cases a <;> rfl
theorem hz1 : (![0] : Fin 1 → Nat) = fun _ => 0 := by funext a; fin_cases a; rfl

/-- A whole-buffer load after two whole-buffer stores reads the later store's payload. -/
theorem readCov_two {sig' : RefSig} {κ : Kind} {sp : Space} (v : View sig' κ sp S1x128 .f32) (w w' : S1x128.Idx → Elt F .f32) :
    v.readCov [(⟨Rect.unit ![0, 0] ![1, 128] inb_S1x128_S1x128_0_0, w⟩ : View.Piece (Elt F) S1x128 .f32), ⟨Rect.unit ![0, 0] ![1, 128] inb_S1x128_S1x128_0_0, w'⟩]
      (Rect.unit ![0, 0] ![1, 128] inb_S1x128_S1x128_0_0).toLoadRect = w := by
  have h := View.readCov_eq_canon_ld (Val := Elt F) v [(⟨Rect.unit ![0, 0] S1x128.size inb_S1x128_S1x128_0_0, w⟩ : View.Piece (Elt F) S1x128 .f32), ⟨Rect.unit ![0, 0] S1x128.size inb_S1x128_S1x128_0_0, w'⟩]
    (Rect.unit ![0, 0] S1x128.size inb_S1x128_S1x128_0_0) (fun y => ⟨_, List.mem_cons_self, View.mem_set_unit_zero hz2 inb_S1x128_S1x128_0_0 y⟩)
  rw [View.canon_cons_unit_zero hz2, View.ld_unit_zero (S := S1x128) hz2] at h
  exact h

/-- What a point leaves in the two running-sum buffers, from the four input blocks and what the buffers held when the
    sums are read (`s8`, `s9`): the column sums of the masked block added to the first, those of its squares to the second. -/
def acc8 (i : grid0.Coords) (x0 : Vec F S2048x128 .f32) (x1 : Vec F S2048x1 .f32) (x2 : Vec F S128x128 .f32) (x3 : Vec F S128 .f32)
    (s8 : Vec F S1x128 .f32) : Vec F S1x128 .f32 := k0_pay6 i x0 x2 x3 x1 s8
def acc9 (i : grid0.Coords) (x0 : Vec F S2048x128 .f32) (x1 : Vec F S2048x1 .f32) (x2 : Vec F S128x128 .f32) (x3 : Vec F S128 .f32)
    (s9 : Vec F S1x128 .f32) : Vec F S1x128 .f32 := k0_pay1 (k0_pay5 i x0 x2 x3 x1) s9
/-- The block of the pre-activation matrix a point writes. -/
def hblk (x0 : Vec F S2048x128 .f32) (x1 : Vec F S2048x1 .f32) (x2 : Vec F S128x128 .f32) (x3 : Vec F S128 .f32) : Vec F S2048x128 .f32 :=
  k0_pay4 x0 x2 x3 x1

set_option maxHeartbeats 4000000 in
/-- The body at a point that is not the first: the running sums are read, added to and stored back, and copied out. -/
theorem sound_kernel0_later (c : Dev nD) (i : grid0.Coords) (hc : ¬cond0 i) (E : Set ℕ)
    (arg1 : Memref sig .tc .vmem S2048x128 .f32) (harg1 : arg1.IsWhole) (arg2 : Memref sig .tc .vmem S2048x1 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S2048x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (x0 : Vec F S2048x128 .f32) (x1 : Vec F S2048x1 .f32) (x2 : Vec F S128x128 .f32) (x3 : Vec F S128 .f32) (s8 s9 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hblk x0 x1 x2 x3)
            ∗ owns (c : Thread nD τ) arg6 fullShare (acc8 i x0 x1 x2 x3 s8) ∗ owns (c : Thread nD τ) arg7 fullShare (acc9 i x0 x1 x2 x3 s9)
            ∗ owns (c : Thread nD τ) arg8 fullShare (acc8 i x0 x1 x2 x3 s8) ∗ owns (c : Thread nD τ) arg9 fullShare (acc9 i x0 x1 x2 x3 s9)) -∗ K ⟨⟩))
      ⊢ wp frame (wpE (defs₀ (F := F)) Variants.none c none) E (cc0__lin_stats_kernel i arg1 harg1 arg2 harg2 arg3 harg3 arg4 harg4 arg5 harg5 arg6 harg6 arg7 harg7 arg8 harg8 arg9 harg9) K := by
  simp only [cc0__lin_stats_kernel_eq_skeleton]; unfold cc0__lin_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    first
      | rw [View.read_writes_eq_canon _ _ _ (fun y => ⟨_, List.mem_singleton_self _, View.mem_set_unit_zero hz2 inb_S2048x128_S2048x128_0_0 y⟩), View.canon_unit_zero hz2]
      | rw [View.read_writes_eq_canon _ _ _ (fun y => ⟨_, List.mem_cons_self, View.mem_set_unit_zero hz2 inb_S2048x128_S2048x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, hblk]
  isplitl [H5]
  · iexists _; isplitr
    swap; · iexact H5
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  isplitl [H6]
  · iexists _; isplitr
    swap; · iexact H6
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]
  isplitl [H8]
  · iexists _; isplitr
    swap; · iexact H8
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  · iexists _; isplitr
    swap; · iexact H9
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]

set_option maxHeartbeats 4000000 in
/-- The body at the first point: the running sums are reset to zero first, whatever the two buffers held. -/
theorem sound_kernel0_first (c : Dev nD) (i : grid0.Coords) (hc : cond0 i) (E : Set ℕ)
    (arg1 : Memref sig .tc .vmem S2048x128 .f32) (harg1 : arg1.IsWhole) (arg2 : Memref sig .tc .vmem S2048x1 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S2048x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (x0 : Vec F S2048x128 .f32) (x1 : Vec F S2048x1 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hblk x0 x1 x2 x3)
            ∗ owns (c : Thread nD τ) arg6 fullShare (acc8 i x0 x1 x2 x3 (k0_pay2 (F := F))) ∗ owns (c : Thread nD τ) arg7 fullShare (acc9 i x0 x1 x2 x3 (k0_pay3 (F := F)))
            ∗ owns (c : Thread nD τ) arg8 fullShare (acc8 i x0 x1 x2 x3 (k0_pay2 (F := F))) ∗ owns (c : Thread nD τ) arg9 fullShare (acc9 i x0 x1 x2 x3 (k0_pay3 (F := F)))) -∗ K ⟨⟩))
      ⊢ wp frame (wpE (defs₀ (F := F)) Variants.none c none) E (cc0__lin_stats_kernel i arg1 harg1 arg2 harg2 arg3 harg3 arg4 harg4 arg5 harg5 arg6 harg6 arg7 harg7 arg8 harg8 arg9 harg9) K := by
  simp only [cc0__lin_stats_kernel_eq_skeleton]; unfold cc0__lin_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d8, %f8, -, H8⟩, ⟨%d9, %f9, -, H9⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    first
      | rw [View.read_writes_eq_canon _ _ _ (fun y => ⟨_, List.mem_singleton_self _, View.mem_set_unit_zero hz2 inb_S2048x128_S2048x128_0_0 y⟩), View.canon_unit_zero hz2]
      | rw [View.read_writes_eq_canon _ _ _ (fun y => ⟨_, List.mem_cons_self, View.mem_set_unit_zero hz2 inb_S2048x128_S2048x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, hblk]
  isplitl [H5]
  · iexists _; isplitr
    swap; · iexact H5
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  isplitl [H6]
  · iexists _; isplitr
    swap; · iexact H6
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]
  isplitl [H8]
  · iexists _; isplitr
    swap; · iexact H8
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  · iexists _; isplitr
    swap; · iexact H9
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]

end Cert.Kernel.Hand

end
-- ==== Proof.KReg0.lean ====
/-
  The first kernel region as a pipeline. Between grid points the region keeps the two running-sum buffers: the
  invariant before point n+1 names their contents after point n, a recursion on the point (the sums of the point's
  block over what the point before left, over zero at the first point). The proof data follow: each input's staging
  buffer at its block, the pre-activation output at the block the point writes, the two one-row outputs at the running
  sums; the body obligation is the body's run in the case the point is in.
-/
import proofs.«182140_j34411277975785_1_alg».proof.Proof.Gen.Kernel.Launch
import proofs.«182140_j34411277975785_1_alg».proof.Proof.Gen.Kernel.Skeleton
import proofs.«182140_j34411277975785_1_alg».proof.Proof.Gen.Kernel.Points
import proofs.«182140_j34411277975785_1_alg».proof.Proof.KBody0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The running sums, point by point -/

/-- The grid point numbered `n` (read modulo the 25 points, so that the recursion below is total). -/
def tOf (n : ℕ) : Fin cfg0.N := ⟨n % 25, lt_of_lt_of_eq (Nat.mod_lt n (by decide)) N_0.symm⟩
theorem tOf_val (t : Fin cfg0.N) : tOf t.val = t := Fin.ext (Nat.mod_eq_of_lt (lt_of_lt_of_eq t.isLt N_0))

/-- What the two running-sum buffers hold after point `n`: at the first point the sums of that point's block over zero,
    afterwards the sums of the point's block over what the point before left. -/
def sAt (c : Dev nD) : ℕ → Vec F S1x128 .f32 × Vec F S1x128 .f32
  | 0 => (acc8 (grid0.coords (tOf 0)) (iblk0 V c 0 (tOf 0)) (iblk0 V c 1 (tOf 0)) (iblk0 V c 2 (tOf 0)) (iblk0 V c 3 (tOf 0)) (k0_pay2 (F := F)),
          acc9 (grid0.coords (tOf 0)) (iblk0 V c 0 (tOf 0)) (iblk0 V c 1 (tOf 0)) (iblk0 V c 2 (tOf 0)) (iblk0 V c 3 (tOf 0)) (k0_pay3 (F := F)))
  | n + 1 => (acc8 (grid0.coords (tOf (n + 1))) (iblk0 V c 0 (tOf (n + 1))) (iblk0 V c 1 (tOf (n + 1))) (iblk0 V c 2 (tOf (n + 1))) (iblk0 V c 3 (tOf (n + 1))) (sAt c n).1,
              acc9 (grid0.coords (tOf (n + 1))) (iblk0 V c 0 (tOf (n + 1))) (iblk0 V c 1 (tOf (n + 1))) (iblk0 V c 2 (tOf (n + 1))) (iblk0 V c 3 (tOf (n + 1))) (sAt c n).2)

theorem sAt_zero (c : Dev nD) (t : Fin cfg0.N) (ht : t.val = 0) :
    sAt V c t.val = (acc8 (grid0.coords t) (iblk0 V c 0 t) (iblk0 V c 1 t) (iblk0 V c 2 t) (iblk0 V c 3 t) (k0_pay2 (F := F)),
          acc9 (grid0.coords t) (iblk0 V c 0 t) (iblk0 V c 1 t) (iblk0 V c 2 t) (iblk0 V c 3 t) (k0_pay3 (F := F))) := by
  have e : tOf 0 = t := by rw [← ht]; exact tOf_val t
  rw [ht]; show (_, _) = _; rw [e]

theorem sAt_pos (c : Dev nD) (t : Fin cfg0.N) (ht : t.val ≠ 0) :
    sAt V c t.val = (acc8 (grid0.coords t) (iblk0 V c 0 t) (iblk0 V c 1 t) (iblk0 V c 2 t) (iblk0 V c 3 t) (sAt V c (t.val - 1)).1,
          acc9 (grid0.coords t) (iblk0 V c 0 t) (iblk0 V c 1 t) (iblk0 V c 2 t) (iblk0 V c 3 t) (sAt V c (t.val - 1)).2) := by
  obtain ⟨n, hn⟩ : ∃ n, t.val = n + 1 := Nat.exists_eq_succ_of_ne_zero ht
  have e : tOf (n + 1) = t := by rw [← hn]; exact tOf_val t
  rw [hn]; show (_, _) = _; rw [e]; rfl

/-! ## The region's invariant -/

abbrev scM0 : Memref sig .tc .vmem S1x128 .f32 := Memref.whole cc0_scratch0
abbrev scM1 : Memref sig .tc .vmem S1x128 .f32 := Memref.whole cc0_scratch1

/-- The scoped buffers the region does not touch (the other region's staging buffers), each whole at some contents. -/
def R8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the two running-sum buffers named as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ R8 c) ∗ (∃ r, prngReg c r)) := by
  unfold Pipeline.ΦA R8; rw [scopedRest0_eq]; simp only [scM0, scM1, owns_whole]; try rfl

/-- Before point `n`: at the start anything; afterwards the two running-sum buffers at what the point before left. -/
def Phi0 (c : Dev nD) : ℕ → sProp 𝕄
  | 0 => Pipeline.ΦA spec0 c
  | n + 1 => iprop((owns (c : Thread nD τ) scM0 fullShare (sAt V c n).1 ∗ owns (c : Thread nD τ) scM1 fullShare (sAt V c n).2 ∗ R8 c) ∗ (∃ r, prngReg c r))

theorem Phi0_pos (c : Dev nD) (n : ℕ) (hn : n ≠ 0) :
    Phi0 V c n = iprop((owns (c : Thread nD τ) scM0 fullShare (sAt V c (n - 1)).1 ∗ owns (c : Thread nD τ) scM1 fullShare (sAt V c (n - 1)).2 ∗ R8 c) ∗ (∃ r, prngReg c r)) := by
  cases n with
  | zero => exact absurd rfl hn
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => hblk (iblk0 V c 0 t) (iblk0 V c 1 t) (iblk0 V c 2 t) (iblk0 V c 3 t)
    | ⟨5, _⟩ => (sAt V c t.val).1
    | ⟨6, _⟩ => (sAt V c t.val).2
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = hblk (iblk0 V c 0 t) (iblk0 V c 1 t) (iblk0 V c 2 t) (iblk0 V c 3 t) := by dsimp only [dat0]
theorem after0_5 (c : Dev nD) (t : Fin cfg0.N) : (dat0 V c).after 5 t = (sAt V c t.val).1 := by dsimp only [dat0]
theorem after0_6 (c : Dev nD) (t : Fin cfg0.N) : (dat0 V c).after 6 t = (sAt V c t.val).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi_castSucc (c : Dev nD) (t : Fin cfg0.N) : (dat0 V c).Φ t.castSucc = Phi0 V c t.val := by
  dsimp only [dat0]; simp only [Fin.coe_castSucc]
theorem Phi_succ (c : Dev nD) (t : Fin cfg0.N) :
    (dat0 V c).Φ t.succ = iprop((owns (c : Thread nD τ) scM0 fullShare (sAt V c t.val).1 ∗ owns (c : Thread nD τ) scM1 fullShare (sAt V c t.val).2 ∗ R8 c) ∗ (∃ r, prngReg c r)) := rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    Phi_succ, Phi_castSucc, after0_0, after0_1, after0_2, after0_3, after0_4, after0_5, after0_6]
  by_cases ht : t.val = 0
  · rw [show Phi0 V c t.val = Pipeline.ΦA spec0 c from by rw [ht]; rfl, PhiA0_eq, sAt_zero V c t ht]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c (grid0.coords t) ((hcond0 t).mpr ht) Set.univ _ _ _ _ _ _ _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.val ht, sAt_pos V c t ht]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c (grid0.coords t) (fun h => ht ((hcond0 t).mp h)) Set.univ _ _ _ _ _ _ _ _ _ _ _ _ _ _ _ _ _ _ (iblk0 V c 0 t) (iblk0 V c 1 t) (iblk0 V c 2 t) (iblk0 V c 3 t) (sAt V c (t.val - 1)).1 (sAt V c (t.val - 1)).2 _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the class's back: the running sums' named contents are forgotten. -/
theorem hout0 (c : Dev nD) : (dat0 V c).Φ (Fin.last cfg0.N) ⊢ Pipeline.ΦA spec0 c := by
  rw [show (dat0 V c).Φ (Fin.last cfg0.N) = Phi0 V c 25 from rfl, Phi0_pos V c 25 (by decide), PhiA0_eq]
  iintro ⟨⟨HS0, HS1, HR⟩, Hg⟩
  isplitr [Hg]
  · isplitl [HS0]; · iexists _; iexact HS0
    isplitl [HS1]; · iexists _; iexact HS1
    iexact HR
  iexact Hg

end Cert.Kernel.Hand

end
-- ==== Proof.KReg1.lean ====
/-
  The second kernel region (normalise, ReLU, residual) as a pipeline: every grid point reads one block of 2048 rows of
  the pre-activation matrix and of the padded features and the two one-row vectors (scale, shift), and writes one
  block of the result. The body stores its whole output block once, so what the output's staging buffer holds after
  a point is one pure function of the four input blocks, and the region's invariant carries nothing between points.
-/
import proofs.«182140_j34411277975785_1_alg».proof.Proof.Gen.Kernel.Launch
import proofs.«182140_j34411277975785_1_alg».proof.Proof.Gen.Kernel.Skeleton
import proofs.«182140_j34411277975785_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev rB1 : Rect S2048x128 := Rect.unit (s := S2048x128) ![0, 0] S2048x128.size inb_S2048x128_S2048x128_0_0
abbrev rV1 : Rect S1x128 := Rect.unit (s := S1x128) ![0, 0] S1x128.size inb_S1x128_S1x128_0_0

/-- The output block after the body: its one store, of the payload of the four loads. -/
def out1_4 (x0 x1 : Vec F S2048x128 .f32) (x2 x3 : Vec F S1x128 .f32) : Vec F S2048x128 .f32 :=
  View.canon [⟨rB1, k1_pay1 (View.ld x0 rB1) (View.ld x2 rV1) (View.ld x3 rV1) (View.ld x1 rB1)⟩]

theorem cover1_4 (p0 : Vec F S2048x128 .f32) (y : S2048x128.Idx) :
    ∃ pc ∈ ([⟨rB1, p0⟩] : List (View.Piece (Elt F) S2048x128 .f32)), y ∈ pc.1.set :=
  View.cover_of_tiled [⟨rB1, p0⟩] S2048x128.size (by rfl) y

set_option maxHeartbeats 1000000 in
/-- The body on whole staging memrefs: the inputs at read contents, the output at anything, runs to the continuation with
    the inputs as they were and the output at `out1_4` of them. -/
theorem sound_kernel1 (c : Dev nD) (i : grid1.Coords) (E : Set ℕ)
    (arg1 : Memref sig .tc .vmem S2048x128 .f32) (harg1 : arg1.IsWhole) (arg2 : Memref sig .tc .vmem S2048x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2048x128 .f32) (harg5 : arg5.IsWhole)
    (x0 x1 : Vec F S2048x128 .f32) (x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__norm_act_kernel i arg1 harg1 arg2 harg2 arg3 harg3 arg4 harg4 arg5 harg5) K := by
  simp only [cc1__norm_act_kernel_eq_skeleton]; unfold cc1__norm_act_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the region finds them; after the body each input's buffer at its block and the output's at `out1_4` of
    the input blocks; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c (grid1.coords t) Set.univ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program's run. Between two items of @main a core holds every unscoped buffer at the contents the item
  before left: the launch memory, then each host stretch's operations applied, then what a kernel region leaves in its
  output arrays (the pipeline's write-backs folded over the array as the region found it). Each region is entered from
  that state: its windows' arrays are split off the unscoped buffers, the generator register goes into the region's
  invariant and comes back, nothing is owed; at the exit the arrays are put back at their final contents. The run's
  last state is read against the final memory: every argument as launched, and the result buffer at the last host
  stretch's term.
-/
import proofs.«182140_j34411277975785_1_alg».proof.Proof.Gen.Kernel.Launch
import proofs.«182140_j34411277975785_1_alg».proof.Proof.Gen.Kernel.Skeleton
import proofs.«182140_j34411277975785_1_alg».proof.Proof.Gen.Kernel.Points
import proofs.«182140_j34411277975785_1_alg».proof.Proof.KReg0
import proofs.«182140_j34411277975785_1_alg».proof.Proof.KReg1
import proofs.«182140_j34411277975785_1_alg».proof.Proof.Gen.Kernel.Regions
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- What the first region finds: the launch memory after the host operations before it. -/
abbrev VA : (c : Dev nD) → (b : Ref sig .tc) → Buf (Elt F) ((c : Thread nD τ).loc b) := fun c b => V9 m c b

/-- What the first region leaves: its arrays at what the write-backs leave, every other buffer as entered. -/
def W10 (c : Dev nD) : Valuation τ sig (Elt F) :=
  Pipeline.withArrays spec0 c (V9 m c) fun w => (dat0 (VA m) c).arrAt w cfg0.N
theorem W10_arr (c : Dev nD) (w : Fin cfg0.W) :
    W10 m c (Proc.devRef .tc (Pipeline.arrRef spec0 w)) = (dat0 (VA m) c).arrAt w cfg0.N := by
  unfold W10; exact Pipeline.withArrays_arr spec0 launch0.win.arr_inj c _ _ w

/-- The regions' outputs so far: the first region's. -/
def outsA : Outs (F := F) := fun _ r c => W10 m c r

/-- What the second region finds. -/
abbrev VB : (c : Dev nD) → (b : Ref sig .tc) → Buf (Elt F) ((c : Thread nD τ).loc b) := fun c b => V11 m (outsA m) c b

/-- What the second region leaves. -/
def W12 (c : Dev nD) : Valuation τ sig (Elt F) :=
  Pipeline.withArrays spec1 c (V11 m (outsA m) c) fun w => (dat1 (VB m) c).arrAt w cfg1.N
theorem W12_arr (c : Dev nD) (w : Fin cfg1.W) :
    W12 m c (Proc.devRef .tc (Pipeline.arrRef spec1 w)) = (dat1 (VB m) c).arrAt w cfg1.N := by
  unfold W12; exact Pipeline.withArrays_arr spec1 launch1.win.arr_inj c _ _ w

/-- Both regions' outputs: item 12's from the second region, item 10's from the first. -/
def outs : Outs (F := F) := fun J r c => match J with
  | 12 => W12 m c r
  | _ => W10 m c r

theorem outs_10 (r : Ref sig .tc) (c : Dev nD) : outs m 10 r c = W10 m c r := rfl
theorem outs_12 (r : Ref sig .tc) (c : Dev nD) : outs m 12 r c = W12 m c r := rfl
theorem V10_outs (c : Dev nD) : V10 m (outs m) c = V10 m (outsA m) c := rfl
theorem V11_outs (c : Dev nD) : V11 m (outs m) c = V11 m (outsA m) c := rfl

/-! ## Each region's arrays at its exit, and the buffers it leaves alone -/

theorem V10_v24_0 (c : Dev nD) : V10 m (outs m) c main_v24_0 = (dat0 (VA m) c).arrAt 4 cfg0.N := by
  simp only [V10, Function.update_of_ne (StableHlo.devRef_ne_of_ne (by decide) : (Proc.devRef .tc main_v24_0 : DevRef τ sig) ≠ Proc.devRef .tc main_v24_2),
    Function.update_of_ne (StableHlo.devRef_ne_of_ne (by decide) : (Proc.devRef .tc main_v24_0 : DevRef τ sig) ≠ Proc.devRef .tc main_v24_1), Function.update_self, outs_10]
  exact W10_arr m c 4
theorem V10_v24_1 (c : Dev nD) : V10 m (outs m) c main_v24_1 = (dat0 (VA m) c).arrAt 5 cfg0.N := by
  simp only [V10, Function.update_of_ne (StableHlo.devRef_ne_of_ne (by decide) : (Proc.devRef .tc main_v24_1 : DevRef τ sig) ≠ Proc.devRef .tc main_v24_2),
    Function.update_self, outs_10]
  exact W10_arr m c 5
theorem V10_v24_2 (c : Dev nD) : V10 m (outs m) c main_v24_2 = (dat0 (VA m) c).arrAt 6 cfg0.N := by
  simp only [V10, Function.update_self, outs_10]
  exact W10_arr m c 6

theorem hF0 (c : Dev nD) : ∀ w : Fin cfg0.W, (dat0 (VA m) c).arrAt w cfg0.N = V10 m (outs m) c (Pipeline.arrRef spec0 w)
  | ⟨0, _⟩ => ((dat0 (VA m) c).arrAt_in 0 rfl _).trans ((A_eq0 (VA m) c 0).trans (V10_of m (outs m) c main_v20 (by decide)).symm)
  | ⟨1, _⟩ => ((dat0 (VA m) c).arrAt_in 1 rfl _).trans ((A_eq0 (VA m) c 1).trans (V10_of m (outs m) c main_v21 (by decide)).symm)
  | ⟨2, _⟩ => ((dat0 (VA m) c).arrAt_in 2 rfl _).trans ((A_eq0 (VA m) c 2).trans (V10_of m (outs m) c main_v23 (by decide)).symm)
  | ⟨3, _⟩ => ((dat0 (VA m) c).arrAt_in 3 rfl _).trans ((A_eq0 (VA m) c 3).trans (V10_of m (outs m) c main_arg2 (by decide)).symm)
  | ⟨4, _⟩ => (V10_v24_0 m c).symm
  | ⟨5, _⟩ => (V10_v24_1 m c).symm
  | ⟨6, _⟩ => (V10_v24_2 m c).symm

theorem hrest0 (c : Dev nD) : ∀ b, b ∉ Finset.univ.image (Pipeline.arrRef spec0) → V10 m (outs m) c b = V9 m c b := fun b hb =>
  V10_of m (outs m) c b (by
    intro h
    simp only [List.mem_cons, List.mem_nil_iff, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

theorem V12_v39 (c : Dev nD) : V12 m (outs m) c main_v39 = (dat1 (VB m) c).arrAt 4 cfg1.N := by
  simp only [V12, Function.update_self, outs_12]
  exact W12_arr m c 4

theorem hF1 (c : Dev nD) : ∀ w : Fin cfg1.W, (dat1 (VB m) c).arrAt w cfg1.N = V12 m (outs m) c (Pipeline.arrRef spec1 w)
  | ⟨0, _⟩ => ((dat1 (VB m) c).arrAt_in 0 rfl _).trans ((A_eq1 (VB m) c 0).trans (V12_of m (outs m) c main_v24_0 (by decide)).symm)
  | ⟨1, _⟩ => ((dat1 (VB m) c).arrAt_in 1 rfl _).trans ((A_eq1 (VB m) c 1).trans (V12_of m (outs m) c main_v22 (by decide)).symm)
  | ⟨2, _⟩ => ((dat1 (VB m) c).arrAt_in 2 rfl _).trans ((A_eq1 (VB m) c 2).trans (V12_of m (outs m) c main_v35 (by decide)).symm)
  | ⟨3, _⟩ => ((dat1 (VB m) c).arrAt_in 3 rfl _).trans ((A_eq1 (VB m) c 3).trans (V12_of m (outs m) c main_v38 (by decide)).symm)
  | ⟨4, _⟩ => (V12_v39 m c).symm

theorem hrest1 (c : Dev nD) : ∀ b, b ∉ Finset.univ.image (Pipeline.arrRef spec1) → V12 m (outs m) c b = V11 m (outs m) c b := fun b hb =>
  V12_of m (outs m) c b (by
    intro h
    simp only [List.mem_cons, List.mem_nil_iff, or_false] at h
    subst h
    exact hb (Finset.mem_image.mpr ⟨4, Finset.mem_univ _, rfl⟩))

/-! ## The proof data family and what rides beside the buffers -/

abbrev 𝒱₀ : Variants := Variants.none
abbrev L : GSem nD τ sig → Finset Unit := fun _ => ∅
abbrev lv : GSem nD τ sig → Unit → ℕ := fun _ _ => 0

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

/-- Beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem hE2 (c : Dev nD) : (E 2 c : sProp 𝕄) ⊢ iprop(∃ W, owes (c : Thread nD τ) (0 : CellTallies nD τ sig Unit) W) := by
  iintro ⟨Hp, HO⟩; iexact HO

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V9 m c) ∗ E 0 c)
  post c := iprop(StableHlo.held (c : Thread nD τ) (Pipeline.ucRefs τ sig) (V10 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V10 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V11 m (outs m) c) ∗ E 1 c)
  post c := iprop(StableHlo.held (c : Thread nD τ) (Pipeline.ucRefs τ sig) (V12 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs m) c b) (fun b => V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main terminates, and the final memory holds the result buffer at the last
    boundary's contents and every argument as launched. -/
theorem run_val : θ_run defs (onTc (τ := τ) (main (F := F))) ⟨m, fun _ => 0, ρ⟩ (fun r => ∀ c : Dev nD,
      r.2.mem ((c.tc : Thread nD τ).loc main_v40) = V13 m (outs m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c =>
      ⟨h c _ (mem_uc main_v40 (by decide)),
       (h c _ (mem_uc main_arg0 (by decide))).trans (V13_main_arg0 m (outs m) c),
       (h c _ (mem_uc main_arg1 (by decide))).trans (V13_main_arg1 m (outs m) c),
       (h c _ (mem_uc main_arg2 (by decide))).trans (V13_main_arg2 m (outs m) c),
       (h c _ (mem_uc main_arg3 (by decide))).trans (V13_main_arg3 m (outs m) c),
       (h c _ (mem_uc main_arg4 (by decide))).trans (V13_main_arg4 m (outs m) c),
       (h c _ (mem_uc main_arg5 (by decide))).trans (V13_main_arg5 m (outs m) c),
       (h c _ (mem_uc main_arg6 (by decide))).trans (V13_main_arg6 m (outs m) c)⟩)

/-- The frame claim: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_val m ρ)

end Cert.Kernel.Hand

end
-- ==== Proof.KIBody0.lean ====
/-
  The first kernel region's body (linear map, bias, degree-norm scale; running column sums of the masked block and of
  its squares) run on whole staging memrefs. Two cases, by the body's one branch: at the grid's first point the two
  running-sum buffers are reset to zero before they are read; at every later point they are read as the point before
  left them. Either way the point writes its block of the pre-activation matrix, adds the block's masked column sums
  to the first buffer and those of the squares to the second, and copies both buffers out to the two one-row outputs.
-/
import proofs.«182140_j34411277975785_1_alg».proof.Proof.Gen.KernelIdeal.Launch
import proofs.«182140_j34411277975785_1_alg».proof.Proof.Gen.KernelIdeal.Skeleton
import proofs.«182140_j34411277975785_1_alg».proof.Proof.Gen.KernelIdeal.Points
import Idealize.ShloMosaic.Lib.Pipeline.Value
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: the grid's first point. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev rB : Rect S2048x128 := Rect.unit (s := S2048x128) ![0, 0] S2048x128.size inb_S2048x128_S2048x128_0_0
abbrev rN : Rect S2048x1 := Rect.unit (s := S2048x1) ![0, 0] S2048x1.size inb_S2048x1_S2048x1_0_0
abbrev rW : Rect S128x128 := Rect.unit (s := S128x128) ![0, 0] S128x128.size inb_S128x128_S128x128_0_0
abbrev rb : Rect S128 := Rect.unit (s := S128) ![0] S128.size inb_S128_S128_0
abbrev rV : Rect S1x128 := Rect.unit (s := S1x128) ![0, 0] S1x128.size inb_S1x128_S1x128_0_0

theorem hz2 : (![0, 0] : Fin 2 → Nat) = fun _ => 0 := by funext a; fin_cases a <;> rfl
theorem hz1 : (![0] : Fin 1 → Nat) = fun _ => 0 := by funext a; fin_cases a; rfl

/-- A whole-buffer load after two whole-buffer stores reads the later store's payload. -/
theorem readCov_two {sig' : RefSig} {κ : Kind} {sp : Space} (v : View sig' κ sp S1x128 .f32) (w w' : S1x128.Idx → Elt F .f32) :
    v.readCov [(⟨Rect.unit ![0, 0] ![1, 128] inb_S1x128_S1x128_0_0, w⟩ : View.Piece (Elt F) S1x128 .f32), ⟨Rect.unit ![0, 0] ![1, 128] inb_S1x128_S1x128_0_0, w'⟩]
      (Rect.unit ![0, 0] ![1, 128] inb_S1x128_S1x128_0_0).toLoadRect = w := by
  have h := View.readCov_eq_canon_ld (Val := Elt F) v [(⟨Rect.unit ![0, 0] S1x128.size inb_S1x128_S1x128_0_0, w⟩ : View.Piece (Elt F) S1x128 .f32), ⟨Rect.unit ![0, 0] S1x128.size inb_S1x128_S1x128_0_0, w'⟩]
    (Rect.unit ![0, 0] S1x128.size inb_S1x128_S1x128_0_0) (fun y => ⟨_, List.mem_cons_self, View.mem_set_unit_zero hz2 inb_S1x128_S1x128_0_0 y⟩)
  rw [View.canon_cons_unit_zero hz2, View.ld_unit_zero (S := S1x128) hz2] at h
  exact h

/-- What a point leaves in the two running-sum buffers, from the four input blocks and what the buffers held when the
    sums are read (`s8`, `s9`): the column sums of the masked block added to the first, those of its squares to the second. -/
def acc8 (i : grid0.Coords) (x0 : Vec F S2048x128 .f32) (x1 : Vec F S2048x1 .f32) (x2 : Vec F S128x128 .f32) (x3 : Vec F S128 .f32)
    (s8 : Vec F S1x128 .f32) : Vec F S1x128 .f32 := k0_pay6 i x0 x2 x3 x1 s8
def acc9 (i : grid0.Coords) (x0 : Vec F S2048x128 .f32) (x1 : Vec F S2048x1 .f32) (x2 : Vec F S128x128 .f32) (x3 : Vec F S128 .f32)
    (s9 : Vec F S1x128 .f32) : Vec F S1x128 .f32 := k0_pay1 (k0_pay5 i x0 x2 x3 x1) s9
/-- The block of the pre-activation matrix a point writes. -/
def hblk (x0 : Vec F S2048x128 .f32) (x1 : Vec F S2048x1 .f32) (x2 : Vec F S128x128 .f32) (x3 : Vec F S128 .f32) : Vec F S2048x128 .f32 :=
  k0_pay4 x0 x2 x3 x1

set_option maxHeartbeats 4000000 in
/-- The body at a point that is not the first: the running sums are read, added to and stored back, and copied out. -/
theorem sound_kernel0_later (c : Dev nD) (i : grid0.Coords) (hc : ¬cond0 i) (E : Set ℕ)
    (arg1 : Memref sig .tc .vmem S2048x128 .f32) (harg1 : arg1.IsWhole) (arg2 : Memref sig .tc .vmem S2048x1 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S2048x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (x0 : Vec F S2048x128 .f32) (x1 : Vec F S2048x1 .f32) (x2 : Vec F S128x128 .f32) (x3 : Vec F S128 .f32) (s8 s9 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hblk x0 x1 x2 x3)
            ∗ owns (c : Thread nD τ) arg6 fullShare (acc8 i x0 x1 x2 x3 s8) ∗ owns (c : Thread nD τ) arg7 fullShare (acc9 i x0 x1 x2 x3 s9)
            ∗ owns (c : Thread nD τ) arg8 fullShare (acc8 i x0 x1 x2 x3 s8) ∗ owns (c : Thread nD τ) arg9 fullShare (acc9 i x0 x1 x2 x3 s9)) -∗ K ⟨⟩))
      ⊢ wp frame (wpE (defs₀ (F := F)) Variants.none c none) E (cc0__lin_stats_kernel i arg1 harg1 arg2 harg2 arg3 harg3 arg4 harg4 arg5 harg5 arg6 harg6 arg7 harg7 arg8 harg8 arg9 harg9) K := by
  simp only [cc0__lin_stats_kernel_eq_skeleton]; unfold cc0__lin_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    first
      | rw [View.read_writes_eq_canon _ _ _ (fun y => ⟨_, List.mem_singleton_self _, View.mem_set_unit_zero hz2 inb_S2048x128_S2048x128_0_0 y⟩), View.canon_unit_zero hz2]
      | rw [View.read_writes_eq_canon _ _ _ (fun y => ⟨_, List.mem_cons_self, View.mem_set_unit_zero hz2 inb_S2048x128_S2048x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, hblk]
  isplitl [H5]
  · iexists _; isplitr
    swap; · iexact H5
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  isplitl [H6]
  · iexists _; isplitr
    swap; · iexact H6
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]
  isplitl [H8]
  · iexists _; isplitr
    swap; · iexact H8
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  · iexists _; isplitr
    swap; · iexact H9
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]

set_option maxHeartbeats 4000000 in
/-- The body at the first point: the running sums are reset to zero first, whatever the two buffers held. -/
theorem sound_kernel0_first (c : Dev nD) (i : grid0.Coords) (hc : cond0 i) (E : Set ℕ)
    (arg1 : Memref sig .tc .vmem S2048x128 .f32) (harg1 : arg1.IsWhole) (arg2 : Memref sig .tc .vmem S2048x1 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S2048x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (x0 : Vec F S2048x128 .f32) (x1 : Vec F S2048x1 .f32) (x2 : Vec F S128x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (hblk x0 x1 x2 x3)
            ∗ owns (c : Thread nD τ) arg6 fullShare (acc8 i x0 x1 x2 x3 (k0_pay2 (F := F))) ∗ owns (c : Thread nD τ) arg7 fullShare (acc9 i x0 x1 x2 x3 (k0_pay3 (F := F)))
            ∗ owns (c : Thread nD τ) arg8 fullShare (acc8 i x0 x1 x2 x3 (k0_pay2 (F := F))) ∗ owns (c : Thread nD τ) arg9 fullShare (acc9 i x0 x1 x2 x3 (k0_pay3 (F := F)))) -∗ K ⟨⟩))
      ⊢ wp frame (wpE (defs₀ (F := F)) Variants.none c none) E (cc0__lin_stats_kernel i arg1 harg1 arg2 harg2 arg3 harg3 arg4 harg4 arg5 harg5 arg6 harg6 arg7 harg7 arg8 harg8 arg9 harg9) K := by
  simp only [cc0__lin_stats_kernel_eq_skeleton]; unfold cc0__lin_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d8, %f8, -, H8⟩, ⟨%d9, %f9, -, H9⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    first
      | rw [View.read_writes_eq_canon _ _ _ (fun y => ⟨_, List.mem_singleton_self _, View.mem_set_unit_zero hz2 inb_S2048x128_S2048x128_0_0 y⟩), View.canon_unit_zero hz2]
      | rw [View.read_writes_eq_canon _ _ _ (fun y => ⟨_, List.mem_cons_self, View.mem_set_unit_zero hz2 inb_S2048x128_S2048x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, hblk]
  isplitl [H5]
  · iexists _; isplitr
    swap; · iexact H5
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  isplitl [H6]
  · iexists _; isplitr
    swap; · iexact H6
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]
  isplitl [H8]
  · iexists _; isplitr
    swap; · iexact H8
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc8]
  · iexists _; isplitr
    swap; · iexact H9
    ipureintro
    sl_unfold_run_names
    first
      | rw [View.read_writes_eq_canon _ _ _ (fun y => ⟨_, List.mem_singleton_self _, View.mem_set_unit_zero hz2 inb_S1x128_S1x128_0_0 y⟩), View.canon_unit_zero hz2]
      | rw [View.read_writes_eq_canon _ _ _ (fun y => ⟨_, List.mem_cons_self, View.mem_set_unit_zero hz2 inb_S1x128_S1x128_0_0 y⟩), View.canon_cons_unit_zero hz2]
    simp only [View.readAt_eq_ld, Rect.toLoadRect, View.ld_unit_zero (S := S2048x128) hz2, View.ld_unit_zero (S := S128x128) hz2,
      View.ld_unit_zero (S := S128) hz1, View.ld_unit_zero (S := S2048x1) hz2, View.ld_unit_zero (S := S1x128) hz2,
      View.readCov_unit_zero (S := S1x128) _ hz2, readCov_two, acc9]

end Cert.KernelIdeal.Hand

end
-- ==== Proof.KIReg0.lean ====
/-
  The first kernel region as a pipeline. Between grid points the region keeps the two running-sum buffers: the
  invariant before point n+1 names their contents after point n, a recursion on the point (the sums of the point's
  block over what the point before left, over zero at the first point). The proof data follow: each input's staging
  buffer at its block, the pre-activation output at the block the point writes, the two one-row outputs at the running
  sums; the body obligation is the body's run in the case the point is in.
-/
import proofs.«182140_j34411277975785_1_alg».proof.Proof.Gen.KernelIdeal.Launch
import proofs.«182140_j34411277975785_1_alg».proof.Proof.Gen.KernelIdeal.Skeleton
import proofs.«182140_j34411277975785_1_alg».proof.Proof.Gen.KernelIdeal.Points
import proofs.«182140_j34411277975785_1_alg».proof.Proof.KIBody0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The running sums, point by point -/

/-- The grid point numbered `n` (read modulo the 25 points, so that the recursion below is total). -/
def tOf (n : ℕ) : Fin cfg0.N := ⟨n % 25, lt_of_lt_of_eq (Nat.mod_lt n (by decide)) N_0.symm⟩
theorem tOf_val (t : Fin cfg0.N) : tOf t.val = t := Fin.ext (Nat.mod_eq_of_lt (lt_of_lt_of_eq t.isLt N_0))

/-- What the two running-sum buffers hold after point `n`: at the first point the sums of that point's block over zero,
    afterwards the sums of the point's block over what the point before left. -/
def sAt (c : Dev nD) : ℕ → Vec F S1x128 .f32 × Vec F S1x128 .f32
  | 0 => (acc8 (grid0.coords (tOf 0)) (iblk0 V c 0 (tOf 0)) (iblk0 V c 1 (tOf 0)) (iblk0 V c 2 (tOf 0)) (iblk0 V c 3 (tOf 0)) (k0_pay2 (F := F)),
          acc9 (grid0.coords (tOf 0)) (iblk0 V c 0 (tOf 0)) (iblk0 V c 1 (tOf 0)) (iblk0 V c 2 (tOf 0)) (iblk0 V c 3 (tOf 0)) (k0_pay3 (F := F)))
  | n + 1 => (acc8 (grid0.coords (tOf (n + 1))) (iblk0 V c 0 (tOf (n + 1))) (iblk0 V c 1 (tOf (n + 1))) (iblk0 V c 2 (tOf (n + 1))) (iblk0 V c 3 (tOf (n + 1))) (sAt c n).1,
              acc9 (grid0.coords (tOf (n + 1))) (iblk0 V c 0 (tOf (n + 1))) (iblk0 V c 1 (tOf (n + 1))) (iblk0 V c 2 (tOf (n + 1))) (iblk0 V c 3 (tOf (n + 1))) (sAt c n).2)

theorem sAt_zero (c : Dev nD) (t : Fin cfg0.N) (ht : t.val = 0) :
    sAt V c t.val = (acc8 (grid0.coords t) (iblk0 V c 0 t) (iblk0 V c 1 t) (iblk0 V c 2 t) (iblk0 V c 3 t) (k0_pay2 (F := F)),
          acc9 (grid0.coords t) (iblk0 V c 0 t) (iblk0 V c 1 t) (iblk0 V c 2 t) (iblk0 V c 3 t) (k0_pay3 (F := F))) := by
  have e : tOf 0 = t := by rw [← ht]; exact tOf_val t
  rw [ht]; show (_, _) = _; rw [e]

theorem sAt_pos (c : Dev nD) (t : Fin cfg0.N) (ht : t.val ≠ 0) :
    sAt V c t.val = (acc8 (grid0.coords t) (iblk0 V c 0 t) (iblk0 V c 1 t) (iblk0 V c 2 t) (iblk0 V c 3 t) (sAt V c (t.val - 1)).1,
          acc9 (grid0.coords t) (iblk0 V c 0 t) (iblk0 V c 1 t) (iblk0 V c 2 t) (iblk0 V c 3 t) (sAt V c (t.val - 1)).2) := by
  obtain ⟨n, hn⟩ : ∃ n, t.val = n + 1 := Nat.exists_eq_succ_of_ne_zero ht
  have e : tOf (n + 1) = t := by rw [← hn]; exact tOf_val t
  rw [hn]; show (_, _) = _; rw [e]; rfl

/-! ## The region's invariant -/

abbrev scM0 : Memref sig .tc .vmem S1x128 .f32 := Memref.whole cc0_scratch0
abbrev scM1 : Memref sig .tc .vmem S1x128 .f32 := Memref.whole cc0_scratch1

/-- The scoped buffers the region does not touch (the other region's staging buffers), each whole at some contents. -/
def R8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the two running-sum buffers named as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ R8 c) ∗ (∃ r, prngReg c r)) := by
  unfold Pipeline.ΦA R8; rw [scopedRest0_eq]; simp only [scM0, scM1, owns_whole]; try rfl

/-- Before point `n`: at the start anything; afterwards the two running-sum buffers at what the point before left. -/
def Phi0 (c : Dev nD) : ℕ → sProp 𝕄
  | 0 => Pipeline.ΦA spec0 c
  | n + 1 => iprop((owns (c : Thread nD τ) scM0 fullShare (sAt V c n).1 ∗ owns (c : Thread nD τ) scM1 fullShare (sAt V c n).2 ∗ R8 c) ∗ (∃ r, prngReg c r))

theorem Phi0_pos (c : Dev nD) (n : ℕ) (hn : n ≠ 0) :
    Phi0 V c n = iprop((owns (c : Thread nD τ) scM0 fullShare (sAt V c (n - 1)).1 ∗ owns (c : Thread nD τ) scM1 fullShare (sAt V c (n - 1)).2 ∗ R8 c) ∗ (∃ r, prngReg c r)) := by
  cases n with
  | zero => exact absurd rfl hn
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => hblk (iblk0 V c 0 t) (iblk0 V c 1 t) (iblk0 V c 2 t) (iblk0 V c 3 t)
    | ⟨5, _⟩ => (sAt V c t.val).1
    | ⟨6, _⟩ => (sAt V c t.val).2
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = hblk (iblk0 V c 0 t) (iblk0 V c 1 t) (iblk0 V c 2 t) (iblk0 V c 3 t) := by dsimp only [dat0]
theorem after0_5 (c : Dev nD) (t : Fin cfg0.N) : (dat0 V c).after 5 t = (sAt V c t.val).1 := by dsimp only [dat0]
theorem after0_6 (c : Dev nD) (t : Fin cfg0.N) : (dat0 V c).after 6 t = (sAt V c t.val).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

theorem Phi_castSucc (c : Dev nD) (t : Fin cfg0.N) : (dat0 V c).Φ t.castSucc = Phi0 V c t.val := by
  dsimp only [dat0]; simp only [Fin.coe_castSucc]
theorem Phi_succ (c : Dev nD) (t : Fin cfg0.N) :
    (dat0 V c).Φ t.succ = iprop((owns (c : Thread nD τ) scM0 fullShare (sAt V c t.val).1 ∗ owns (c : Thread nD τ) scM1 fullShare (sAt V c t.val).2 ∗ R8 c) ∗ (∃ r, prngReg c r)) := rfl

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    Phi_succ, Phi_castSucc, after0_0, after0_1, after0_2, after0_3, after0_4, after0_5, after0_6]
  by_cases ht : t.val = 0
  · rw [show Phi0 V c t.val = Pipeline.ΦA spec0 c from by rw [ht]; rfl, PhiA0_eq, sAt_zero V c t ht]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c (grid0.coords t) ((hcond0 t).mpr ht) Set.univ _ _ _ _ _ _ _ _ _ _ _ _ _ _ _ _ _ _ (iblk0 V c 0 t) (iblk0 V c 1 t) (iblk0 V c 2 t) (iblk0 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.val ht, sAt_pos V c t ht]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c (grid0.coords t) (fun h => ht ((hcond0 t).mp h)) Set.univ _ _ _ _ _ _ _ _ _ _ _ _ _ _ _ _ _ _ (iblk0 V c 0 t) (iblk0 V c 1 t) (iblk0 V c 2 t) (iblk0 V c 3 t) (sAt V c (t.val - 1)).1 (sAt V c (t.val - 1)).2 _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant gives the class's back: the running sums' named contents are forgotten. -/
theorem hout0 (c : Dev nD) : (dat0 V c).Φ (Fin.last cfg0.N) ⊢ Pipeline.ΦA spec0 c := by
  rw [show (dat0 V c).Φ (Fin.last cfg0.N) = Phi0 V c 25 from rfl, Phi0_pos V c 25 (by decide), PhiA0_eq]
  iintro ⟨⟨HS0, HS1, HR⟩, Hg⟩
  isplitr [Hg]
  · isplitl [HS0]; · iexists _; iexact HS0
    isplitl [HS1]; · iexists _; iexact HS1
    iexact HR
  iexact Hg

end Cert.KernelIdeal.Hand

end
-- ==== Proof.KIReg1.lean ====
/-
  The second kernel region (normalise, ReLU, residual) as a pipeline: every grid point reads one block of 2048 rows of
  the pre-activation matrix and of the padded features and the two one-row vectors (scale, shift), and writes one
  block of the result. The body stores its whole output block once, so what the output's staging buffer holds after
  a point is one pure function of the four input blocks, and the region's invariant carries nothing between points.
-/
import proofs.«182140_j34411277975785_1_alg».proof.Proof.Gen.KernelIdeal.Launch
import proofs.«182140_j34411277975785_1_alg».proof.Proof.Gen.KernelIdeal.Skeleton
import proofs.«182140_j34411277975785_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves -/

abbrev rB1 : Rect S2048x128 := Rect.unit (s := S2048x128) ![0, 0] S2048x128.size inb_S2048x128_S2048x128_0_0
abbrev rV1 : Rect S1x128 := Rect.unit (s := S1x128) ![0, 0] S1x128.size inb_S1x128_S1x128_0_0

/-- The output block after the body: its one store, of the payload of the four loads. -/
def out1_4 (x0 x1 : Vec F S2048x128 .f32) (x2 x3 : Vec F S1x128 .f32) : Vec F S2048x128 .f32 :=
  View.canon [⟨rB1, k1_pay1 (View.ld x0 rB1) (View.ld x2 rV1) (View.ld x3 rV1) (View.ld x1 rB1)⟩]

theorem cover1_4 (p0 : Vec F S2048x128 .f32) (y : S2048x128.Idx) :
    ∃ pc ∈ ([⟨rB1, p0⟩] : List (View.Piece (Elt F) S2048x128 .f32)), y ∈ pc.1.set :=
  View.cover_of_tiled [⟨rB1, p0⟩] S2048x128.size (by rfl) y

set_option maxHeartbeats 1000000 in
/-- The body on whole staging memrefs: the inputs at read contents, the output at anything, runs to the continuation with
    the inputs as they were and the output at `out1_4` of them. -/
theorem sound_kernel1 (c : Dev nD) (i : grid1.Coords) (E : Set ℕ)
    (arg1 : Memref sig .tc .vmem S2048x128 .f32) (harg1 : arg1.IsWhole) (arg2 : Memref sig .tc .vmem S2048x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2048x128 .f32) (harg5 : arg5.IsWhole)
    (x0 x1 : Vec F S2048x128 .f32) (x2 x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__norm_act_kernel i arg1 harg1 arg2 harg2 arg3 harg3 arg4 harg4 arg5 harg5) K := by
  simp only [cc1__norm_act_kernel_eq_skeleton]; unfold cc1__norm_act_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The arrays as the region finds them; after the body each input's buffer at its block and the output's at `out1_4` of
    the input blocks; the invariant the scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c (grid1.coords t) Set.univ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program's run. Between two items of @main a core holds every unscoped buffer at the contents the item
  before left: the launch memory, then each host stretch's operations applied, then what a kernel region leaves in its
  output arrays (the pipeline's write-backs folded over the array as the region found it). Each region is entered from
  that state: its windows' arrays are split off the unscoped buffers, the generator register goes into the region's
  invariant and comes back, nothing is owed; at the exit the arrays are put back at their final contents. The run's
  last state is read against the final memory: every argument as launched, and the result buffer at the last host
  stretch's term.
-/
import proofs.«182140_j34411277975785_1_alg».proof.Proof.Gen.KernelIdeal.Launch
import proofs.«182140_j34411277975785_1_alg».proof.Proof.Gen.KernelIdeal.Skeleton
import proofs.«182140_j34411277975785_1_alg».proof.Proof.Gen.KernelIdeal.Points
import proofs.«182140_j34411277975785_1_alg».proof.Proof.KIReg0
import proofs.«182140_j34411277975785_1_alg».proof.Proof.KIReg1
import proofs.«182140_j34411277975785_1_alg».proof.Proof.Gen.KernelIdeal.Regions
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- What the first region finds: the launch memory after the host operations before it. -/
abbrev VA : (c : Dev nD) → (b : Ref sig .tc) → Buf (Elt F) ((c : Thread nD τ).loc b) := fun c b => V9 m c b

/-- What the first region leaves: its arrays at what the write-backs leave, every other buffer as entered. -/
def W10 (c : Dev nD) : Valuation τ sig (Elt F) :=
  Pipeline.withArrays spec0 c (V9 m c) fun w => (dat0 (VA m) c).arrAt w cfg0.N
theorem W10_arr (c : Dev nD) (w : Fin cfg0.W) :
    W10 m c (Proc.devRef .tc (Pipeline.arrRef spec0 w)) = (dat0 (VA m) c).arrAt w cfg0.N := by
  unfold W10; exact Pipeline.withArrays_arr spec0 launch0.win.arr_inj c _ _ w

/-- The regions' outputs so far: the first region's. -/
def outsA : Outs (F := F) := fun _ r c => W10 m c r

/-- What the second region finds. -/
abbrev VB : (c : Dev nD) → (b : Ref sig .tc) → Buf (Elt F) ((c : Thread nD τ).loc b) := fun c b => V11 m (outsA m) c b

/-- What the second region leaves. -/
def W12 (c : Dev nD) : Valuation τ sig (Elt F) :=
  Pipeline.withArrays spec1 c (V11 m (outsA m) c) fun w => (dat1 (VB m) c).arrAt w cfg1.N
theorem W12_arr (c : Dev nD) (w : Fin cfg1.W) :
    W12 m c (Proc.devRef .tc (Pipeline.arrRef spec1 w)) = (dat1 (VB m) c).arrAt w cfg1.N := by
  unfold W12; exact Pipeline.withArrays_arr spec1 launch1.win.arr_inj c _ _ w

/-- Both regions' outputs: item 12's from the second region, item 10's from the first. -/
def outs : Outs (F := F) := fun J r c => match J with
  | 12 => W12 m c r
  | _ => W10 m c r

theorem outs_10 (r : Ref sig .tc) (c : Dev nD) : outs m 10 r c = W10 m c r := rfl
theorem outs_12 (r : Ref sig .tc) (c : Dev nD) : outs m 12 r c = W12 m c r := rfl
theorem V10_outs (c : Dev nD) : V10 m (outs m) c = V10 m (outsA m) c := rfl
theorem V11_outs (c : Dev nD) : V11 m (outs m) c = V11 m (outsA m) c := rfl

/-! ## Each region's arrays at its exit, and the buffers it leaves alone -/

theorem V10_v24_0 (c : Dev nD) : V10 m (outs m) c main_v24_0 = (dat0 (VA m) c).arrAt 4 cfg0.N := by
  simp only [V10, Function.update_of_ne (StableHlo.devRef_ne_of_ne (by decide) : (Proc.devRef .tc main_v24_0 : DevRef τ sig) ≠ Proc.devRef .tc main_v24_2),
    Function.update_of_ne (StableHlo.devRef_ne_of_ne (by decide) : (Proc.devRef .tc main_v24_0 : DevRef τ sig) ≠ Proc.devRef .tc main_v24_1), Function.update_self, outs_10]
  exact W10_arr m c 4
theorem V10_v24_1 (c : Dev nD) : V10 m (outs m) c main_v24_1 = (dat0 (VA m) c).arrAt 5 cfg0.N := by
  simp only [V10, Function.update_of_ne (StableHlo.devRef_ne_of_ne (by decide) : (Proc.devRef .tc main_v24_1 : DevRef τ sig) ≠ Proc.devRef .tc main_v24_2),
    Function.update_self, outs_10]
  exact W10_arr m c 5
theorem V10_v24_2 (c : Dev nD) : V10 m (outs m) c main_v24_2 = (dat0 (VA m) c).arrAt 6 cfg0.N := by
  simp only [V10, Function.update_self, outs_10]
  exact W10_arr m c 6

theorem hF0 (c : Dev nD) : ∀ w : Fin cfg0.W, (dat0 (VA m) c).arrAt w cfg0.N = V10 m (outs m) c (Pipeline.arrRef spec0 w)
  | ⟨0, _⟩ => ((dat0 (VA m) c).arrAt_in 0 rfl _).trans ((A_eq0 (VA m) c 0).trans (V10_of m (outs m) c main_v20 (by decide)).symm)
  | ⟨1, _⟩ => ((dat0 (VA m) c).arrAt_in 1 rfl _).trans ((A_eq0 (VA m) c 1).trans (V10_of m (outs m) c main_v21 (by decide)).symm)
  | ⟨2, _⟩ => ((dat0 (VA m) c).arrAt_in 2 rfl _).trans ((A_eq0 (VA m) c 2).trans (V10_of m (outs m) c main_v23 (by decide)).symm)
  | ⟨3, _⟩ => ((dat0 (VA m) c).arrAt_in 3 rfl _).trans ((A_eq0 (VA m) c 3).trans (V10_of m (outs m) c main_arg2 (by decide)).symm)
  | ⟨4, _⟩ => (V10_v24_0 m c).symm
  | ⟨5, _⟩ => (V10_v24_1 m c).symm
  | ⟨6, _⟩ => (V10_v24_2 m c).symm

theorem hrest0 (c : Dev nD) : ∀ b, b ∉ Finset.univ.image (Pipeline.arrRef spec0) → V10 m (outs m) c b = V9 m c b := fun b hb =>
  V10_of m (outs m) c b (by
    intro h
    simp only [List.mem_cons, List.mem_nil_iff, or_false] at h
    rcases h with rfl | rfl | rfl
    · exact hb (Finset.mem_image.mpr ⟨4, Finset.mem_univ _, rfl⟩)
    · exact hb (Finset.mem_image.mpr ⟨5, Finset.mem_univ _, rfl⟩)
    · exact hb (Finset.mem_image.mpr ⟨6, Finset.mem_univ _, rfl⟩))

theorem V12_v39 (c : Dev nD) : V12 m (outs m) c main_v39 = (dat1 (VB m) c).arrAt 4 cfg1.N := by
  simp only [V12, Function.update_self, outs_12]
  exact W12_arr m c 4

theorem hF1 (c : Dev nD) : ∀ w : Fin cfg1.W, (dat1 (VB m) c).arrAt w cfg1.N = V12 m (outs m) c (Pipeline.arrRef spec1 w)
  | ⟨0, _⟩ => ((dat1 (VB m) c).arrAt_in 0 rfl _).trans ((A_eq1 (VB m) c 0).trans (V12_of m (outs m) c main_v24_0 (by decide)).symm)
  | ⟨1, _⟩ => ((dat1 (VB m) c).arrAt_in 1 rfl _).trans ((A_eq1 (VB m) c 1).trans (V12_of m (outs m) c main_v22 (by decide)).symm)
  | ⟨2, _⟩ => ((dat1 (VB m) c).arrAt_in 2 rfl _).trans ((A_eq1 (VB m) c 2).trans (V12_of m (outs m) c main_v35 (by decide)).symm)
  | ⟨3, _⟩ => ((dat1 (VB m) c).arrAt_in 3 rfl _).trans ((A_eq1 (VB m) c 3).trans (V12_of m (outs m) c main_v38 (by decide)).symm)
  | ⟨4, _⟩ => (V12_v39 m c).symm

theorem hrest1 (c : Dev nD) : ∀ b, b ∉ Finset.univ.image (Pipeline.arrRef spec1) → V12 m (outs m) c b = V11 m (outs m) c b := fun b hb =>
  V12_of m (outs m) c b (by
    intro h
    simp only [List.mem_cons, List.mem_nil_iff, or_false] at h
    subst h
    exact hb (Finset.mem_image.mpr ⟨4, Finset.mem_univ _, rfl⟩))

/-! ## The proof data family and what rides beside the buffers -/

abbrev 𝒱₀ : Variants := Variants.none
abbrev L : GSem nD τ sig → Finset Unit := fun _ => ∅
abbrev lv : GSem nD τ sig → Unit → ℕ := fun _ _ => 0

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

/-- Beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

theorem hE2 (c : Dev nD) : (E 2 c : sProp 𝕄) ⊢ iprop(∃ W, owes (c : Thread nD τ) (0 : CellTallies nD τ sig Unit) W) := by
  iintro ⟨Hp, HO⟩; iexact HO

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (V9 m c) ∗ E 0 c)
  post c := iprop(StableHlo.held (c : Thread nD τ) (Pipeline.ucRefs τ sig) (V10 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V10 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (V11 m (outs m) c) ∗ E 1 c)
  post c := iprop(StableHlo.held (c : Thread nD τ) (Pipeline.ucRefs τ sig) (V12 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (fun b => V11 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V11 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V11 m (outs m) c b) (fun b => V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main terminates, and the final memory holds the result buffer at the last
    boundary's contents and every argument as launched. -/
theorem run_val : θ_run defs (onTc (τ := τ) (main (F := F))) ⟨m, fun _ => 0, ρ⟩ (fun r => ∀ c : Dev nD,
      r.2.mem ((c.tc : Thread nD τ).loc main_v40) = V13 m (outs m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()),
          StableHlo.seq hostOps2 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outs m) c b)
    (hfin := fun c s' => by
      iintro ⟨Hh, HSI⟩
      unfold StableHlo.held
      imodintro
      iapply (pointsTo_read_all (Pipeline.ucRefs τ sig) (fun b => (((c : Thread nD τ)).1, b)) (V13 m (outs m) c) s')
      isplitl [Hh] <;> iassumption)
    (hQ := fun s h c =>
      ⟨h c _ (mem_uc main_v40 (by decide)),
       (h c _ (mem_uc main_arg0 (by decide))).trans (V13_main_arg0 m (outs m) c),
       (h c _ (mem_uc main_arg1 (by decide))).trans (V13_main_arg1 m (outs m) c),
       (h c _ (mem_uc main_arg2 (by decide))).trans (V13_main_arg2 m (outs m) c),
       (h c _ (mem_uc main_arg3 (by decide))).trans (V13_main_arg3 m (outs m) c),
       (h c _ (mem_uc main_arg4 (by decide))).trans (V13_main_arg4 m (outs m) c),
       (h c _ (mem_uc main_arg5 (by decide))).trans (V13_main_arg5 m (outs m) c),
       (h c _ (mem_uc main_arg6 (by decide))).trans (V13_main_arg6 m (outs m) c)⟩)

/-- The frame claim: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_val m ρ)

end Cert.KernelIdeal.Hand

end
-- ==== Proof.Payloads.lean ====
import proofs.«182140_j34411277975785_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The two kernel bodies' payloads read at an index, at the ideal instance

Every stored value of the two kernel bodies, read at one coordinate pair: the linear layer's row block
(a matrix product plus a bias row, scaled by a per-row factor), its masked copy, the two column sums the
statistics accumulate, and the normalise-activate-add of the second body.
-/

noncomputable section

open scoped BigOperators

namespace Cert.KernelIdeal.Pay

open Cert.KernelIdeal Cert.KernelIdeal.Gen Idealize.ShloMosaic Idealize.ShloMosaic.ValueIdx

/-- One column broadcast over many: a `[a, 1]` array broadcast to `[a, b]` reads, at `(p, c)`, the
    operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product at an index

The dimension numbers contract the left operand's axis 1 with the right operand's axis 0; the left
operand's axis 0 and the right operand's axis 1 are kept. At an output index `(p, q)` and contraction
position `k` the operand indices are `(p, k)` and `(k, q)`. -/

theorem lhs_mm_0 (i : S2048x128.Idx) (c : dot_S2048x128_S128x128_S2048x128_1_0_0_1_n_n.contr.Idx) :
    (dot_S2048x128_S128x128_S2048x128_1_0_0_1_n_n.lhsIdx i c 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_mm_1 (i : S2048x128.Idx) (c : dot_S2048x128_S128x128_S2048x128_1_0_0_1_n_n.contr.Idx) :
    (dot_S2048x128_S128x128_S2048x128_1_0_0_1_n_n.lhsIdx i c 1).val = (c ⟨0, by decide⟩).val :=
  dot_S2048x128_S128x128_S2048x128_1_0_0_1_n_n.lhsIdx_val_of_single rfl i c
theorem rhs_mm_0 (i : S2048x128.Idx) (c : dot_S2048x128_S128x128_S2048x128_1_0_0_1_n_n.contr.Idx) :
    (dot_S2048x128_S128x128_S2048x128_1_0_0_1_n_n.rhsIdx i c 0).val = (c ⟨0, by decide⟩).val :=
  dot_S2048x128_S128x128_S2048x128_1_0_0_1_n_n.rhsIdx_val_of_single rfl i c
theorem rhs_mm_1 (i : S2048x128.Idx) (c : dot_S2048x128_S128x128_S2048x128_1_0_0_1_n_n.contr.Idx) :
    (dot_S2048x128_S128x128_S2048x128_1_0_0_1_n_n.rhsIdx i c 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The block product into a zero accumulator, read at `(p, q)`: the sum over the contracted coordinate
    of the operands' products. -/
theorem mm_apply (x : FVec Ideal S2048x128 .bf16) (w : FVec Ideal S128x128 .bf16) (p : Fin 2048) (q : Fin 128) :
    matmul dot_S2048x128_S128x128_S2048x128_1_0_0_1_n_n none x w (constant (F := Ideal) S2048x128 .f32 0x00000000#32) (ix2 p q)
      = ∑ k : Fin 128, x (ix2 p k) * w (ix2 k q) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The linear layer's row block: the product of the block with the weights plus the bias row, each row
    scaled by its factor. The narrowing of the two operands is the identity on exact values. -/
theorem pay4_apply (v3 : Vec Ideal S2048x128 .f32) (v6 : Vec Ideal S128x128 .f32) (v10 : Vec Ideal S128 .f32)
    (v14 : Vec Ideal S2048x1 .f32) (p : Fin 2048) (q : Fin 128) :
    k0_pay4 (F := Ideal) v3 v6 v10 v14 (ix2 p q)
      = (∑ k : Fin 128, v3 (ix2 p k) * v6 (ix2 k q) + v10 (ix1 q)) * v14 (ix2 p (0 : Fin 1)) := by
  unfold k0_pay4
  simp only [shapeCast_self]
  rw [mulf_apply, addf_apply, broadcastTo_1b_ab_apply, shapeCast_a_1a_apply, broadcastTo_a1_ab_apply, mm_apply]
  rfl

/-! ## The row mask

Row `p` of the block at grid coordinate `g` is row `g·2048 + p` of the padded array; the mask keeps the rows
below 50000. The row number is computed in 32-bit words and never leaves the non-negative signed range
(`24·2048 + 2047 < 2^31`), so the signed comparison of words is the comparison of the numbers. -/

/-- The mask's comparison bit, as the comparison of the row numbers. -/
theorem mask_bit (g p : ℕ) (hg : g < 25) (hp : p < 2048) :
    IntOp.cmpi .slt (IntOp.addi (IntOp.muli (BitVec.ofNat 32 g) 2048#32) (BitVec.ofNat 32 p)) 50000#32
      = if g * 2048 + p < 50000 then 1#1 else 0#1 := by
  have e : IntOp.addi (IntOp.muli (BitVec.ofNat 32 g) 2048#32) (BitVec.ofNat 32 p) = BitVec.ofNat 32 (g * 2048 + p) := by
    unfold IntOp.addi IntOp.muli
    rw [show (2048#32 : BitVec 32) = BitVec.ofNat 32 2048 from rfl, ← BitVec.ofNat_mul, ← BitVec.ofNat_add]
  rw [e]
  unfold IntOp.cmpi
  show BitVec.ofBool ((BitVec.ofNat 32 (g * 2048 + p)).slt 50000#32) = _
  have hs : (BitVec.ofNat 32 (g * 2048 + p)).slt 50000#32 = decide (g * 2048 + p < 50000) := by
    rw [BitVec.slt, BitVec.toInt_ofNat', show (50000#32 : BitVec 32).toInt = 50000 by decide]
    have h1 : ((g * 2048 + p : ℕ) : ℤ).bmod (2 ^ 32) = ((g * 2048 + p : ℕ) : ℤ) := by
      rw [Int.bmod_def]; split <;> omega
    rw [h1]
    exact decide_eq_decide.mpr (by omega)
  rw [hs]
  by_cases h : g * 2048 + p < 50000
  · rw [if_pos h, decide_eq_true h]; rfl
  · rw [if_neg h, decide_eq_false h]; rfl

/-- The two one-bit words, widened and converted, are the exact `1` and `0`. -/
theorem sitofp_one : FloatOps.sitofp (F := Ideal) .f32 ((1#1 : BitVec 1).setWidth 32) = 1 := by
  show (((((1#1 : BitVec 1).setWidth 32).toInt : ℤ) : ℝ) : EReal) = 1
  rw [show ((1#1 : BitVec 1).setWidth 32).toInt = 1 by decide]; simp
theorem sitofp_zero : FloatOps.sitofp (F := Ideal) .f32 ((0#1 : BitVec 1).setWidth 32) = 0 := by
  show (((((0#1 : BitVec 1).setWidth 32).toInt : ℤ) : ℝ) : EReal) = 0
  rw [show ((0#1 : BitVec 1).setWidth 32).toInt = 0 by decide]; simp

/-- The masked block: the linear layer's row block with the rows from 50000 on set to zero. -/
theorem pay5_apply (i : grid0.Coords) (v3 : Vec Ideal S2048x128 .f32) (v6 : Vec Ideal S128x128 .f32)
    (v10 : Vec Ideal S128 .f32) (v14 : Vec Ideal S2048x1 .f32) (p : Fin 2048) (q : Fin 128) :
    k0_pay5 (F := Ideal) i v3 v6 v10 v14 (ix2 p q)
      = k0_pay4 (F := Ideal) v3 v6 v10 v14 (ix2 p q)
          * (if (i 0).val * 2048 + p.val < 50000 then (1 : EReal) else 0) := by
  have hg : (i 0).val < 25 := (i 0).isLt
  unfold k0_pay5
  dsimp only
  rw [mulf_apply, broadcastTo_a1_ab_apply]
  refine congrArg (k0_pay4 (F := Ideal) v3 v6 v10 v14 (ix2 p q) * ·) ?_
  rw [sitofp_apply, extui_apply]
  show FloatOps.sitofp (F := Ideal) .f32 (BitVec.setWidth 32 (IntOp.cmpi .slt
    (IntOp.addi (IntOp.muli (BitVec.ofNat 32 (i 0).val) 2048#32)
      (iota .tc S2048x1 32 [0] iota_S2048x1_d0_w32 (ix2 p (0 : Fin 1)))) 50000#32)) = _
  rw [iota_single_apply]
  show FloatOps.sitofp (F := Ideal) .f32 (BitVec.setWidth 32 (IntOp.cmpi .slt
    (IntOp.addi (IntOp.muli (BitVec.ofNat 32 (i 0).val) 2048#32) (BitVec.ofNat 32 p.val)) 50000#32)) = _
  rw [mask_bit _ _ hg p.isLt]
  by_cases h : (i 0).val * 2048 + p.val < 50000
  · rw [if_pos h, if_pos h]; exact sitofp_one
  · rw [if_neg h, if_neg h]; exact sitofp_zero

/-! ## The statistics rows -/

/-- A column sum of a row block: the add-reduction over the row axis into a zero start, read at a column,
    is the sum over the rows. -/
theorem colsum_apply (src : FVec Ideal S2048x128 .f32) (hφ : FKind.Formats .f32)
    (hacc : (0x00000000#32 : BitVec 32) = FKind.add.neutral .f32 hφ) (q : Fin 128) :
    multiReduction (F := Ideal) .add [0] S128 src 0x00000000#32 reduces_S2048x128_S128 hφ hacc (ix1 q)
      = ∑ p : Fin 2048, src (ix2 p q) := by
  refine (Ideal.multiReduction_add_single src 0x00000000#32 reduces_S2048x128_S128 hφ hacc (ix1 q)).trans ?_
  refine Finset.sum_congr rfl fun p _ => congrArg src ?_
  funext a
  refine Fin.ext ?_
  match a with
  | ⟨0, _⟩ => rfl
  | ⟨1, _⟩ => rfl

/-- The second statistics row after a block: what it held plus the column sums of the block's squares. -/
theorem pay1_apply (v28 : FVec Ideal S2048x128 .f32) (v36 : Vec Ideal S1x128 .f32) (q : Fin 128) :
    k0_pay1 (F := Ideal) v28 v36 (ix2 (0 : Fin 1) q)
      = v36 (ix2 0 q) + ∑ p : Fin 2048, v28 (ix2 p q) * v28 (ix2 p q) := by
  unfold k0_pay1
  simp only [shapeCast_self]
  rw [addf_apply, shapeCast_a_1a_apply]
  refine congrArg (v36 (ix2 0 q) + ·) ?_
  refine (colsum_apply _ _ _ q).trans ?_
  rfl

/-- The first statistics row after a block: what it held plus the column sums of the masked block. -/
theorem pay6_apply (i : grid0.Coords) (v3 : Vec Ideal S2048x128 .f32) (v6 : Vec Ideal S128x128 .f32)
    (v10 : Vec Ideal S128 .f32) (v14 : Vec Ideal S2048x1 .f32) (v29 : Vec Ideal S1x128 .f32) (q : Fin 128) :
    k0_pay6 (F := Ideal) i v3 v6 v10 v14 v29 (ix2 (0 : Fin 1) q)
      = v29 (ix2 0 q) + ∑ p : Fin 2048, k0_pay5 (F := Ideal) i v3 v6 v10 v14 (ix2 p q) := by
  unfold k0_pay6
  simp only [shapeCast_self]
  rw [addf_apply, shapeCast_a_1a_apply]
  exact congrArg (v29 (ix2 0 q) + ·) (colsum_apply _ _ _ q)

/-- The first statistics row is reset to zero. -/
theorem pay2_apply (q : Fin 128) : k0_pay2 (F := Ideal) (ix2 (0 : Fin 1) q) = 0 := by
  unfold k0_pay2
  simp only [shapeCast_self]
  rw [broadcast_apply]
  exact Ideal.ofBits_zero_f32

/-- The second statistics row is reset to zero. -/
theorem pay3_apply (q : Fin 128) : k0_pay3 (F := Ideal) (ix2 (0 : Fin 1) q) = 0 := by
  unfold k0_pay3
  simp only [shapeCast_self]
  rw [broadcast_apply]
  exact Ideal.ofBits_zero_f32

/-! ## The second body -/

/-- The second body: the residual plus the rectified affine image of the block, the scale and shift rows
    read at their one row. -/
theorem k1_pay1_apply (v0 : Vec Ideal S2048x128 .f32) (v2 v6 : Vec Ideal S1x128 .f32)
    (v12 : Vec Ideal S2048x128 .f32) (p : Fin 2048) (q : Fin 128) :
    k1_pay1 (F := Ideal) v0 v2 v6 v12 (ix2 p q)
      = v12 (ix2 p q) + max (v0 (ix2 p q) * v2 (ix2 (0 : Fin 1) q) + v6 (ix2 0 q)) 0 := by
  unfold k1_pay1
  simp only [shapeCast_self]
  rw [addf_apply, maximumf_apply, addf_apply, mulf_apply, broadcast_apply,
    broadcastTo_1b_ab_apply, broadcastTo_1b_ab_apply]
  show _ + max _ (Ideal.ofBits .f32 0x00000000#32) = _
  rw [Ideal.ofBits_zero_f32]

end Cert.KernelIdeal.Pay

end
-- ==== Proof.ValHpre.lean ====
/-
  What the first kernel region leaves in the pre-activation matrix. Grid point t reads rows 2048·t … 2048·t + 2047 of
  the padded features and of the per-row factors, the whole weight matrix and the whole bias row, and writes the same
  rows of the output: the features' rows times the weights, plus the bias, each row scaled by its factor. The 25 blocks
  tile the 51200 rows, so after the last point every entry of the output is that expression of the four arrays.
-/
import proofs.«182140_j34411277975785_1_alg».proof.Proof.KIReg0
import proofs.«182140_j34411277975785_1_alg».proof.Proof.Payloads
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The pre-activation matrix as one function of the four arrays -/

/-- Entry (R, j) of the pre-activation matrix: row R of the features against column j of the weights, plus the
    bias at j, times row R's factor. -/
def hpreAt (a : Vec Ideal S51200x128 .f32) (d : Vec Ideal S51200x1 .f32) (w : Vec Ideal S128x128 .f32)
    (b : Vec Ideal S128 .f32) (R : Fin 51200) (j : Fin 128) : Elt Ideal .f32 :=
  (∑ k : Fin 128, a (ix2 R k) * w (ix2 k j) + b (ix1 j)) * d (ix2 R (0 : Fin 1))

/-- The whole matrix, index by index. -/
def Hpre (a : Vec Ideal S51200x128 .f32) (d : Vec Ideal S51200x1 .f32) (w : Vec Ideal S128x128 .f32)
    (b : Vec Ideal S128 .f32) : Vec Ideal S51200x128 .f32 :=
  fun i => hpreAt a d w b (i 0) (i 1)

/-! ## Where each window's block sits -/

/-- The block indices over the grid: the row-blocked windows (features, factors, output) are at block (t, 0), the
    weights and the bias at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of the features' block at point t is row 2048·t + p of the features. -/
theorem blk0_apply (c : Dev nD) (t : Fin cfg0.N) (p : Fin 2048) (k : Fin 128) (h : t.val * 2048 + p.val < 51200) :
    (iblk0 V c 0 t : Vec Ideal S2048x128 .f32) (ix2 p k)
      = (V c main_v20 : Vec Ideal S51200x128 .f32) (ix2 ⟨t.val * 2048 + p.val, h⟩ k) := by
  obtain ⟨e0, e1, -⟩ := idx_facts0 t
  unfold iblk0
  show (V c main_v20 : Vec Ideal S51200x128 .f32) (((cfg0.win 0).blk t).view.emb (ix2 p k)) = _
  refine congrArg _ ?_
  funext a; apply Fin.ext
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- Row p of the factors' block at point t is row 2048·t + p of the factors. -/
theorem blk1_apply (c : Dev nD) (t : Fin cfg0.N) (p : Fin 2048) (h : t.val * 2048 + p.val < 51200) :
    (iblk0 V c 1 t : Vec Ideal S2048x1 .f32) (ix2 p (0 : Fin 1))
      = (V c main_v21 : Vec Ideal S51200x1 .f32) (ix2 ⟨t.val * 2048 + p.val, h⟩ (0 : Fin 1)) := by
  obtain ⟨-, -, e0, e1, -⟩ := idx_facts0 t
  unfold iblk0
  show (V c main_v21 : Vec Ideal S51200x1 .f32) (((cfg0.win 1).blk t).view.emb (ix2 p (0 : Fin 1))) = _
  refine congrArg _ ?_
  funext a; apply Fin.ext
  match a with
  | ⟨0, _⟩ => show win0_1.index t (0 : Fin 2) * 2048 + 1 * p.val = t.val * 2048 + p.val; rw [e0]; omega
  | ⟨1, _⟩ => show win0_1.index t (1 : Fin 2) * 1 + 1 * 0 = 0; rw [e1]

/-- The weights' block is the whole weight matrix at every point. -/
theorem blk2_apply (c : Dev nD) (t : Fin cfg0.N) (k q : Fin 128) :
    (iblk0 V c 2 t : Vec Ideal S128x128 .f32) (ix2 k q) = (V c main_v23 : Vec Ideal S128x128 .f32) (ix2 k q) := by
  obtain ⟨-, -, -, -, e0, e1, -⟩ := idx_facts0 t
  unfold iblk0
  show (V c main_v23 : Vec Ideal S128x128 .f32) (((cfg0.win 2).blk t).view.emb (ix2 k q)) = _
  refine congrArg _ ?_
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias' block is the whole bias row at every point. -/
theorem blk3_apply (c : Dev nD) (t : Fin cfg0.N) (q : Fin 128) :
    (iblk0 V c 3 t : Vec Ideal S128 .f32) (ix1 q) = (V c main_arg2 : Vec Ideal S128 .f32) (ix1 q) := by
  obtain ⟨-, -, -, -, -, -, e0, -⟩ := idx_facts0 t
  unfold iblk0
  show (V c main_arg2 : Vec Ideal S128 .f32) (((cfg0.win 3).blk t).view.emb (ix1 q)) = _
  refine congrArg _ ?_
  funext a; apply Fin.ext
  match a with
  | ⟨0, _⟩ => show win0_3.index t (0 : Fin 1) * 128 + 1 * q.val = q.val; rw [e0]; omega

/-- Row p, column q of the output's block at point t is row 2048·t + p, column q of the output. -/
theorem blk4_emb (t : Fin cfg0.N) (p : Fin 2048) (q : Fin 128) (h : t.val * 2048 + p.val < 51200) :
    (((cfg0.win 4).blk t).view.emb (ix2 p q) : S51200x128.Idx) = ix2 ⟨t.val * 2048 + p.val, h⟩ q := by
  obtain ⟨-, -, -, -, -, -, -, e0, e1⟩ := idx_facts0 t
  funext a; apply Fin.ext
  match a with
  | ⟨0, _⟩ => show win0_4.index t (0 : Fin 2) * 2048 + 1 * p.val = t.val * 2048 + p.val; rw [e0]; omega
  | ⟨1, _⟩ => show win0_4.index t (1 : Fin 2) * 128 + 1 * q.val = q.val; rw [e1]; omega

/-! ## What a point writes back -/

/-- What point t writes back is block t of the pre-activation matrix. -/
theorem flushed4_eq (c : Dev nD) (t : Fin cfg0.N) :
    (dat0 V c).flushed 4 t = ((cfg0.win 4).blk t).view.read (Elt Ideal)
      (Hpre (V c main_v20) (V c main_v21) (V c main_v23) (V c main_arg2)) := by
  show (cfg0.win 4).cut (grid0.coords t) ((dat0 V c).after 4 t) = _
  rw [after0_4]
  funext y
  obtain ⟨p, q, rfl⟩ : ∃ (p : Fin 2048) (q : Fin 128), y = ix2 p q := ⟨y 0, y 1, eq_ix2 y⟩
  have hN : t.val < 25 := lt_of_lt_of_eq t.isLt N_0
  have h : t.val * 2048 + p.val < 51200 := by have := p.isLt; omega
  show hblk (iblk0 V c 0 t) (iblk0 V c 1 t) (iblk0 V c 2 t) (iblk0 V c 3 t) (ix2 p q)
    = Hpre (V c main_v20) (V c main_v21) (V c main_v23) (V c main_arg2) (((cfg0.win 4).blk t).view.emb (ix2 p q))
  rw [blk4_emb t p q h]
  unfold hblk
  refine (Pay.pay4_apply (iblk0 V c 0 t) (iblk0 V c 2 t) (iblk0 V c 3 t) (iblk0 V c 1 t) p q).trans ?_
  show _ = hpreAt (V c main_v20) (V c main_v21) (V c main_v23) (V c main_arg2) ⟨t.val * 2048 + p.val, h⟩ q
  unfold hpreAt
  exact congrArg₂ (· * ·)
    (congrArg₂ (· + ·)
      (Finset.sum_congr rfl fun k _ => congrArg₂ (· * ·) (blk0_apply V c t p k h) (blk2_apply V c t k q))
      (blk3_apply V c t q))
    (blk1_apply V c t p h)

/-! ## The blocks tile the rows -/

/-- An index of the output array is in point t's block iff each coordinate is in the block's range on its axis. -/
theorem mem_blk4 (t : Fin cfg0.N) (i : S51200x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v24_0).slice (win0_4.rect t)).set ↔ _
  rw [View.set_slice_whole, Rect.mem_set_unit]
  exact Iff.rfl

/-- Row R is written back by point R / 2048. -/
theorem cover4 (i : S51200x128.Idx) :
    ∃ t : Fin cfg0.N, (cfg0.win 4).flush t = true ∧ i ∈ ((cfg0.win 4).blk t).view.set := by
  have hi0 : (i 0).val < 51200 := (i 0).isLt
  have hi1 : (i 1).val < 128 := (i 1).isLt
  have hN : cfg0.N = 25 := N_0
  have ht : (i 0).val / 2048 < cfg0.N := by rw [hN]; omega
  obtain ⟨-, -, -, -, -, -, -, e0, e1⟩ := idx_facts0 ⟨(i 0).val / 2048, ht⟩
  have e0' : win0_4.index ⟨(i 0).val / 2048, ht⟩ (0 : Fin 2) = (i 0).val / 2048 := e0
  refine ⟨⟨(i 0).val / 2048, ht⟩, flush0_4 _, ?_⟩
  rw [mem_blk4]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [e0']; omega
  | ⟨1, _⟩ =>
    show win0_4.index ⟨(i 0).val / 2048, ht⟩ (1 : Fin 2) * 128 ≤ (i 1).val
      ∧ (i 1).val < win0_4.index ⟨(i 0).val / 2048, ht⟩ (1 : Fin 2) * 128 + 128
    rw [e1]; omega

/-! ## The array after the region -/

/-- After the 25 points the output array is the pre-activation matrix of the four arrays the region found. -/
theorem hpre_eq (c : Dev nD) :
    (dat0 V c).arrAt 4 cfg0.N = Hpre (V c main_v20) (V c main_v21) (V c main_v23) (V c main_arg2) :=
  (dat0 V c).arrAt_eq_of_cover 4 (Hpre (V c main_v20) (V c main_v21) (V c main_v23) (V c main_arg2))
    (fun t _ => flushed4_eq V c t) cover4

/-- The four arrays the region reads, as it finds them, each at its literal shape: the padded features, the per-row
    factors, the weights and the bias. -/
abbrev feat (c : Dev nD) : Vec Ideal S51200x128 .f32 := V c main_v20
abbrev fac (c : Dev nD) : Vec Ideal S51200x1 .f32 := V c main_v21
abbrev wgt (c : Dev nD) : Vec Ideal S128x128 .f32 := V c main_v23
abbrev bias (c : Dev nD) : Vec Ideal S128 .f32 := V c main_arg2

/-- Entry (R, j) of the output array after the region: row R of the features against column j of the weights, plus
    the bias at j, times row R's factor. -/
theorem hpre_apply (c : Dev nD) (R : Fin 51200) (j : Fin 128) :
    ((dat0 (F := Ideal) V c).arrAt 4 cfg0.N : Vec Ideal S51200x128 .f32) (ix2 R j)
      = (∑ k : Fin 128, feat V c (ix2 R k) * wgt V c (ix2 k j) + bias V c (ix1 j)) * fac V c (ix2 R (0 : Fin 1)) := by
  rw [hpre_eq V c]
  rfl

end Cert.KernelIdeal.Val

end
-- ==== Proof.Spec.lean ====
/-
  The mathematics of the layer, stated once over the extended reals with no program in sight.

  From a matrix `h` (50000 rows, 128 columns: the linear map of the aggregated features, scaled by the degree
  norm), column weights `γ`, `β` and the residual `feat`, batch normalisation over the rows, a ReLU and the residual:

  * the kernel's arrangement keeps two column sums, `S j = ∑ r, h r j` and `Q j = ∑ r, (h r j)²`, takes
    `mean = S / N`, `var = Q / N - mean²`, folds the normalisation into one scale and one shift per column,
    `scale = γ · rsqrt (var + ε)`, `shift = β - mean · scale`, and returns `feat + max (h · scale + shift) 0`;
  * the reference's arrangement takes `mean = (0 + S) / N`, `var = (0 + ∑ r, (h r j - mean)²) / N` and returns
    `feat + max (((h - mean) · rsqrt (var + ε)) · γ + β) 0`.

  On real (finite) data the two agree: `∑ (h - μ)² = Q - 2 μ S + N μ²`, so the two variances are one number, which is
  nonnegative, so `var + ε` is positive and its reciprocal root a real; the rest is distributivity in ℝ.
-/
import Idealize.ShloMosaic.PureOps.Ideal
import Idealize.ShloMosaic.PureOps.Ideal.Laws

noncomputable section

namespace Cert.Spec

open Idealize.ShloMosaic
open scoped BigOperators

/-- The row count `50000` as the float the programs divide by, and the variance's `ε` (the float nearest `1e-5`). -/
def Nf : EReal := Ideal.ofBits .f32 0x47435000#32
def eps : EReal := Ideal.ofBits .f32 0x3727C5AC#32

variable (h : Fin 50000 → Fin 128 → EReal) (γ β : Fin 128 → EReal) (feat : Fin 50000 → Fin 128 → EReal)

/-- The matrix the normalisation is applied to: the aggregated features `agg` through the linear map `W` (read
    transposed: output column `j` pairs with row `j` of `W`) plus the bias, scaled row by row by the degree norm. -/
def hOf (agg : Fin 50000 → Fin 128 → EReal) (W : Fin 128 → Fin 128 → EReal) (b : Fin 128 → EReal) (nrm : Fin 50000 → EReal)
    (r : Fin 50000) (j : Fin 128) : EReal := (∑ k : Fin 128, agg r k * W j k + b j) * nrm r

/-- Column sums of `h` and of its squares. -/
def colSum (j : Fin 128) : EReal := ∑ r : Fin 50000, h r j
def colSumSq (j : Fin 128) : EReal := ∑ r : Fin 50000, h r j * h r j

/-! ### The kernel's arrangement -/
def meanK (j : Fin 128) : EReal := Ideal.div (colSum h j) Nf
def varK (j : Fin 128) : EReal := Ideal.div (colSumSq h j) Nf - meanK h j * meanK h j
def scaleK (j : Fin 128) : EReal := γ j * Ideal.rsqrt (varK h j + eps)
def shiftK (j : Fin 128) : EReal := β j - meanK h j * scaleK h γ j
def outK (r : Fin 50000) (j : Fin 128) : EReal := feat r j + max (h r j * scaleK h γ j + shiftK h γ β j) 0

/-! ### The reference's arrangement -/
def meanR (j : Fin 128) : EReal := Ideal.div (0 + colSum h j) Nf
def varR (j : Fin 128) : EReal := Ideal.div (0 + ∑ r : Fin 50000, (h r j - meanR h j) * (h r j - meanR h j)) Nf
def outR (r : Fin 50000) (j : Fin 128) : EReal :=
  feat r j + max (((h r j - meanR h j) * Ideal.rsqrt (varR h j + eps)) * γ j + β j) 0

end Cert.Spec

end
-- ==== Proof.BlockSum.lean ====
/-
  Sums taken block by block.

  * A running accumulator that starts at 0 + g 0 and adds g (n+1) at each step holds ∑ t ≤ n, g t.
  * The rows 0 … 51199 cut into 25 blocks of 2048: a sum over the blocks and over the places in a block is the sum
    over all rows, n = t · 2048 + p. With every row ≥ 50000 multiplied by 0 and every other row by 1, what is
    left is the sum over the rows below 50000; the same holds for the squares, since (x m) (x m) = (x x) m for
    m ∈ {0, 1}.
  * The matrix the normalisation is applied to is real when its four inputs are: finite sums, products and sums
    of reals are reals.
-/
import proofs.«182140_j34411277975785_1_alg».proof.Proof.Spec

noncomputable section

namespace Cert.Spec

open Idealize.ShloMosaic
open scoped BigOperators

/-! ### The running accumulator -/

/-- The accumulator after step n: it starts at 0 + g 0 and adds g (n+1) at step n+1. -/
def accSum (g : ℕ → EReal) : ℕ → EReal
  | 0 => 0 + g 0
  | (n+1) => accSum g n + g (n+1)

/-- The accumulator after step n is the sum of g over 0 … n. -/
theorem accSum_eq (g : ℕ → EReal) (n : ℕ) : accSum g n = ∑ t ∈ Finset.range (n+1), g t := by
  induction n with
  | zero => simp [accSum]
  | succ n ih => rw [accSum, ih, Finset.sum_range_succ _ (n+1)]

/-! ### Blocks -/

/-- A sum over a blocks of b places each is the sum over the a · b rows, row n = t · b + p. -/
theorem sum_blocks (g : ℕ → EReal) (a b : ℕ) :
    (∑ t ∈ Finset.range a, ∑ p : Fin b, g (t * b + p.val)) = ∑ n ∈ Finset.range (a * b), g n := by
  induction a with
  | zero => simp
  | succ a ih =>
    rw [Finset.sum_range_succ, ih, Nat.succ_mul, Finset.sum_range_add,
      Fin.sum_univ_eq_sum_range (fun p => g (a * b + p)) b]

/-- Of the rows below 51200, those below 50000 are the rows below 50000. -/
theorem filter_rows : (Finset.range 51200).filter (fun n => n < 50000) = Finset.range 50000 := by
  ext n
  simp only [Finset.mem_filter, Finset.mem_range]
  omega

/-- The masked sum over 25 blocks of 2048 rows is the sum over the 50000 rows. -/
theorem masked_block_sum (f : ℕ → EReal) :
    (∑ t ∈ Finset.range 25, ∑ p : Fin 2048,
        f (t * 2048 + p.val) * (if t * 2048 + p.val < 50000 then (1 : EReal) else 0))
      = ∑ r : Fin 50000, f r.val := by
  rw [sum_blocks (fun n => f n * (if n < 50000 then (1 : EReal) else 0)) 25 2048]
  simp only [mul_ite, mul_one, mul_zero]
  rw [← Finset.sum_filter, show 25 * 2048 = 51200 from rfl, filter_rows, Fin.sum_univ_eq_sum_range f 50000]

/-- The masked sum of squares over 25 blocks of 2048 rows is the sum of squares over the 50000 rows. -/
theorem masked_block_sum_sq (f : ℕ → EReal) :
    (∑ t ∈ Finset.range 25, ∑ p : Fin 2048,
        (f (t * 2048 + p.val) * (if t * 2048 + p.val < 50000 then (1 : EReal) else 0))
          * (f (t * 2048 + p.val) * (if t * 2048 + p.val < 50000 then (1 : EReal) else 0)))
      = ∑ r : Fin 50000, f r.val * f r.val := by
  have key : ∀ (x : EReal) (c : Prop) [Decidable c],
      (x * (if c then (1 : EReal) else 0)) * (x * (if c then (1 : EReal) else 0))
        = (x * x) * (if c then (1 : EReal) else 0) := by
    intro x c _
    split_ifs <;> simp
  simp only [key]
  exact masked_block_sum (fun n => f n * f n)

/-! ### Real data stay real -/

/-- A finite sum of reals is a real. -/
theorem exists_real_sum {ι : Type*} (s : Finset ι) (f : ι → EReal) (hf : ∀ i ∈ s, ∃ x : ℝ, f i = (x : EReal)) :
    ∃ x : ℝ, ∑ i ∈ s, f i = (x : EReal) := by
  classical
  induction s using Finset.induction_on with
  | empty => exact ⟨0, by simp⟩
  | insert a s ha ih =>
    obtain ⟨y, hy⟩ := ih (fun i hi => hf i (Finset.mem_insert_of_mem hi))
    obtain ⟨z, hz⟩ := hf a (Finset.mem_insert_self a s)
    exact ⟨z + y, by rw [Finset.sum_insert ha, hy, hz, EReal.coe_add]⟩

/-- The matrix the normalisation is applied to is real when the features, the weights, the bias and the norm are. -/
theorem hOf_real (agg : Fin 50000 → Fin 128 → EReal) (W : Fin 128 → Fin 128 → EReal) (b : Fin 128 → EReal)
    (nrm : Fin 50000 → EReal) (hagg : ∀ r k, ∃ x : ℝ, agg r k = (x : EReal))
    (hW : ∀ j k, ∃ x : ℝ, W j k = (x : EReal)) (hb : ∀ j, ∃ x : ℝ, b j = (x : EReal))
    (hn : ∀ r, ∃ x : ℝ, nrm r = (x : EReal)) (r : Fin 50000) (j : Fin 128) :
    ∃ x : ℝ, hOf agg W b nrm r j = (x : EReal) := by
  obtain ⟨n, hn⟩ := hn r
  obtain ⟨c, hc⟩ := hb j
  obtain ⟨s, hs⟩ : ∃ s : ℝ, ∑ k : Fin 128, agg r k * W j k = (s : EReal) :=
    exists_real_sum _ _ (fun k _ => by
      obtain ⟨u, hu⟩ := hagg r k
      obtain ⟨w, hw⟩ := hW j k
      exact ⟨u * w, by rw [hu, hw, EReal.coe_mul]⟩)
  exact ⟨(s + c) * n, by rw [hOf, hs, hc, hn, EReal.coe_mul, EReal.coe_add]⟩

end Cert.Spec

end
-- ==== Proof.ValSums.lean ====
/-
  What the first kernel region leaves in its two one-row outputs.

  The region walks the 51200 padded rows in 25 blocks of 2048. At a point it forms its block of the pre-activation
  matrix (the features through the weights plus the bias, each row scaled by its norm factor), zeroes the rows from
  50000 on, and adds the block's column sums to one running row and the column sums of the squares to another; the
  two rows start from zero at the first point and are written to the outputs after the last. So each output entry is
  a sum over the points of a sum over the places in a block, which is the sum over the 50000 true rows.
-/
import proofs.«182140_j34411277975785_1_alg».proof.Proof.KIReg0
import proofs.«182140_j34411277975785_1_alg».proof.Proof.Payloads
import proofs.«182140_j34411277975785_1_alg».proof.Proof.BlockSum
import Idealize.ShloMosaic.Lib.Pipeline.Value
import Idealize.ShloMosaic.Lib.ValueIdx

set_option maxRecDepth 16384

noncomputable section

open scoped BigOperators

namespace Cert.KernelIdeal.ValS

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The four arrays the region reads, as it finds them, at their literal types: the padded features, the padded norm
    column, the weights (already transposed), the bias. -/
abbrev feat (V : (c : Dev nD) → (b : Ref sig .tc) → Buf (Elt Ideal) ((c : Thread nD τ).loc b)) (c : Dev nD) : Vec Ideal S51200x128 .f32 := V c main_v20
abbrev nrm (V : (c : Dev nD) → (b : Ref sig .tc) → Buf (Elt Ideal) ((c : Thread nD τ).loc b)) (c : Dev nD) : Vec Ideal S51200x1 .f32 := V c main_v21
abbrev wts (V : (c : Dev nD) → (b : Ref sig .tc) → Buf (Elt Ideal) ((c : Thread nD τ).loc b)) (c : Dev nD) : Vec Ideal S128x128 .f32 := V c main_v23
abbrev bias (V : (c : Dev nD) → (b : Ref sig .tc) → Buf (Elt Ideal) ((c : Thread nD τ).loc b)) (c : Dev nD) : Vec Ideal S128 .f32 := V c main_arg2

/-- The pre-activation entry at row number `R` and column `j`, as the region finds its four arrays: the row of the
    padded features through the weights, plus the bias, times the row's norm factor; zero past the padded rows. -/
def HP (V : (c : Dev nD) → (b : Ref sig .tc) → Buf (Elt Ideal) ((c : Thread nD τ).loc b)) (c : Dev nD) (R : ℕ) (j : Fin 128) : EReal :=
  if h : R < 51200 then (∑ k : Fin 128, feat V c (ix2 ⟨R, h⟩ k) * wts V c (ix2 k j) + bias V c (ix1 j)) * nrm V c (ix2 ⟨R, h⟩ (0 : Fin 1)) else 0

/-! ## Where a block sits in its array -/

/-- The index maps over the grid: the two row-blocked inputs are at block row `t`, the weights and the bias at block
    zero, the two one-row outputs at block zero; the grid's one coordinate is the point's number. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_5.index t (0 : Fin 2) = 0 ∧ win0_5.index t (1 : Fin 2) = 0
    ∧ win0_6.index t (0 : Fin 2) = 0 ∧ win0_6.index t (1 : Fin 2) = 0
    ∧ (grid0.coords t 0).val = t.val :=
  (by decide +kernel : ∀ t : Fin grid0.N, _)

/-- Row `p` of the feature block at point `t` is row `t · 2048 + p` of the padded features. -/
theorem blk0_apply (c : Dev nD) (t : Fin cfg0.N) (p : Fin 2048) (k : Fin 128) (h : t.val * 2048 + p.val < 51200) :
    (iblk0 V c 0 t : Vec Ideal S2048x128 .f32) (ix2 p k) = feat V c (ix2 ⟨t.val * 2048 + p.val, h⟩ k) := by
  obtain ⟨e0, e1, -⟩ := idx_facts t
  unfold iblk0
  rw [View.read_apply]
  show V c main_v20 _ = V c main_v20 _
  refine congrArg (V c main_v20) ?_
  funext a; apply Fin.ext
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- Row `p` of the norm block at point `t` is row `t · 2048 + p` of the padded norm column. -/
theorem blk1_apply (c : Dev nD) (t : Fin cfg0.N) (p : Fin 2048) (h : t.val * 2048 + p.val < 51200) :
    (iblk0 V c 1 t : Vec Ideal S2048x1 .f32) (ix2 p (0 : Fin 1)) = nrm V c (ix2 ⟨t.val * 2048 + p.val, h⟩ (0 : Fin 1)) := by
  obtain ⟨-, -, e0, e1, -⟩ := idx_facts t
  unfold iblk0
  rw [View.read_apply]
  show V c main_v21 _ = V c main_v21 _
  refine congrArg (V c main_v21) ?_
  funext a; apply Fin.ext
  match a with
  | ⟨0, _⟩ => show win0_1.index t (0 : Fin 2) * 2048 + 1 * p.val = t.val * 2048 + p.val; rw [e0]; omega
  | ⟨1, _⟩ => show win0_1.index t (1 : Fin 2) * 1 + 1 * (0 : Fin 1).val = (0 : Fin 1).val; rw [e1]; rfl

/-- The weights' block is the whole weight matrix at every point. -/
theorem blk2_apply (c : Dev nD) (t : Fin cfg0.N) (k j : Fin 128) :
    (iblk0 V c 2 t : Vec Ideal S128x128 .f32) (ix2 k j) = wts V c (ix2 k j) := by
  obtain ⟨-, -, -, -, e0, e1, -⟩ := idx_facts t
  unfold iblk0
  rw [View.read_apply]
  show V c main_v23 _ = V c main_v23 _
  refine congrArg (V c main_v23) ?_
  funext a; apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The bias' block is the whole bias row at every point. -/
theorem blk3_apply (c : Dev nD) (t : Fin cfg0.N) (j : Fin 128) :
    (iblk0 V c 3 t : Vec Ideal S128 .f32) (ix1 j) = bias V c (ix1 j) := by
  obtain ⟨-, -, -, -, -, -, e0, -⟩ := idx_facts t
  unfold iblk0
  rw [View.read_apply]
  show V c main_arg2 _ = V c main_arg2 _
  refine congrArg (V c main_arg2) ?_
  funext a; apply Fin.ext
  match a with
  | ⟨0, _⟩ => show win0_3.index t (0 : Fin 1) * 128 + 1 * j.val = j.val; rw [e0]; omega

/-! ## A point's block, entry by entry -/

/-- The block of the pre-activation matrix point `t` forms, at place `(p, j)`: the entry of row `t · 2048 + p`. -/
theorem pre_apply (c : Dev nD) (t : Fin cfg0.N) (p : Fin 2048) (j : Fin 128) :
    k0_pay4 (F := Ideal) (iblk0 V c 0 t) (iblk0 V c 2 t) (iblk0 V c 3 t) (iblk0 V c 1 t) (ix2 p j) = HP V c (t.val * 2048 + p.val) j := by
  have hN : t.val < 25 := lt_of_lt_of_eq t.isLt N_0
  have h : t.val * 2048 + p.val < 51200 := by have := p.isLt; omega
  refine (Pay.pay4_apply (iblk0 V c 0 t) (iblk0 V c 2 t) (iblk0 V c 3 t) (iblk0 V c 1 t) p j).trans ?_
  unfold HP
  rw [dif_pos h, blk1_apply V c t p h, blk3_apply V c t j]
  refine congrArg (fun s : EReal => (s + bias V c (ix1 j)) * nrm V c (ix2 ⟨t.val * 2048 + p.val, h⟩ (0 : Fin 1))) ?_
  exact Finset.sum_congr rfl fun k _ => by rw [blk0_apply V c t p k h, blk2_apply V c t k j]

theorem hblk_apply (c : Dev nD) (t : Fin cfg0.N) (p : Fin 2048) (j : Fin 128) :
    hblk (iblk0 V c 0 t) (iblk0 V c 1 t) (iblk0 V c 2 t) (iblk0 V c 3 t) (ix2 p j) = HP V c (t.val * 2048 + p.val) j := by
  unfold hblk; exact pre_apply V c t p j

/-- The masked block at point `t`: the same entry, kept for the rows below 50000 and zero from there on. -/
theorem masked_apply (c : Dev nD) (t : Fin cfg0.N) (p : Fin 2048) (j : Fin 128) :
    k0_pay5 (F := Ideal) (grid0.coords t) (iblk0 V c 0 t) (iblk0 V c 2 t) (iblk0 V c 3 t) (iblk0 V c 1 t) (ix2 p j)
      = HP V c (t.val * 2048 + p.val) j * (if t.val * 2048 + p.val < 50000 then (1 : EReal) else 0) := by
  obtain ⟨-, -, -, -, -, -, -, -, -, -, -, eg⟩ := idx_facts t
  refine (Pay.pay5_apply (grid0.coords t) (iblk0 V c 0 t) (iblk0 V c 2 t) (iblk0 V c 3 t) (iblk0 V c 1 t) p j).trans ?_
  rw [eg, pre_apply V c t p j]

/-- The first running row after point `t`, over what it held: the masked block's column sums added. -/
theorem acc8_apply (c : Dev nD) (t : Fin cfg0.N) (s : Vec Ideal S1x128 .f32) (j : Fin 128) :
    acc8 (grid0.coords t) (iblk0 V c 0 t) (iblk0 V c 1 t) (iblk0 V c 2 t) (iblk0 V c 3 t) s (ix2 (0 : Fin 1) j)
      = s (ix2 (0 : Fin 1) j) + ∑ p : Fin 2048, HP V c (t.val * 2048 + p.val) j * (if t.val * 2048 + p.val < 50000 then (1 : EReal) else 0) := by
  unfold acc8
  refine (Pay.pay6_apply (grid0.coords t) (iblk0 V c 0 t) (iblk0 V c 2 t) (iblk0 V c 3 t) (iblk0 V c 1 t) s j).trans ?_
  exact congrArg (s (ix2 (0 : Fin 1) j) + ·) (Finset.sum_congr rfl fun p _ => masked_apply V c t p j)

/-- The second running row after point `t`, over what it held: the column sums of the masked block's squares added. -/
theorem acc9_apply (c : Dev nD) (t : Fin cfg0.N) (s : Vec Ideal S1x128 .f32) (j : Fin 128) :
    acc9 (grid0.coords t) (iblk0 V c 0 t) (iblk0 V c 1 t) (iblk0 V c 2 t) (iblk0 V c 3 t) s (ix2 (0 : Fin 1) j)
      = s (ix2 (0 : Fin 1) j) + ∑ p : Fin 2048,
          (HP V c (t.val * 2048 + p.val) j * (if t.val * 2048 + p.val < 50000 then (1 : EReal) else 0))
            * (HP V c (t.val * 2048 + p.val) j * (if t.val * 2048 + p.val < 50000 then (1 : EReal) else 0)) := by
  unfold acc9
  refine (Pay.pay1_apply (k0_pay5 (F := Ideal) (grid0.coords t) (iblk0 V c 0 t) (iblk0 V c 2 t) (iblk0 V c 3 t) (iblk0 V c 1 t)) s j).trans ?_
  exact congrArg (s (ix2 (0 : Fin 1) j) + ·) (Finset.sum_congr rfl fun p _ => by rw [masked_apply V c t p j])

/-! ## The running rows in closed form -/

/-- After point `n` the two running rows hold, in column `j`, the accumulated masked column sums of the blocks
    `0 … n` and those of their squares: by induction on the point, the first point starting from the zero rows. -/
theorem sums_run (c : Dev nD) (j : Fin 128) : ∀ (n : ℕ) (t : Fin cfg0.N), t.val = n →
    (sAt V c t.val).1 (ix2 (0 : Fin 1) j)
        = Cert.Spec.accSum (fun t => ∑ p : Fin 2048, HP V c (t * 2048 + p.val) j * (if t * 2048 + p.val < 50000 then (1 : EReal) else 0)) t.val
      ∧ (sAt V c t.val).2 (ix2 (0 : Fin 1) j)
        = Cert.Spec.accSum (fun t => ∑ p : Fin 2048,
            (HP V c (t * 2048 + p.val) j * (if t * 2048 + p.val < 50000 then (1 : EReal) else 0))
              * (HP V c (t * 2048 + p.val) j * (if t * 2048 + p.val < 50000 then (1 : EReal) else 0))) t.val
  | 0, t, ht => by
    rw [sAt_zero V c t ht]
    dsimp only
    rw [acc8_apply V c t, acc9_apply V c t, Pay.pay2_apply, Pay.pay3_apply, ht]
    exact ⟨rfl, rfl⟩
  | n + 1, t, ht => by
    have hN : cfg0.N = 25 := N_0
    have hlt : n < cfg0.N := by have := t.isLt; omega
    have hne : t.val ≠ 0 := by omega
    have hp : t.val - 1 = n := by omega
    obtain ⟨ih1, ih2⟩ := sums_run c j n ⟨n, hlt⟩ rfl
    dsimp only at ih1 ih2
    rw [sAt_pos V c t hne]
    dsimp only
    rw [acc8_apply V c t, acc9_apply V c t, hp, ih1, ih2, ht]
    exact ⟨rfl, rfl⟩

/-- The first running row after the last point: the column sums of the pre-activation matrix over the 50000 rows. -/
theorem sum_last (c : Dev nD) (j : Fin 128) : (sAt V c 24).1 (ix2 (0 : Fin 1) j) = ∑ r : Fin 50000, HP V c r.val j := by
  have h := (sums_run V c j 24 ⟨24, by rw [show cfg0.N = 25 from N_0]; decide⟩ rfl).1
  dsimp only at h
  rw [h, Cert.Spec.accSum_eq]
  exact Cert.Spec.masked_block_sum (fun R => HP V c R j)

/-- The second running row after the last point: the column sums of the squares over the 50000 rows. -/
theorem sumsq_last (c : Dev nD) (j : Fin 128) :
    (sAt V c 24).2 (ix2 (0 : Fin 1) j) = ∑ r : Fin 50000, HP V c r.val j * HP V c r.val j := by
  have h := (sums_run V c j 24 ⟨24, by rw [show cfg0.N = 25 from N_0]; decide⟩ rfl).2
  dsimp only at h
  rw [h, Cert.Spec.accSum_eq]
  exact Cert.Spec.masked_block_sum_sq (fun R => HP V c R j)

/-! ## The two one-row outputs after the region -/

/-- The last of the 25 points, the only one that writes the two one-row outputs back. -/
abbrev tLast : Fin cfg0.N := ⟨24, by rw [show cfg0.N = 25 from N_0]; decide⟩

theorem flush5_last (t : Fin cfg0.N) (hf : (cfg0.win 5).flush t = true) : t = tLast := by
  have hN : cfg0.N = 25 := N_0
  have h1 := (flush0_5 t).mp hf
  have h2 := t.isLt
  exact Fin.ext (by show t.val = 24; omega)

theorem flush6_last (t : Fin cfg0.N) (hf : (cfg0.win 6).flush t = true) : t = tLast := by
  have hN : cfg0.N = 25 := N_0
  have h1 := (flush0_6 t).mp hf
  have h2 := t.isLt
  exact Fin.ext (by show t.val = 24; omega)

/-- What the first one-row output ends holding: the first running row after the last point. -/
abbrev row5 (c : Dev nD) : Buf (Elt Ideal) ((c : Thread nD τ).loc main_v24_1) := (sAt V c 24).1
/-- What the second one-row output ends holding: the second running row after the last point. -/
abbrev row6 (c : Dev nD) : Buf (Elt Ideal) ((c : Thread nD τ).loc main_v24_2) := (sAt V c 24).2

/-- The one write-back of the first output writes that row: its block is the whole one-row array, read at zero offsets. -/
theorem flushed5_eq (c : Dev nD) (t : Fin cfg0.N) (hf : (cfg0.win 5).flush t = true) :
    (dat0 V c).flushed 5 t = ((cfg0.win 5).blk t).view.read (Elt Ideal) (row5 V c) := by
  obtain rfl := flush5_last t hf
  show (cfg0.win 5).cut (grid0.coords tLast) ((dat0 V c).after 5 tLast) = _
  rw [after0_5]
  have hz' : (fun a => win0_5.index tLast a * main_v24_1.ty.shape.size a) = fun _ => 0 := funext fun a => by fin_cases a <;> decide +kernel
  exact (Memref.read_access_unit_zero (Elt Ideal) main_v24_1 hz' (fun a => by rw [congrFun hz' a]; simp) (row5 V c)).symm

theorem flushed6_eq (c : Dev nD) (t : Fin cfg0.N) (hf : (cfg0.win 6).flush t = true) :
    (dat0 V c).flushed 6 t = ((cfg0.win 6).blk t).view.read (Elt Ideal) (row6 V c) := by
  obtain rfl := flush6_last t hf
  show (cfg0.win 6).cut (grid0.coords tLast) ((dat0 V c).after 6 tLast) = _
  rw [after0_6]
  have hz' : (fun a => win0_6.index tLast a * main_v24_2.ty.shape.size a) = fun _ => 0 := funext fun a => by fin_cases a <;> decide +kernel
  exact (Memref.read_access_unit_zero (Elt Ideal) main_v24_2 hz' (fun a => by rw [congrFun hz' a]; simp) (row6 V c)).symm

/-- That one block covers the array, so the first output ends at the row. -/
theorem arr5_eq (c : Dev nD) : (dat0 V c).arrAt 5 cfg0.N = row5 V c :=
  (dat0 V c).arrAt_eq_of_cover 5 (row5 V c) (flushed5_eq V c) fun i =>
    ⟨tLast, (flush0_5 tLast).mpr (by show 24 % 25 = 24; rfl), by
      obtain ⟨-, -, -, -, -, -, -, e0, e1, -⟩ := idx_facts tLast
      show i ∈ ((View.whole main_v24_1).slice (win0_5.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_5.index tLast (0 : Fin 2) * 1 ≤ (i 0 : Nat) ∧ (i 0 : Nat) < win0_5.index tLast (0 : Fin 2) * 1 + 1
                  rw [e0]; omega
      | ⟨1, _⟩ => show win0_5.index tLast (1 : Fin 2) * 128 ≤ (i 1 : Nat) ∧ (i 1 : Nat) < win0_5.index tLast (1 : Fin 2) * 128 + 128
                  rw [e1]; omega⟩

theorem arr6_eq (c : Dev nD) : (dat0 V c).arrAt 6 cfg0.N = row6 V c :=
  (dat0 V c).arrAt_eq_of_cover 6 (row6 V c) (flushed6_eq V c) fun i =>
    ⟨tLast, (flush0_6 tLast).mpr (by show 24 % 25 = 24; rfl), by
      obtain ⟨-, -, -, -, -, -, -, -, -, e0, e1, -⟩ := idx_facts tLast
      show i ∈ ((View.whole main_v24_2).slice (win0_6.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_6.index tLast (0 : Fin 2) * 1 ≤ (i 0 : Nat) ∧ (i 0 : Nat) < win0_6.index tLast (0 : Fin 2) * 1 + 1
                  rw [e0]; omega
      | ⟨1, _⟩ => show win0_6.index tLast (1 : Fin 2) * 128 ≤ (i 1 : Nat) ∧ (i 1 : Nat) < win0_6.index tLast (1 : Fin 2) * 128 + 128
                  rw [e1]; omega⟩

/-- The first one-row output after the region: in column `j`, the sum of the pre-activation entries over the 50000 rows. -/
theorem sum_apply (V : (c : Dev nD) → (b : Ref sig .tc) → Buf (Elt Ideal) ((c : Thread nD τ).loc b)) (c : Dev nD) (j : Fin 128) :
    ((dat0 (F := Ideal) V c).arrAt 5 cfg0.N : Vec Ideal S1x128 .f32) (ix2 (0 : Fin 1) j) = ∑ r : Fin 50000, HP V c r.val j :=
  (congrFun (arr5_eq V c) (ix2 (0 : Fin 1) j)).trans (sum_last V c j)

/-- The second one-row output after the region: in column `j`, the sum of their squares over the 50000 rows. -/
theorem sumsq_apply (V : (c : Dev nD) → (b : Ref sig .tc) → Buf (Elt Ideal) ((c : Thread nD τ).loc b)) (c : Dev nD) (j : Fin 128) :
    ((dat0 (F := Ideal) V c).arrAt 6 cfg0.N : Vec Ideal S1x128 .f32) (ix2 (0 : Fin 1) j) = ∑ r : Fin 50000, HP V c r.val j * HP V c r.val j :=
  (congrFun (arr6_eq V c) (ix2 (0 : Fin 1) j)).trans (sumsq_last V c j)

end Cert.KernelIdeal.ValS

end
-- ==== Proof.ValOut.lean ====
/-
  What the second kernel region leaves in its output. Grid point t reads rows 2048·t … 2048·t + 2047 of the
  pre-activation matrix and of the residual, the whole scale row and the whole shift row, and writes the same rows of
  the output: the residual plus the rectified affine image of the pre-activation entry (times the column's scale,
  plus the column's shift). The 25 blocks tile the 51200 rows, so after the last point every entry of the output is
  that expression of the four arrays.
-/
import proofs.«182140_j34411277975785_1_alg».proof.Proof.KIBody0
import proofs.«182140_j34411277975785_1_alg».proof.Proof.KIReg1
import proofs.«182140_j34411277975785_1_alg».proof.Proof.Payloads
import Idealize.ShloMosaic.Lib.Pipeline.Value
import Idealize.ShloMosaic.Lib.ValueIdx

set_option maxRecDepth 16384

noncomputable section

open scoped BigOperators

namespace Cert.KernelIdeal.ValO

open Cert.KernelIdeal Cert.KernelIdeal.Gen Cert.KernelIdeal.Hand Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The output as one function of the four arrays -/

/-- Entry (R, j) of the output: the residual's entry plus the positive part of the pre-activation entry times column
    j's scale plus column j's shift. -/
def outAt (h r : Vec Ideal S51200x128 .f32) (s b : Vec Ideal S1x128 .f32) (R : Fin 51200) (j : Fin 128) : Elt Ideal .f32 :=
  r (ix2 R j) + max (h (ix2 R j) * s (ix2 (0 : Fin 1) j) + b (ix2 (0 : Fin 1) j)) 0

/-- The whole output, index by index. -/
def Out (h r : Vec Ideal S51200x128 .f32) (s b : Vec Ideal S1x128 .f32) : Vec Ideal S51200x128 .f32 :=
  fun i => outAt h r s b (i 0) (i 1)

/-! ## The body's one store -/

/-- The output block after the body is the body's payload of the four input blocks: one store of the whole block, each
    load of a whole block. -/
theorem out1_4_eq (x0 x1 : Vec Ideal S2048x128 .f32) (x2 x3 : Vec Ideal S1x128 .f32) :
    out1_4 x0 x1 x2 x3 = k1_pay1 x0 x2 x3 x1 := by
  unfold out1_4
  rw [View.canon_unit_zero hz2]
  simp only [View.ld_unit_zero (S := S2048x128) hz2, View.ld_unit_zero (S := S1x128) hz2]

/-! ## Where each window's block sits -/

/-- The block indices over the grid: the row-blocked windows (pre-activation, residual, output) are at block (t, 0),
    the scale and the shift rows at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the pre-activation block at point t is row 2048·t + p of the pre-activation matrix. -/
theorem blk0_apply (c : Dev nD) (t : Fin cfg1.N) (p : Fin 2048) (q : Fin 128) (h : t.val * 2048 + p.val < 51200) :
    (iblk1 V c 0 t : Vec Ideal S2048x128 .f32) (ix2 p q)
      = (V c main_v24_0 : Vec Ideal S51200x128 .f32) (ix2 ⟨t.val * 2048 + p.val, h⟩ q) := by
  obtain ⟨e0, e1, -⟩ := idx_facts1 t
  unfold iblk1
  show (V c main_v24_0 : Vec Ideal S51200x128 .f32) (((cfg1.win 0).blk t).view.emb (ix2 p q)) = _
  refine congrArg _ ?_
  funext a; apply Fin.ext
  match a with
  | ⟨0, _⟩ => show win1_0.index t (0 : Fin 2) * 2048 + 1 * p.val = t.val * 2048 + p.val; rw [e0]; omega
  | ⟨1, _⟩ => show win1_0.index t (1 : Fin 2) * 128 + 1 * q.val = q.val; rw [e1]; omega

/-- Row p of the residual's block at point t is row 2048·t + p of the residual. -/
theorem blk1_apply (c : Dev nD) (t : Fin cfg1.N) (p : Fin 2048) (q : Fin 128) (h : t.val * 2048 + p.val < 51200) :
    (iblk1 V c 1 t : Vec Ideal S2048x128 .f32) (ix2 p q)
      = (V c main_v22 : Vec Ideal S51200x128 .f32) (ix2 ⟨t.val * 2048 + p.val, h⟩ q) := by
  obtain ⟨-, -, e0, e1, -⟩ := idx_facts1 t
  unfold iblk1
  show (V c main_v22 : Vec Ideal S51200x128 .f32) (((cfg1.win 1).blk t).view.emb (ix2 p q)) = _
  refine congrArg _ ?_
  funext a; apply Fin.ext
  match a with
  | ⟨0, _⟩ => show win1_1.index t (0 : Fin 2) * 2048 + 1 * p.val = t.val * 2048 + p.val; rw [e0]; omega
  | ⟨1, _⟩ => show win1_1.index t (1 : Fin 2) * 128 + 1 * q.val = q.val; rw [e1]; omega

/-- The scale's block is the whole scale row at every point. -/
theorem blk2_apply (c : Dev nD) (t : Fin cfg1.N) (q : Fin 128) :
    (iblk1 V c 2 t : Vec Ideal S1x128 .f32) (ix2 (0 : Fin 1) q) = (V c main_v35 : Vec Ideal S1x128 .f32) (ix2 (0 : Fin 1) q) := by
  obtain ⟨-, -, -, -, e0, e1, -⟩ := idx_facts1 t
  unfold iblk1
  show (V c main_v35 : Vec Ideal S1x128 .f32) (((cfg1.win 2).blk t).view.emb (ix2 (0 : Fin 1) q)) = _
  refine congrArg _ ?_
  funext a; apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The shift's block is the whole shift row at every point. -/
theorem blk3_apply (c : Dev nD) (t : Fin cfg1.N) (q : Fin 128) :
    (iblk1 V c 3 t : Vec Ideal S1x128 .f32) (ix2 (0 : Fin 1) q) = (V c main_v38 : Vec Ideal S1x128 .f32) (ix2 (0 : Fin 1) q) := by
  obtain ⟨-, -, -, -, -, -, e0, e1, -⟩ := idx_facts1 t
  unfold iblk1
  show (V c main_v38 : Vec Ideal S1x128 .f32) (((cfg1.win 3).blk t).view.emb (ix2 (0 : Fin 1) q)) = _
  refine congrArg _ ?_
  funext a; apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- Row p, column q of the output's block at point t is row 2048·t + p, column q of the output. -/
theorem blk4_emb (t : Fin cfg1.N) (p : Fin 2048) (q : Fin 128) (h : t.val * 2048 + p.val < 51200) :
    (((cfg1.win 4).blk t).view.emb (ix2 p q) : S51200x128.Idx) = ix2 ⟨t.val * 2048 + p.val, h⟩ q := by
  obtain ⟨-, -, -, -, -, -, -, -, e0, e1⟩ := idx_facts1 t
  funext a; apply Fin.ext
  match a with
  | ⟨0, _⟩ => show win1_4.index t (0 : Fin 2) * 2048 + 1 * p.val = t.val * 2048 + p.val; rw [e0]; omega
  | ⟨1, _⟩ => show win1_4.index t (1 : Fin 2) * 128 + 1 * q.val = q.val; rw [e1]; omega

/-! ## What a point writes back -/

/-- What point t writes back is block t of the output as a function of the four arrays. -/
theorem flushed4_eq (c : Dev nD) (t : Fin cfg1.N) :
    (dat1 V c).flushed 4 t = ((cfg1.win 4).blk t).view.read (Elt Ideal)
      (Out (V c main_v24_0) (V c main_v22) (V c main_v35) (V c main_v38)) := by
  show (cfg1.win 4).cut (grid1.coords t) ((dat1 V c).after 4 t) = _
  rw [after1_4]
  funext y
  obtain ⟨p, q, rfl⟩ : ∃ (p : Fin 2048) (q : Fin 128), y = ix2 p q := ⟨y 0, y 1, eq_ix2 y⟩
  have hN : t.val < 25 := lt_of_lt_of_eq t.isLt N_1
  have h : t.val * 2048 + p.val < 51200 := by have := p.isLt; omega
  show out1_4 (iblk1 V c 0 t) (iblk1 V c 1 t) (iblk1 V c 2 t) (iblk1 V c 3 t) (ix2 p q)
    = Out (V c main_v24_0) (V c main_v22) (V c main_v35) (V c main_v38) (((cfg1.win 4).blk t).view.emb (ix2 p q))
  rw [blk4_emb t p q h]
  refine (congrFun (out1_4_eq (iblk1 V c 0 t) (iblk1 V c 1 t) (iblk1 V c 2 t) (iblk1 V c 3 t)) (ix2 p q)).trans ?_
  refine (Pay.k1_pay1_apply (iblk1 V c 0 t) (iblk1 V c 2 t) (iblk1 V c 3 t) (iblk1 V c 1 t) p q).trans ?_
  show _ = outAt (V c main_v24_0) (V c main_v22) (V c main_v35) (V c main_v38) ⟨t.val * 2048 + p.val, h⟩ q
  unfold outAt
  exact congrArg₂ (· + ·) (blk1_apply V c t p q h)
    (congrArg (max · 0)
      (congrArg₂ (· + ·) (congrArg₂ (· * ·) (blk0_apply V c t p q h) (blk2_apply V c t q)) (blk3_apply V c t q)))

/-! ## The blocks tile the rows -/

/-- An index of the output array is in point t's block iff each coordinate is in the block's range on its axis. -/
theorem mem_blk4 (t : Fin cfg1.N) (i : S51200x128.Idx) :
    i ∈ ((cfg1.win 4).blk t).view.set ↔ ∀ a : Fin 2, win1_4.index t a * S2048x128.size a ≤ (i a).val
      ∧ (i a).val < win1_4.index t a * S2048x128.size a + S2048x128.size a := by
  show i ∈ ((View.whole main_v39).slice (win1_4.rect t)).set ↔ _
  rw [View.set_slice_whole, Rect.mem_set_unit]
  exact Iff.rfl

/-- Row R is written back by point R / 2048. -/
theorem cover4 (i : S51200x128.Idx) :
    ∃ t : Fin cfg1.N, (cfg1.win 4).flush t = true ∧ i ∈ ((cfg1.win 4).blk t).view.set := by
  have hi0 : (i 0).val < 51200 := (i 0).isLt
  have hi1 : (i 1).val < 128 := (i 1).isLt
  have hN : cfg1.N = 25 := N_1
  have ht : (i 0).val / 2048 < cfg1.N := by rw [hN]; omega
  obtain ⟨-, -, -, -, -, -, -, -, e0, e1⟩ := idx_facts1 ⟨(i 0).val / 2048, ht⟩
  have e0' : win1_4.index ⟨(i 0).val / 2048, ht⟩ (0 : Fin 2) = (i 0).val / 2048 := e0
  refine ⟨⟨(i 0).val / 2048, ht⟩, flush1_4 _, ?_⟩
  rw [mem_blk4]
  intro a
  match a with
  | ⟨0, _⟩ =>
    show win1_4.index ⟨(i 0).val / 2048, ht⟩ (0 : Fin 2) * 2048 ≤ (i 0).val
      ∧ (i 0).val < win1_4.index ⟨(i 0).val / 2048, ht⟩ (0 : Fin 2) * 2048 + 2048
    rw [e0']; omega
  | ⟨1, _⟩ =>
    show win1_4.index ⟨(i 0).val / 2048, ht⟩ (1 : Fin 2) * 128 ≤ (i 1).val
      ∧ (i 1).val < win1_4.index ⟨(i 0).val / 2048, ht⟩ (1 : Fin 2) * 128 + 128
    rw [e1]; omega

/-! ## The array after the region -/

/-- After the 25 points the output array is that function of the four arrays the region found. -/
theorem out_eq (c : Dev nD) :
    (dat1 V c).arrAt 4 cfg1.N = Out (V c main_v24_0) (V c main_v22) (V c main_v35) (V c main_v38) :=
  (dat1 V c).arrAt_eq_of_cover 4 (Out (V c main_v24_0) (V c main_v22) (V c main_v35) (V c main_v38))
    (fun t _ => flushed4_eq V c t) cover4

/-- The four arrays the region reads, as it finds them, each at its literal shape: the pre-activation matrix, the
    residual (the padded features), the scale row and the shift row. -/
abbrev hpre (c : Dev nD) : Vec Ideal S51200x128 .f32 := V c main_v24_0
abbrev resid (c : Dev nD) : Vec Ideal S51200x128 .f32 := V c main_v22
abbrev scale (c : Dev nD) : Vec Ideal S1x128 .f32 := V c main_v35
abbrev shift (c : Dev nD) : Vec Ideal S1x128 .f32 := V c main_v38

/-- Entry (R, j) of the output array after the region: the residual's entry plus the positive part of the
    pre-activation entry times column j's scale plus column j's shift. -/
theorem out_apply (c : Dev nD) (R : Fin 51200) (j : Fin 128) :
    ((dat1 (F := Ideal) V c).arrAt 4 cfg1.N : Vec Ideal S51200x128 .f32) (ix2 R j)
      = resid V c (ix2 R j) + max (hpre V c (ix2 R j) * scale V c (ix2 (0 : Fin 1) j) + shift V c (ix2 (0 : Fin 1) j)) 0 := by
  rw [out_eq V c]
  rfl

end Cert.KernelIdeal.ValO

end
-- ==== Proof.ValGlue.lean ====
/-
  The host operations of the kernel's program, read at an index over the extended reals.

  Between its two kernel regions the program pads three arrays with zero rows up to 51200 rows, transposes the weight
  matrix, turns the two column sums into one scale and one shift per column (mean, variance, reciprocal root), and at
  the end cuts the padded result back to its first 50000 rows. Each lemma reads one of these arrays at one index, in
  terms of the arrays it was computed from.
-/
import proofs.«182140_j34411277975785_1_alg».proof.Proof.Gen.KernelIdeal.Regions
import proofs.«182140_j34411277975785_1_alg».proof.Proof.Gen.ReferenceIdeal.Read
import proofs.«182140_j34411277975785_1_alg».proof.Proof.Spec
import Idealize.ShloMosaic.Lib.StableHlo.Run
import Idealize.ShloMosaic.Lib.ValueIdx
import Idealize.ShloMosaic.Lib.KernelVsHost
import Idealize.ShloMosaic.Lib.Pipeline.Value
import Idealize.ShloMosaic.PureOps.Ideal

noncomputable section

namespace Cert.KernelIdeal.ValG

open Cert.KernelIdeal Cert.KernelIdeal.Gen Idealize.ShloMosaic Idealize.ShloMosaic.ValueIdx
open Idealize.ShloMosaic.TcCoe

variable (m : (ℓ : Loc nD τ sig) → Buf (Elt Ideal) ℓ) (outs : Outs (F := Ideal)) (c : Dev nD)

/-! ## Each stretch of host operations, over any contents before it -/

section Stretch

variable (V : Valuation τ sig (Elt Ideal))

/-- The transpose of the weight matrix. -/
theorem after8_v23 :
    (StableHlo.after hostOps0_8 V main_v23 : S128x128.Idx → EReal)
      = transpose S128x128 [1, 0] (V main_arg1 : S128x128.Idx → EReal) transposes_S128x128_S128x128_1_0 := by
  after_results

/-- The cut back to 50000 rows. -/
theorem after2_v40 :
    (StableHlo.after hostOps2 V main_v40 : S50000x128.Idx → EReal)
      = extractStridedSlice S50000x128 ![0, 0] (V main_v39 : S51200x128.Idx → EReal)
          slices_S51200x128_S50000x128_0_0 := by
  after_results

/-- The integer zero that the pad of the aggregated features converts. -/
theorem after0_2_c5 : (StableHlo.after hostOps0_2 V main_c_5 : IVec S_ 32) = constantI S_ 32 0#32 := by
  after_results
/-- The integer zero that the pad of the degree norm converts. -/
theorem after0_4_c6 : (StableHlo.after hostOps0_4 V main_c_6 : IVec S_ 32) = constantI S_ 32 0#32 := by
  after_results
/-- The integer zero that the pad of the features converts. -/
theorem after0_6_c7 : (StableHlo.after hostOps0_6 V main_c_7 : IVec S_ 32) = constantI S_ 32 0#32 := by
  after_results

/-- The pad of the aggregated features. -/
theorem after0_3_v20 :
    (StableHlo.after hostOps0_3 V main_v20 : S51200x128.Idx → EReal)
      = pad S51200x128 ![0, 0] ![1200, 0] ![0, 0] (V main_v19 : S50000x128.Idx → EReal)
          (sitofp (F := Ideal) .f32 (V main_c_5 : IVec S_ 32) : S_.Idx → EReal)
          pads_S50000x128_S51200x128_012000_000 h_S_ := by
  after_results
  try rfl

/-- The pad of the degree norm. -/
theorem after0_5_v21 :
    (StableHlo.after hostOps0_5 V main_v21 : S51200x1.Idx → EReal)
      = pad S51200x1 ![0, 0] ![1200, 0] ![0, 0] (V main_v7 : S50000x1.Idx → EReal)
          (sitofp (F := Ideal) .f32 (V main_c_6 : IVec S_ 32) : S_.Idx → EReal)
          pads_S50000x1_S51200x1_012000_000 h_S_ := by
  after_results
  try rfl

/-- The pad of the features. -/
theorem after0_7_v22 :
    (StableHlo.after hostOps0_7 V main_v22 : S51200x128.Idx → EReal)
      = pad S51200x128 ![0, 0] ![1200, 0] ![0, 0] (V main_arg0 : S50000x128.Idx → EReal)
          (sitofp (F := Ideal) .f32 (V main_c_7 : IVec S_ 32) : S_.Idx → EReal)
          pads_S50000x128_S51200x128_012000_000 h_S_ := by
  after_results
  try rfl

end Stretch

/-! ## The arguments, which no operation writes -/

/-- The feature matrix holds its launch contents before the first region. -/
theorem arg0_keep : V9 m c main_arg0 = m ((c.tc : Thread nD τ).loc main_arg0) :=
  (V9_of m c main_arg0 (by decide)).trans <| (V8_of m c main_arg0 (by decide)).trans <|
  (V7_of m c main_arg0 (by decide)).trans <| (V6_of m c main_arg0 (by decide)).trans <|
  (V5_of m c main_arg0 (by decide)).trans <| (V4_of m c main_arg0 (by decide)).trans <|
  (V3_of m c main_arg0 (by decide)).trans <| (V2_of m c main_arg0 (by decide)).trans <|
  (V1_of m c main_arg0 (by decide)).trans rfl

/-- The bias vector holds its launch contents before the first region. -/
theorem b_keep : V9 m c main_arg2 = m ((c.tc : Thread nD τ).loc main_arg2) :=
  (V9_of m c main_arg2 (by decide)).trans <| (V8_of m c main_arg2 (by decide)).trans <|
  (V7_of m c main_arg2 (by decide)).trans <| (V6_of m c main_arg2 (by decide)).trans <|
  (V5_of m c main_arg2 (by decide)).trans <| (V4_of m c main_arg2 (by decide)).trans <|
  (V3_of m c main_arg2 (by decide)).trans <| (V2_of m c main_arg2 (by decide)).trans <|
  (V1_of m c main_arg2 (by decide)).trans rfl

/-! ## The transposed weight -/

/-- The weight matrix handed to the first region is the argument's transpose. -/
theorem wt_apply (k j : Fin 128) :
    (V9 m c main_v23 : S128x128.Idx → EReal) (ix2 k j)
      = (m ((c.tc : Thread nD τ).loc main_arg1) : S128x128.Idx → EReal) (ix2 j k) := by
  have k1 : V8 m c main_arg1 = m ((c.tc : Thread nD τ).loc main_arg1) :=
    (V8_of m c main_arg1 (by decide)).trans <| (V7_of m c main_arg1 (by decide)).trans <|
    (V6_of m c main_arg1 (by decide)).trans <| (V5_of m c main_arg1 (by decide)).trans <|
    (V4_of m c main_arg1 (by decide)).trans <| (V3_of m c main_arg1 (by decide)).trans <|
    (V2_of m c main_arg1 (by decide)).trans <| (V1_of m c main_arg1 (by decide)).trans rfl
  rw [show (V9 m c main_v23 : S128x128.Idx → EReal) = _ from after8_v23 (V8 m c), k1]
  exact transpose_apply [1, 0] _ transposes_S128x128_S128x128_1_0 (ix2 k j) (ix2 j k) (fun b => match b with
    | ⟨0, _⟩ => rfl
    | ⟨1, _⟩ => rfl)

/-! ## What the middle stretch leaves alone -/

/-- The first region's matrix output is untouched by the operations between the regions. -/
theorem pre_keep : V11 m outs c main_v24_0 = V10 m outs c main_v24_0 :=
  V11_of m outs c main_v24_0 (by decide)

/-- The padded features are untouched by the first region and by the operations between the regions. -/
theorem feat_keep : V11 m outs c main_v22 = V9 m c main_v22 :=
  (V11_of m outs c main_v22 (by decide)).trans (V10_of m outs c main_v22 (by decide))

/-! ## The final slice -/

/-- The program's result is the first 50000 rows of the second region's output. -/
theorem slice_apply (r : Fin 50000) (j : Fin 128) :
    (V13 m outs c main_v40 : S50000x128.Idx → EReal) (ix2 r j)
      = (V12 m outs c main_v39 : S51200x128.Idx → EReal) (ix2 (⟨r.val, by omega⟩ : Fin 51200) j) := by
  rw [show (V13 m outs c main_v40 : S50000x128.Idx → EReal) = _ from after2_v40 (V12 m outs c)]
  exact extractStridedSlice_apply (s := S51200x128) (t := S50000x128) ![0, 0] _ slices_S51200x128_S50000x128_0_0 (ix2 r j)
    (ix2 (⟨r.val, by omega⟩ : Fin 51200) j) (fun a => match a with
    | ⟨0, _⟩ => by show r.val = 0 + r.val; omega
    | ⟨1, _⟩ => by show j.val = 0 + j.val; omega)

/-! ## The zero padding -/

/-- The padding value: the integer zero converted to a float is the real zero. -/
theorem pad_value (z : IVec S_ 32) (hz : z = constantI S_ 32 0#32) :
    (sitofp (F := Ideal) .f32 z : S_.Idx → EReal) (Shape.Idx.first h_S_) = 0 := by
  subst hz
  show (((0#32 : BitVec 32).toInt : ℝ) : EReal) = 0
  simp

/-- A 50000-row matrix of 128 columns padded with 1200 rows of a value: inside it is the matrix, below it the value. -/
theorem pad128_apply (x : S50000x128.Idx → EReal) (v : S_.Idx → EReal) (R : Fin 51200) (j : Fin 128) :
    pad S51200x128 ![0, 0] ![1200, 0] ![0, 0] x v pads_S50000x128_S51200x128_012000_000 h_S_ (ix2 R j)
      = if h : R.val < 50000 then x (ix2 (⟨R.val, h⟩ : Fin 50000) j) else v (Shape.Idx.first h_S_) := by
  by_cases h : R.val < 50000
  · rw [dif_pos h]
    exact pad_apply_of_inside _ _ _ x v pads_S50000x128_S51200x128_012000_000 h_S_ (ix2 R j) (ix2 ⟨R.val, h⟩ j)
      (fun a => match a with
        | ⟨0, _⟩ => by show R.val = 0 + R.val * (0 + 1); omega
        | ⟨1, _⟩ => by show j.val = 0 + j.val * (0 + 1); omega)
  · rw [dif_neg h]
    refine pad_apply_of_not_inside _ _ _ x v pads_S50000x128_S51200x128_012000_000 h_S_ (ix2 R j) 0 ?_
    show ¬(0 ≤ R.val ∧ (R.val - 0) % (0 + 1) = 0 ∧ (R.val - 0) / (0 + 1) < 50000)
    omega

/-- A 50000-row column padded with 1200 rows of a value: inside it is the column, below it the value. -/
theorem pad1_apply (x : S50000x1.Idx → EReal) (v : S_.Idx → EReal) (R : Fin 51200) :
    pad S51200x1 ![0, 0] ![1200, 0] ![0, 0] x v pads_S50000x1_S51200x1_012000_000 h_S_ (ix2 R (0 : Fin 1))
      = if h : R.val < 50000 then x (ix2 (⟨R.val, h⟩ : Fin 50000) (0 : Fin 1)) else v (Shape.Idx.first h_S_) := by
  by_cases h : R.val < 50000
  · rw [dif_pos h]
    exact pad_apply_of_inside _ _ _ x v pads_S50000x1_S51200x1_012000_000 h_S_ (ix2 R (0 : Fin 1))
      (ix2 ⟨R.val, h⟩ (0 : Fin 1))
      (fun a => match a with
        | ⟨0, _⟩ => by show R.val = 0 + R.val * (0 + 1); omega
        | ⟨1, _⟩ => by show (0 : Nat) = 0 + 0 * (0 + 1); omega)
  · rw [dif_neg h]
    refine pad_apply_of_not_inside _ _ _ x v pads_S50000x1_S51200x1_012000_000 h_S_ (ix2 R (0 : Fin 1)) 0 ?_
    show ¬(0 ≤ R.val ∧ (R.val - 0) % (0 + 1) = 0 ∧ (R.val - 0) / (0 + 1) < 50000)
    omega

/-- The padded features: the feature matrix on its 50000 rows, zero below. -/
theorem pad_feat (R : Fin 51200) (j : Fin 128) :
    (V9 m c main_v22 : S51200x128.Idx → EReal) (ix2 R j)
      = if h : R.val < 50000 then
          (m ((c.tc : Thread nD τ).loc main_arg0) : S50000x128.Idx → EReal) (ix2 (⟨R.val, h⟩ : Fin 50000) j)
        else (0 : EReal) := by
  have w22 : V9 m c main_v22 = V8 m c main_v22 := V9_of m c main_v22 (by decide)
  have k0 : V7 m c main_arg0 = m ((c.tc : Thread nD τ).loc main_arg0) :=
    (V7_of m c main_arg0 (by decide)).trans <| (V6_of m c main_arg0 (by decide)).trans <|
    (V5_of m c main_arg0 (by decide)).trans <| (V4_of m c main_arg0 (by decide)).trans <|
    (V3_of m c main_arg0 (by decide)).trans <| (V2_of m c main_arg0 (by decide)).trans <|
    (V1_of m c main_arg0 (by decide)).trans rfl
  rw [w22, show (V8 m c main_v22 : S51200x128.Idx → EReal) = _ from after0_7_v22 (V7 m c), pad128_apply,
    pad_value _ (after0_6_c7 (V6 m c)), k0]

/-- The padded aggregated features: the aggregated features on their 50000 rows, zero below. -/
theorem pad_agg (R : Fin 51200) (k : Fin 128) :
    (V9 m c main_v20 : S51200x128.Idx → EReal) (ix2 R k)
      = if h : R.val < 50000 then
          (V9 m c main_v19 : S50000x128.Idx → EReal) (ix2 (⟨R.val, h⟩ : Fin 50000) k)
        else (0 : EReal) := by
  have w20 : V9 m c main_v20 = V4 m c main_v20 :=
    (V9_of m c main_v20 (by decide)).trans <| (V8_of m c main_v20 (by decide)).trans <|
    (V7_of m c main_v20 (by decide)).trans <| (V6_of m c main_v20 (by decide)).trans <|
    (V5_of m c main_v20 (by decide))
  have w19 : V9 m c main_v19 = V3 m c main_v19 :=
    (V9_of m c main_v19 (by decide)).trans <| (V8_of m c main_v19 (by decide)).trans <|
    (V7_of m c main_v19 (by decide)).trans <| (V6_of m c main_v19 (by decide)).trans <|
    (V5_of m c main_v19 (by decide)).trans <| (V4_of m c main_v19 (by decide))
  rw [w20, w19, show (V4 m c main_v20 : S51200x128.Idx → EReal) = _ from after0_3_v20 (V3 m c), pad128_apply,
    pad_value _ (after0_2_c5 (V2 m c))]

/-- The padded degree norm: the norm on its 50000 rows, zero below. -/
theorem pad_nrm (R : Fin 51200) :
    (V9 m c main_v21 : S51200x1.Idx → EReal) (ix2 R (0 : Fin 1))
      = if h : R.val < 50000 then
          (V9 m c main_v7 : S50000x1.Idx → EReal) (ix2 (⟨R.val, h⟩ : Fin 50000) (0 : Fin 1))
        else (0 : EReal) := by
  have w21 : V9 m c main_v21 = V6 m c main_v21 :=
    (V9_of m c main_v21 (by decide)).trans <| (V8_of m c main_v21 (by decide)).trans <|
    (V7_of m c main_v21 (by decide))
  have w7 : V9 m c main_v7 = V5 m c main_v7 :=
    (V9_of m c main_v7 (by decide)).trans <| (V8_of m c main_v7 (by decide)).trans <|
    (V7_of m c main_v7 (by decide)).trans <| (V6_of m c main_v7 (by decide))
  rw [w21, w7, show (V6 m c main_v21 : S51200x1.Idx → EReal) = _ from after0_5_v21 (V5 m c), pad1_apply,
    pad_value _ (after0_4_c6 (V4 m c))]

/-! ## The operations between the two regions: scale and shift per column -/

section Middle

variable (V : Valuation τ sig (Elt Ideal))

/-- A column sum divided by the row count. -/
abbrev meanT (s : S1x128.Idx → EReal) : S1x128.Idx → EReal :=
  Host.divf s (broadcastInDim S1x128 ![] bcast_S_S1x128 (constant (F := Ideal) S_ .f32 0x47435000#32))

/-- The scale: the column weight times the reciprocal root of the variance plus ε. -/
abbrev scaleT (g : S128.Idx → EReal) (s1 s2 : S1x128.Idx → EReal) : S1x128.Idx → EReal :=
  mulf (broadcastInDim S1x128 ![1] bcast_S128_S1x128_1 g)
    (Host.rsqrt (addf (subf (meanT s2) (mulf (meanT s1) (meanT s1)))
      (broadcastInDim S1x128 ![] bcast_S_S1x128 (constant (F := Ideal) S_ .f32 0x3727C5AC#32))))

/-- The scale as the middle stretch computes it from the two column sums. -/
theorem after1_v35 :
    (StableHlo.after hostOps1 V main_v35 : S1x128.Idx → EReal)
      = scaleT (V main_arg3 : S128.Idx → EReal) (V main_v24_1 : S1x128.Idx → EReal) (V main_v24_2 : S1x128.Idx → EReal) := by
  after_results
  try rfl

/-- The shift: the column offset minus the mean times the scale. -/
abbrev shiftT (b : S128.Idx → EReal) (s1 sc : S1x128.Idx → EReal) : S1x128.Idx → EReal :=
  subf (F := Ideal) (φ := .f32) (broadcastInDim S1x128 ![1] bcast_S128_S1x128_1 b) (mulf (F := Ideal) (φ := .f32) (meanT s1) sc)

/-- The shift as the middle stretch computes it from the two column sums. -/
theorem after1_v38 :
    (StableHlo.after hostOps1 V main_v38 : S1x128.Idx → EReal)
      = shiftT (V main_arg4 : S128.Idx → EReal) (V main_v24_1 : S1x128.Idx → EReal)
          (scaleT (V main_arg3 : S128.Idx → EReal) (V main_v24_1 : S1x128.Idx → EReal)
            (V main_v24_2 : S1x128.Idx → EReal)) := by
  after_results_simp
  try rfl

end Middle

/-- A scalar broadcast to one row of 128 columns reads the scalar everywhere. -/
theorem bcast0_apply (x : S_.Idx → EReal) (i : S1x128.Idx) :
    broadcastInDim S1x128 ![] bcast_S_S1x128 x i = x ix0 :=
  broadcastInDim_apply _ bcast_S_S1x128 x i ix0 (fun a => a.elim0)

/-- A vector of 128 entries broadcast to one row reads the entry of the column. -/
theorem bcast1_apply (x : S128.Idx → EReal) (j : Fin 128) :
    broadcastInDim S1x128 ![1] bcast_S128_S1x128_1 x (ix2 (0 : Fin 1) j) = x (ix1 j) :=
  broadcastInDim_apply _ bcast_S128_S1x128_1 x (ix2 (0 : Fin 1) j) (ix1 j) (fun a => match a with
    | ⟨0, _⟩ => by show j.val = if (128 : Nat) = 1 then 0 else j.val; rw [if_neg (by decide)])

/-- The mean at a column. -/
theorem meanT_apply (s : S1x128.Idx → EReal) (i : S1x128.Idx) : meanT s i = Ideal.div (s i) Cert.Spec.Nf := by
  show Ideal.div (s i) (broadcastInDim S1x128 ![] bcast_S_S1x128 (constant (F := Ideal) S_ .f32 0x47435000#32) i) = _
  rw [bcast0_apply]
  rfl

/-- The scale at a column. -/
theorem scaleT_apply (g : S128.Idx → EReal) (s1 s2 : S1x128.Idx → EReal) (j : Fin 128) :
    scaleT g s1 s2 (ix2 (0 : Fin 1) j)
      = g (ix1 j) * Ideal.rsqrt ((Ideal.div (s2 (ix2 0 j)) Cert.Spec.Nf
          - Ideal.div (s1 (ix2 0 j)) Cert.Spec.Nf * Ideal.div (s1 (ix2 0 j)) Cert.Spec.Nf) + Cert.Spec.eps) := by
  show broadcastInDim S1x128 ![1] bcast_S128_S1x128_1 g (ix2 (0 : Fin 1) j)
      * Ideal.rsqrt ((meanT s2 (ix2 0 j) - meanT s1 (ix2 0 j) * meanT s1 (ix2 0 j))
        + broadcastInDim S1x128 ![] bcast_S_S1x128 (constant (F := Ideal) S_ .f32 0x3727C5AC#32) (ix2 0 j)) = _
  rw [bcast1_apply, bcast0_apply, meanT_apply, meanT_apply]
  rfl

/-- The column weight holds its launch contents when the middle stretch runs. -/
theorem arg3_keep : V10 m outs c main_arg3 = m ((c.tc : Thread nD τ).loc main_arg3) :=
  (V10_of m outs c main_arg3 (by decide)).trans <|
  (V9_of m c main_arg3 (by decide)).trans <| (V8_of m c main_arg3 (by decide)).trans <|
  (V7_of m c main_arg3 (by decide)).trans <| (V6_of m c main_arg3 (by decide)).trans <|
  (V5_of m c main_arg3 (by decide)).trans <| (V4_of m c main_arg3 (by decide)).trans <|
  (V3_of m c main_arg3 (by decide)).trans <| (V2_of m c main_arg3 (by decide)).trans <|
  (V1_of m c main_arg3 (by decide)).trans rfl

/-- The column offset holds its launch contents when the middle stretch runs. -/
theorem arg4_keep : V10 m outs c main_arg4 = m ((c.tc : Thread nD τ).loc main_arg4) :=
  (V10_of m outs c main_arg4 (by decide)).trans <|
  (V9_of m c main_arg4 (by decide)).trans <| (V8_of m c main_arg4 (by decide)).trans <|
  (V7_of m c main_arg4 (by decide)).trans <| (V6_of m c main_arg4 (by decide)).trans <|
  (V5_of m c main_arg4 (by decide)).trans <| (V4_of m c main_arg4 (by decide)).trans <|
  (V3_of m c main_arg4 (by decide)).trans <| (V2_of m c main_arg4 (by decide)).trans <|
  (V1_of m c main_arg4 (by decide)).trans rfl

/-- The scale handed to the second region, at a column: from the first region's two column sums. -/
theorem scale_apply (j : Fin 128) :
    (V11 m outs c main_v35 : S1x128.Idx → EReal) (ix2 (0 : Fin 1) j)
      = HMul.hMul (α := EReal) (β := EReal) ((m ((c.tc : Thread nD τ).loc main_arg3) : S128.Idx → EReal) (ix1 j))
        (Ideal.rsqrt ((Ideal.div ((V10 m outs c main_v24_2 : S1x128.Idx → EReal) (ix2 0 j)) Cert.Spec.Nf
            - Ideal.div ((V10 m outs c main_v24_1 : S1x128.Idx → EReal) (ix2 0 j)) Cert.Spec.Nf
              * Ideal.div ((V10 m outs c main_v24_1 : S1x128.Idx → EReal) (ix2 0 j)) Cert.Spec.Nf)
          + Cert.Spec.eps)) := by
  rw [show (V11 m outs c main_v35 : S1x128.Idx → EReal) = _ from after1_v35 (V10 m outs c), scaleT_apply,
    arg3_keep]

/-- The shift handed to the second region, at a column: the offset minus the mean times the scale. -/
theorem shift_apply (j : Fin 128) :
    (V11 m outs c main_v38 : S1x128.Idx → EReal) (ix2 (0 : Fin 1) j)
      = HSub.hSub (α := EReal) (β := EReal) ((m ((c.tc : Thread nD τ).loc main_arg4) : S128.Idx → EReal) (ix1 j))
        (HMul.hMul (α := EReal) (β := EReal)
          (Ideal.div ((V10 m outs c main_v24_1 : S1x128.Idx → EReal) (ix2 0 j)) Cert.Spec.Nf)
          ((V11 m outs c main_v35 : S1x128.Idx → EReal) (ix2 0 j))) := by
  have e38 := congrFun (after1_v38 (V10 m outs c)) (ix2 (0 : Fin 1) j)
  have e35 := congrFun (after1_v35 (V10 m outs c)) (ix2 (0 : Fin 1) j)
  refine e38.trans ?_
  refine Eq.trans ?_ (congrArg (fun t : EReal => HSub.hSub (α := EReal) (β := EReal)
    ((m ((c.tc : Thread nD τ).loc main_arg4) : S128.Idx → EReal) (ix1 j))
    (HMul.hMul (α := EReal) (β := EReal)
      (Ideal.div ((V10 m outs c main_v24_1 : S1x128.Idx → EReal) (ix2 0 j)) Cert.Spec.Nf) t)) e35.symm)
  show HSub.hSub (α := EReal) (β := EReal)
      (broadcastInDim S1x128 ![1] bcast_S128_S1x128_1 (V10 m outs c main_arg4 : S128.Idx → EReal) (ix2 (0 : Fin 1) j))
      (HMul.hMul (α := EReal) (β := EReal) (meanT (V10 m outs c main_v24_1 : S1x128.Idx → EReal) (ix2 0 j))
        (scaleT (V10 m outs c main_arg3 : S128.Idx → EReal) (V10 m outs c main_v24_1 : S1x128.Idx → EReal)
          (V10 m outs c main_v24_2 : S1x128.Idx → EReal) (ix2 0 j))) = _
  rw [bcast1_apply, meanT_apply, arg4_keep]

/-! ## The shared prefix: the degree norm and the aggregated features are the reference's

The kernel's program and the reference begin with the same operations on the same arguments: the degree count by a
segment sum of ones, its clip at one, the reciprocal square root as a power, the features scaled by it, gathered along
the edges and summed by segment. The two programs' texts name separate copies of the same shapes and dimension
records, so each stretch's result is the reference's value by unfolding the names; the sums themselves are never
opened. -/

section Prefix

variable (V : Valuation τ sig (Elt Ideal))

/-- The float one the clip compares with. -/
theorem after0_cst1 :
    (StableHlo.after hostOps0 V main_cst_1 : S_.Idx → EReal) = Cert.ReferenceIdeal.Read.val_main_cst_1 (F := Ideal) := by
  after_results
  try rfl

/-- The degree count, over any contents before the first stretch. -/
theorem after0_v3 :
    (StableHlo.after hostOps0 V main_v3 : S50000.Idx → EReal)
      = Cert.ReferenceIdeal.Read.val_main_v3 (F := Ideal) (V main_arg6 : IVec S800000 32) := by
  after_results
  try rfl

/-- The clip at one, over any contents before it. -/
theorem after0_1_v4_raw :
    (StableHlo.after hostOps0_1 V main_v4 : S50000.Idx → EReal)
      = maximumf (F := Ideal) (φ := .f32) (broadcastInDim S50000 ![] bcast_S_S50000 (id (V main_cst_1 : S_.Idx → EReal)))
          (V main_v3 : S50000.Idx → EReal) := by
  after_results
  try rfl

/-- The clipped degree count, from the count and the one. -/
theorem after0_1_v4 (x6 : IVec S800000 32)
    (h3 : (V main_v3 : S50000.Idx → EReal) = Cert.ReferenceIdeal.Read.val_main_v3 (F := Ideal) x6)
    (h1 : (V main_cst_1 : S_.Idx → EReal) = Cert.ReferenceIdeal.Read.val_main_cst_1 (F := Ideal)) :
    (StableHlo.after hostOps0_1 V main_v4 : S50000.Idx → EReal)
      = Cert.ReferenceIdeal.Read.val_main_v4 (F := Ideal) x6 := by
  rw [after0_1_v4_raw V, h3, h1]
  rfl

/-- The degree norm as a column, from the clipped count. -/
theorem after0_2_v7 (x6 : IVec S800000 32)
    (h4 : (V main_v4 : S50000.Idx → EReal) = Cert.ReferenceIdeal.Read.val_main_v4 (F := Ideal) x6) :
    (StableHlo.after hostOps0_2 V main_v7 : S50000x1.Idx → EReal)
      = Cert.ReferenceIdeal.Read.val_main_v7 (F := Ideal) x6 := by
  after_results
  rw [h4]
  rfl

/-- The aggregated features, from the clipped count and the three arguments. -/
theorem after0_2_v19 (x0 : S50000x128.Idx → EReal) (x5 x6 : IVec S800000 32)
    (h4 : (V main_v4 : S50000.Idx → EReal) = Cert.ReferenceIdeal.Read.val_main_v4 (F := Ideal) x6)
    (h0 : (V main_arg0 : S50000x128.Idx → EReal) = x0) (h5 : (V main_arg5 : IVec S800000 32) = x5)
    (h6 : (V main_arg6 : IVec S800000 32) = x6) :
    (StableHlo.after hostOps0_2 V main_v19 : S50000x128.Idx → EReal)
      = Cert.ReferenceIdeal.Read.val_main_v19 (F := Ideal) x0 x5 x6 := by
  after_results_simp
  rw [h4, h0, h5, h6]
  rfl

end Prefix

/-- The clipped degree count before the third stretch is the reference's. -/
theorem v4_eq :
    (V2 m c main_v4 : S50000.Idx → EReal)
      = Cert.ReferenceIdeal.Read.val_main_v4 (F := Ideal) (m ((c.tc : Thread nD τ).loc main_arg6) : IVec S800000 32) :=
  after0_1_v4 (V1 m c) _ (after0_v3 (V0 m c)) (after0_cst1 (V0 m c))

/-- The degree norm handed to the first region is the reference's. -/
theorem nrm_eq :
    (V9 m c main_v7 : S50000x1.Idx → EReal)
      = Cert.ReferenceIdeal.Read.val_main_v7 (F := Ideal) (m ((c.tc : Thread nD τ).loc main_arg6) : IVec S800000 32) := by
  have w7 : V9 m c main_v7 = V3 m c main_v7 :=
    (V9_of m c main_v7 (by decide)).trans <| (V8_of m c main_v7 (by decide)).trans <|
    (V7_of m c main_v7 (by decide)).trans <| (V6_of m c main_v7 (by decide)).trans <|
    (V5_of m c main_v7 (by decide)).trans <| (V4_of m c main_v7 (by decide))
  rw [w7]
  exact after0_2_v7 (V2 m c) _ (v4_eq m c)

/-- The aggregated features handed to the first region are the reference's. -/
theorem agg_eq :
    (V9 m c main_v19 : S50000x128.Idx → EReal)
      = Cert.ReferenceIdeal.Read.val_main_v19 (F := Ideal)
          (m ((c.tc : Thread nD τ).loc main_arg0) : S50000x128.Idx → EReal)
          (m ((c.tc : Thread nD τ).loc main_arg5) : IVec S800000 32)
          (m ((c.tc : Thread nD τ).loc main_arg6) : IVec S800000 32) := by
  have w19 : V9 m c main_v19 = V3 m c main_v19 :=
    (V9_of m c main_v19 (by decide)).trans <| (V8_of m c main_v19 (by decide)).trans <|
    (V7_of m c main_v19 (by decide)).trans <| (V6_of m c main_v19 (by decide)).trans <|
    (V5_of m c main_v19 (by decide)).trans <| (V4_of m c main_v19 (by decide))
  rw [w19]
  exact after0_2_v19 (V2 m c) _ _ _ (v4_eq m c)
    ((V2_of m c main_arg0 (by decide)).trans <| (V1_of m c main_arg0 (by decide)).trans rfl)
    ((V2_of m c main_arg5 (by decide)).trans <| (V1_of m c main_arg5 (by decide)).trans rfl)
    ((V2_of m c main_arg6 (by decide)).trans <| (V1_of m c main_arg6 (by decide)).trans rfl)

end Cert.KernelIdeal.ValG

end
-- ==== Proof.KIValue.lean ====
/-
  The idealized kernel program's result, index by index, as the batch normalisation of ONE matrix.

  The first region's big output is the pre-activation matrix `h` on the 51200 padded rows; on the first 50000 rows the
  padding is invisible, and there an entry is `(∑ k, agg r k · W j k + b j) · nrm r` of the host's aggregation and
  degree norm. Its two one-row outputs are the column sums of `h` and of `h²` over the 50000 real rows (the mask
  removes the padded rows). The host between the regions turns them into the mean, the variance `Q/N - mean²`, the
  scale and the shift; the second region applies them with the ReLU and the residual; the last host operation keeps
  the first 50000 rows.
-/
import proofs.«182140_j34411277975785_1_alg».proof.Proof.KIRun
import proofs.«182140_j34411277975785_1_alg».proof.Proof.ValHpre
import proofs.«182140_j34411277975785_1_alg».proof.Proof.ValSums
import proofs.«182140_j34411277975785_1_alg».proof.Proof.ValOut
import proofs.«182140_j34411277975785_1_alg».proof.Proof.ValGlue
import proofs.«182140_j34411277975785_1_alg».proof.Proof.Spec

noncomputable section

namespace Cert.KernelIdeal.Val

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (c : Dev nD)

/-- The matrix the normalisation is applied to, from the launch memory: the host's aggregation through the linear map,
    plus the bias, scaled by the degree norm. -/
def hK : Fin 50000 → Fin 128 → EReal :=
  Cert.Spec.hOf
    (fun r k => Cert.ReferenceIdeal.Read.val_main_v19 (F := Ideal) (m ((c.tc : Thread nD τ).loc main_arg0)) (m ((c.tc : Thread nD τ).loc main_arg5)) (m ((c.tc : Thread nD τ).loc main_arg6)) (ix2 r k))
    (fun j k => (m ((c.tc : Thread nD τ).loc main_arg1) : S128x128.Idx → EReal) (ix2 j k))
    (fun j => (m ((c.tc : Thread nD τ).loc main_arg2) : S128.Idx → EReal) (ix1 j))
    (fun r => Cert.ReferenceIdeal.Read.val_main_v7 (F := Ideal) (m ((c.tc : Thread nD τ).loc main_arg6)) (ix2 r (0 : Fin 1)))

/-- The four arrays the first region reads, at their literal types. -/
abbrev p20 : S51200x128.Idx → EReal := V9 m c main_v20
abbrev p21 : S51200x1.Idx → EReal := V9 m c main_v21
abbrev p23 : S128x128.Idx → EReal := V9 m c main_v23
abbrev p2 : S128.Idx → EReal := V9 m c main_arg2

/-- A real row of the padded pre-activation computation is the row of `h`. -/
theorem row_eq (r : Fin 50000) (j : Fin 128) (hR : r.val < 51200) :
    (∑ k : Fin 128, p20 m c (ix2 ⟨r.val, hR⟩ k) * p23 m c (ix2 k j) + p2 m c (ix1 j)) * p21 m c (ix2 ⟨r.val, hR⟩ (0 : Fin 1))
      = hK m c r j := by
  have hA : ∀ k : Fin 128, p20 m c (ix2 ⟨r.val, hR⟩ k)
      = Cert.ReferenceIdeal.Read.val_main_v19 (F := Ideal) (m ((c.tc : Thread nD τ).loc main_arg0)) (m ((c.tc : Thread nD τ).loc main_arg5)) (m ((c.tc : Thread nD τ).loc main_arg6)) (ix2 r k) := fun k => by
    show (V9 m c main_v20 : S51200x128.Idx → EReal) (ix2 ⟨r.val, hR⟩ k) = _
    rw [ValG.pad_agg, dif_pos r.isLt, ValG.agg_eq]
  have hW : ∀ k : Fin 128, p23 m c (ix2 k j) = (m ((c.tc : Thread nD τ).loc main_arg1) : S128x128.Idx → EReal) (ix2 j k) := fun k =>
    ValG.wt_apply m c k j
  have hN : p21 m c (ix2 ⟨r.val, hR⟩ (0 : Fin 1))
      = Cert.ReferenceIdeal.Read.val_main_v7 (F := Ideal) (m ((c.tc : Thread nD τ).loc main_arg6)) (ix2 r (0 : Fin 1)) := by
    show (V9 m c main_v21 : S51200x1.Idx → EReal) (ix2 ⟨r.val, hR⟩ (0 : Fin 1)) = _
    rw [ValG.pad_nrm, dif_pos r.isLt, ValG.nrm_eq]
  have hB : p2 m c (ix1 j) = (m ((c.tc : Thread nD τ).loc main_arg2) : S128.Idx → EReal) (ix1 j) :=
    congrFun (ValG.b_keep m c) (ix1 j)
  rw [hN, hB, Finset.sum_congr rfl fun k _ => by rw [hA k, hW k]]
  rfl

/-- The first region's big output on a real row. -/
theorem hpre_row (r : Fin 50000) (j : Fin 128) (hR : r.val < 51200) :
    ((dat0 (F := Ideal) (VA m) c).arrAt 4 cfg0.N : S51200x128.Idx → EReal) (ix2 ⟨r.val, hR⟩ j) = hK m c r j :=
  (hpre_apply (VA m) c ⟨r.val, hR⟩ j).trans (row_eq m c r j hR)

/-- The rows the column sums run over are the rows of `h`. -/
theorem HP_eq (r : Fin 50000) (j : Fin 128) : ValS.HP (VA m) c r.val j = hK m c r j := by
  have hR : r.val < 51200 := lt_trans r.isLt (by decide)
  unfold ValS.HP
  rw [dif_pos hR]
  exact row_eq m c r j hR

theorem colSum_eq (j : Fin 128) :
    ((dat0 (F := Ideal) (VA m) c).arrAt 5 cfg0.N : S1x128.Idx → EReal) (ix2 (0 : Fin 1) j) = Cert.Spec.colSum (hK m c) j :=
  have h : (∑ r : Fin 50000, ValS.HP (VA m) c r.val j : EReal) = Cert.Spec.colSum (hK m c) j := by
    unfold Cert.Spec.colSum
    exact Finset.sum_congr rfl fun r _ => HP_eq m c r j
  (ValS.sum_apply (VA m) c j).trans h

theorem colSumSq_eq (j : Fin 128) :
    ((dat0 (F := Ideal) (VA m) c).arrAt 6 cfg0.N : S1x128.Idx → EReal) (ix2 (0 : Fin 1) j) = Cert.Spec.colSumSq (hK m c) j :=
  have h : (∑ r : Fin 50000, ValS.HP (VA m) c r.val j * ValS.HP (VA m) c r.val j : EReal) = Cert.Spec.colSumSq (hK m c) j := by
    unfold Cert.Spec.colSumSq
    exact Finset.sum_congr rfl fun r _ => by rw [HP_eq m c r j]
  (ValS.sumsq_apply (VA m) c j).trans h

/-- The scale and the shift the host hands the second region. -/
theorem scale_eq (j : Fin 128) :
    (V11 m (outs m) c main_v35 : S1x128.Idx → EReal) (ix2 (0 : Fin 1) j)
      = Cert.Spec.scaleK (hK m c) (fun j => (m ((c.tc : Thread nD τ).loc main_arg3) : S128.Idx → EReal) (ix1 j)) j := by
  rw [ValG.scale_apply, V10_v24_1, V10_v24_2, colSum_eq, colSumSq_eq]
  rfl

theorem shift_eq (j : Fin 128) :
    (V11 m (outs m) c main_v38 : S1x128.Idx → EReal) (ix2 (0 : Fin 1) j)
      = Cert.Spec.shiftK (hK m c) (fun j => (m ((c.tc : Thread nD τ).loc main_arg3) : S128.Idx → EReal) (ix1 j))
          (fun j => (m ((c.tc : Thread nD τ).loc main_arg4) : S128.Idx → EReal) (ix1 j)) j := by
  rw [ValG.shift_apply, scale_eq, V10_v24_1, colSum_eq]
  rfl

/-- What the second region reads, at literal types. -/
abbrev q22 : S51200x128.Idx → EReal := V11 m (outs m) c main_v22
abbrev q24 : S51200x128.Idx → EReal := V11 m (outs m) c main_v24_0
abbrev q35 : S1x128.Idx → EReal := V11 m (outs m) c main_v35
abbrev q38 : S1x128.Idx → EReal := V11 m (outs m) c main_v38

/-- THE RESULT: the kernel's arrangement of the batch normalisation of `h`, with the ReLU and the residual. -/
theorem result_apply (r : Fin 50000) (j : Fin 128) :
    (V13 m (outs m) c main_v40 : S50000x128.Idx → EReal) (ix2 r j)
      = Cert.Spec.outK (hK m c) (fun j => (m ((c.tc : Thread nD τ).loc main_arg3) : S128.Idx → EReal) (ix1 j))
          (fun j => (m ((c.tc : Thread nD τ).loc main_arg4) : S128.Idx → EReal) (ix1 j))
          (fun r j => (m ((c.tc : Thread nD τ).loc main_arg0) : S50000x128.Idx → EReal) (ix2 r j)) r j := by
  have hR : r.val < 51200 := lt_trans r.isLt (by decide)
  have e1 := ValG.slice_apply m (outs m) c r j
  rw [V12_v39 m c] at e1
  have e2 := ValO.out_apply (VB m) c ⟨r.val, hR⟩ j
  have e3 : q22 m c (ix2 ⟨r.val, hR⟩ j) + max (q24 m c (ix2 ⟨r.val, hR⟩ j) * q35 m c (ix2 (0 : Fin 1) j) + q38 m c (ix2 (0 : Fin 1) j)) 0
      = Cert.Spec.outK (hK m c) (fun j => (m ((c.tc : Thread nD τ).loc main_arg3) : S128.Idx → EReal) (ix1 j))
          (fun j => (m ((c.tc : Thread nD τ).loc main_arg4) : S128.Idx → EReal) (ix1 j))
          (fun r j => (m ((c.tc : Thread nD τ).loc main_arg0) : S50000x128.Idx → EReal) (ix2 r j)) r j := by
    simp only [q22, q24, q35, q38]
    rw [scale_eq, shift_eq, ValG.feat_keep, ValG.pre_keep, V10_v24_0, ValG.pad_feat, dif_pos r.isLt, hpre_row m c r j hR]
    rfl
  exact e1.trans (e2.trans e3)

end Cert.KernelIdeal.Val

end
-- ==== Proof.RefRead.lean ====
/-
  The reference program's result read at an index, over the extended reals.

  Stage by stage, the reference's value at row `r` and column `j` is followed back to the argument arrays: the linear
  map of the aggregated features (read with the weight matrix transposed) plus the bias, scaled by the degree norm;
  the column mean and the column variance of that matrix; the normalisation, the ReLU and the residual. The segment
  sum that aggregates the features and the degree norm stay opaque: they enter only as the functions they are.
-/
import proofs.«182140_j34411277975785_1_alg».proof.Proof.Gen.ReferenceIdeal.Read
import proofs.«182140_j34411277975785_1_alg».proof.Proof.Spec
import Idealize.ShloMosaic.Lib.ValueIdx
import Idealize.ShloMosaic.PureOps.Ideal.Laws

noncomputable section

namespace Cert.RefRead

open Cert.ReferenceIdeal Cert.ReferenceIdeal.Read Idealize.ShloMosaic Idealize.ShloMosaic.ValueIdx
open scoped BigOperators

/-! ## The composed index maps, by coordinates -/

/-- The contraction's left operand is read at row `r`, column `k`. -/
theorem lidx21 (r : Fin 50000) (j k : Fin 128) : lidx_main_v21 (ix2 r j) k = ix2 r k :=
  funext fun a => Fin.ext (by match a with | ⟨0, _⟩ => rfl | ⟨1, _⟩ => rfl)

/-- The contraction's right operand is the transposed weight: row `j`, column `k` of the weight itself. -/
theorem ridx21_20 (r : Fin 50000) (j k : Fin 128) : idx_main_v20 (ridx_main_v21 (ix2 r j) k) = ix2 j k :=
  funext fun a => Fin.ext (by match a with | ⟨0, _⟩ => rfl | ⟨1, _⟩ => rfl)

/-- The bias broadcast over the rows is read at column `j`. -/
theorem idx23_22 (r : Fin 50000) (j : Fin 128) : idx_main_v22 (idx_main_v23 (ix2 r j)) = ix1 j :=
  funext fun a => Fin.ext (by match a with | ⟨0, _⟩ => rfl)

/-- The degree norm broadcast over the columns is read at row `r`. -/
theorem idx25 (r : Fin 50000) (j : Fin 128) : idx_main_v25 (ix2 r j) = ix2 r (0 : Fin 1) :=
  funext fun a => Fin.ext (by match a with | ⟨0, _⟩ => rfl | ⟨1, _⟩ => rfl)

/-! ## The matrix the normalisation is applied to -/

/-- The aggregated features, as a function of row and column. -/
abbrev aggOf (x0 : (⟨S50000x128, .f32⟩ : BufTy).Contents (Elt Ideal)) (x5 x6 : (⟨S800000, .i32⟩ : BufTy).Contents (Elt Ideal))
    (r : Fin 50000) (k : Fin 128) : EReal := val_main_v19 (F := Ideal) x0 x5 x6 (ix2 r k)

/-- The degree norm, as a function of the row. -/
abbrev nrmOf (x6 : (⟨S800000, .i32⟩ : BufTy).Contents (Elt Ideal)) (r : Fin 50000) : EReal :=
  val_main_v7 (F := Ideal) x6 (ix2 r (0 : Fin 1))

/-- The reference's scaled linear map at row `r`, column `j`. -/
theorem h_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S800000, .i32⟩ : BufTy).Contents (Elt Ideal))
    (r : Fin 50000) (j : Fin 128) :
    val_main_v26 (F := Ideal) x0 x1 x2 x5 x6 (ix2 r j)
      = Cert.Spec.hOf (aggOf x0 x5 x6) (fun j k => x1 (ix2 j k)) (fun j => x2 (ix1 j)) (nrmOf x6) r j := by
  rw [val_main_v26_apply, val_main_v24_apply, val_main_v21_apply, val_main_v23_apply, val_main_v22_apply,
    val_main_v25_apply]
  simp only [val_main_v20_apply, lidx21, ridx21_20, idx23_22, idx25, Ideal.mulf_def, Ideal.addf_def, Cert.Spec.hOf]

/-- The matrix `h` of the reference: the specification's linear map at the reference's aggregated features and norm. -/
abbrev hRef (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S800000, .i32⟩ : BufTy).Contents (Elt Ideal)) :
    Fin 50000 → Fin 128 → EReal :=
  Cert.Spec.hOf (aggOf x0 x5 x6) (fun j k => x1 (ix2 j k)) (fun j => x2 (ix1 j)) (nrmOf x6)

/-! ## The column mean -/

/-- The column sum runs over the rows of column `j`. -/
theorem idx27 (j : Fin 128) (k : Fin 50000) : idx_main_v27 (ix1 j) k = ix2 k j :=
  funext fun a => Fin.ext (by match a with | ⟨0, _⟩ => rfl | ⟨1, _⟩ => rfl)

/-- The reference's column mean: the zero the sum starts from, plus the column sum, over the row count. -/
theorem mean_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S800000, .i32⟩ : BufTy).Contents (Elt Ideal))
    (j : Fin 128) :
    val_main_v29 (F := Ideal) x0 x1 x2 x5 x6 (ix1 j) = Cert.Spec.meanR (hRef x0 x1 x2 x5 x6) j := by
  rw [val_main_v29_apply, val_main_v27_apply, val_main_v28_apply, val_main_cst_5_apply, val_main_cst_6_apply]
  simp only [idx27, h_apply, Ideal.hostDivf_def, Ideal.ofBits_def, Ideal.ofBits_zero_f32, Cert.Spec.meanR,
    Cert.Spec.colSum, Cert.Spec.Nf]

/-! ## The column variance -/

/-- The sum of the centred squares runs over the rows of column `j`. -/
theorem idx34 (j : Fin 128) (k : Fin 50000) : idx_main_v34 (ix1 j) k = ix2 k j :=
  funext fun a => Fin.ext (by match a with | ⟨0, _⟩ => rfl | ⟨1, _⟩ => rfl)

/-- The mean broadcast over the rows is read at column `j`. -/
theorem idx31_30 (r : Fin 50000) (j : Fin 128) : idx_main_v30 (idx_main_v31 (ix2 r j)) = ix1 j :=
  funext fun a => Fin.ext (by match a with | ⟨0, _⟩ => rfl)

/-- The square of an entry centred at its column's mean. -/
theorem sq_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S800000, .i32⟩ : BufTy).Contents (Elt Ideal))
    (r : Fin 50000) (j : Fin 128) :
    val_main_v33 (F := Ideal) x0 x1 x2 x5 x6 (ix2 r j)
      = (hRef x0 x1 x2 x5 x6 r j - Cert.Spec.meanR (hRef x0 x1 x2 x5 x6) j)
        * (hRef x0 x1 x2 x5 x6 r j - Cert.Spec.meanR (hRef x0 x1 x2 x5 x6) j) := by
  rw [val_main_v33_apply, val_main_v32_apply, val_main_v31_apply, val_main_v30_apply, idx31_30, h_apply, mean_apply]
  rfl

/-- The reference's column variance: the mean of the squares of the entries centred at the column mean. -/
theorem var_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S800000, .i32⟩ : BufTy).Contents (Elt Ideal))
    (j : Fin 128) :
    val_main_v36 (F := Ideal) x0 x1 x2 x5 x6 (ix1 j) = Cert.Spec.varR (hRef x0 x1 x2 x5 x6) j := by
  rw [val_main_v36_apply, val_main_v34_apply, val_main_v35_apply, val_main_cst_7_apply, val_main_cst_8_apply]
  simp only [idx34, sq_apply, Ideal.hostDivf_def, Ideal.ofBits_def, Ideal.ofBits_zero_f32, Cert.Spec.varR, Cert.Spec.Nf]

/-! ## The normalisation, the ReLU and the residual -/

/-- The mean broadcast over the rows, in the normalisation, is read at column `j`. -/
theorem idx38_37 (r : Fin 50000) (j : Fin 128) : idx_main_v37 (idx_main_v38 (ix2 r j)) = ix1 j :=
  funext fun a => Fin.ext (by match a with | ⟨0, _⟩ => rfl)

/-- The reciprocal root broadcast over the rows is read at column `j`. -/
theorem idx44_43 (r : Fin 50000) (j : Fin 128) : idx_main_v43 (idx_main_v44 (ix2 r j)) = ix1 j :=
  funext fun a => Fin.ext (by match a with | ⟨0, _⟩ => rfl)

/-- The column weight broadcast over the rows is read at column `j`. -/
theorem idx47_46 (r : Fin 50000) (j : Fin 128) : idx_main_v46 (idx_main_v47 (ix2 r j)) = ix1 j :=
  funext fun a => Fin.ext (by match a with | ⟨0, _⟩ => rfl)

/-- The column shift broadcast over the rows is read at column `j`. -/
theorem idx50_49 (r : Fin 50000) (j : Fin 128) : idx_main_v49 (idx_main_v50 (ix2 r j)) = ix1 j :=
  funext fun a => Fin.ext (by match a with | ⟨0, _⟩ => rfl)

/-- The reciprocal root of the column variance plus `ε`. -/
theorem rsqrt_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S800000, .i32⟩ : BufTy).Contents (Elt Ideal))
    (j : Fin 128) :
    val_main_v42 (F := Ideal) x0 x1 x2 x5 x6 (ix1 j)
      = Ideal.rsqrt (Cert.Spec.varR (hRef x0 x1 x2 x5 x6) j + Cert.Spec.eps) := by
  rw [val_main_v42_apply, val_main_v41_apply, val_main_v40_apply, val_main_cst_9_apply, var_apply]
  rfl

/-- The centred entry times the reciprocal root. -/
theorem norm_apply (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S800000, .i32⟩ : BufTy).Contents (Elt Ideal))
    (r : Fin 50000) (j : Fin 128) :
    val_main_v45 (F := Ideal) x0 x1 x2 x5 x6 (ix2 r j)
      = (hRef x0 x1 x2 x5 x6 r j - Cert.Spec.meanR (hRef x0 x1 x2 x5 x6) j)
        * Ideal.rsqrt (Cert.Spec.varR (hRef x0 x1 x2 x5 x6) j + Cert.Spec.eps) := by
  rw [val_main_v45_apply, val_main_v39_apply, val_main_v38_apply, val_main_v37_apply, idx38_37, val_main_v44_apply,
    val_main_v43_apply, idx44_43, h_apply, mean_apply, rsqrt_apply]
  rfl

/-- The zero the ReLU compares with. -/
theorem relu_zero (r : Fin 50000) (j : Fin 128) : val_main_call1_v0 (F := Ideal) (ix2 r j) = 0 := by
  rw [val_main_call1_v0_apply, val_main_call1_cst_apply, Ideal.ofBits_def, Ideal.ofBits_zero_f32]

/-- The reference's result at row `r`, column `j`: the residual plus the ReLU of the normalised entry. -/
theorem ref_apply (x0 : (⟨S50000x128, .f32⟩ : BufTy).Contents (Elt Ideal)) (x1 : (⟨S128x128, .f32⟩ : BufTy).Contents (Elt Ideal))
    (x2 x3 x4 : (⟨S128, .f32⟩ : BufTy).Contents (Elt Ideal)) (x5 x6 : (⟨S800000, .i32⟩ : BufTy).Contents (Elt Ideal))
    (r : Fin 50000) (j : Fin 128) :
    Cert.ReferenceIdeal.Read.val_main_v53 (F := Ideal) x0 x1 x2 x3 x4 x5 x6 (ix2 r j)
      = Cert.Spec.outR (Cert.Spec.hOf (fun r k => val_main_v19 (F := Ideal) x0 x5 x6 (ix2 r k)) (fun j k => x1 (ix2 j k))
            (fun j => x2 (ix1 j)) (fun r => val_main_v7 (F := Ideal) x6 (ix2 r (0 : Fin 1))))
          (fun j => x3 (ix1 j)) (fun j => x4 (ix1 j)) (fun r j => x0 (ix2 r j)) r j := by
  show _ = Cert.Spec.outR (hRef x0 x1 x2 x5 x6) (fun j => x3 (ix1 j)) (fun j => x4 (ix1 j)) (fun r j => x0 (ix2 r j)) r j
  rw [val_main_v53_apply, val_main_v52_apply, val_main_v51_apply, val_main_v48_apply, norm_apply, val_main_v47_apply,
    val_main_v46_apply, idx47_46, val_main_v50_apply, val_main_v49_apply, idx50_49, relu_zero]
  rfl

end Cert.RefRead

end
-- ==== Proof.Finite.lean ====
/-
  Finiteness at the ideal instance (floats are extended reals).

  Under the program's precondition every float input is a real number. Two arrays the host computes from the index
  arrays are real as well: the degree norm (a count of ones, raised to at least one, to the power minus one half) and
  the segment sum of the gathered rows of the normed features.

  A segment sum at an element is the operand there plus a finite sum of update entries; a gather's entry is some entry
  of its operand. So only two facts about the extended reals are used: a finite sum of reals is a real, and a product
  of two reals is a real.
-/
import proofs.«182140_j34411277975785_1_alg».proof.Proof.Gen.ReferenceIdeal.Read
import proofs.«182140_j34411277975785_1_alg».proof.Pre_finite_inputs
import Idealize.ShloMosaic.Lib.ReduceAll
import Idealize.ShloMosaic.Lib.IdealHost

noncomputable section

open scoped BigOperators

namespace Cert.Finite

open Idealize.ShloMosaic Idealize.ShloMosaic.ValueIdx

/-! ## Reals among the extended reals -/

/-- The sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is a real. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- The pattern of positive infinity denotes the top element. -/
theorem inf_eq_top : Ideal.ofBits .f32 0x7F800000#32 = (⊤ : EReal) := by
  simp [Ideal.ofBits, Ideal.ieee]

/-- An extended real whose absolute value is below positive infinity is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_eq_top] at h
  induction x using EReal.rec with
  | bot => simp [Ideal.cmp] at h
  | coe r => exact ⟨r, rfl⟩
  | top => simp [Ideal.cmp] at h

/-! ## The precondition read back -/

instance : Subsingleton Cert.Pre_finite_inputs.S_.Idx := ⟨fun a b => funext fun d => d.elim0⟩

section Pre

variable [Cert.Pre_finite_inputs.Facts]

open Cert.Pre_finite_inputs in
/-- Under the precondition every entry of each of the five float inputs is a real. -/
theorem inputs_real (x0 : FVec Ideal S50000x128 .f32) (x1 : FVec Ideal S128x128 .f32) (x2 x3 x4 : FVec Ideal S128 .f32)
    (x5 x6 : IVec S800000 32)
    (hpre : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h := congrFun hpre ValueIdx.ix0
  dsimp only [Cert.Pre_finite_inputs.fn, Cert.Pre_finite_inputs.fn_part1, andi] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨fun i => real_of_abs_lt_inf (x0 i) (Host.reduce_andi_all _ _ _ _ _ h0 i),
    fun i => real_of_abs_lt_inf (x1 i) (Host.reduce_andi_all _ _ _ _ _ h1 i),
    fun i => real_of_abs_lt_inf (x2 i) (Host.reduce_andi_all _ _ _ _ _ h2 i),
    fun i => real_of_abs_lt_inf (x3 i) (Host.reduce_andi_all _ _ _ _ _ h3 i),
    fun i => real_of_abs_lt_inf (x4 i) (Host.reduce_andi_all _ _ _ _ _ h4 i)⟩

end Pre

/-! ## Operations that keep reals real -/

/-- The maximum of two reals is a real. -/
theorem real_max {x y : EReal} (hx : ∃ r : ℝ, x = (r : EReal)) (hy : ∃ r : ℝ, y = (r : EReal)) :
    ∃ r : ℝ, max x y = (r : EReal) := by
  rcases max_choice x y with h | h
  · rw [h]; exact hx
  · rw [h]; exact hy

/-- A real base raised to a real exponent is a real (the real power function's value). -/
theorem real_pow {x y : EReal} (hx : ∃ r : ℝ, x = (r : EReal)) (hy : ∃ r : ℝ, y = (r : EReal)) :
    ∃ r : ℝ, Ideal.pow x y = (r : EReal) := by
  obtain ⟨a, rfl⟩ := hx
  obtain ⟨b, rfl⟩ := hy
  exact ⟨Real.rpow a b, rfl⟩

/-- The pattern of zero is a real. -/
theorem zero_real : ∃ r : ℝ, Ideal.ofBits .f32 0x00000000#32 = (r : EReal) :=
  ⟨0, Ideal.ofBits_zero_f32.trans EReal.coe_zero.symm⟩

/-- The pattern of one is a real. -/
theorem one_real : ∃ r : ℝ, Ideal.ofBits .f32 0x3F800000#32 = (r : EReal) :=
  ⟨1, Ideal.ofBits_one_f32.trans EReal.coe_one.symm⟩

/-- The pattern of minus one half is a real. -/
theorem neg_half_real : ∃ r : ℝ, Ideal.ofBits .f32 0xBF000000#32 = (r : EReal) :=
  ⟨-(1 / 2), by simp [Ideal.ofBits, Ideal.ieee, -EReal.coe_mul, -EReal.coe_neg]; norm_num⟩

/-- A segment sum with a real operand and real updates is real at every element: the operand there plus a finite sum
    of updates. -/
theorem scatterAdd_real {s si u : Shape} {w : Nat} (d : ScatterDims s si u) (x : s.Idx → EReal) (idx : IVec si w)
    (upd : u.Idx → EReal) (hx : ∀ i, ∃ r : ℝ, x i = (r : EReal)) (hu : ∀ j, ∃ r : ℝ, upd j = (r : EReal)) (i : s.Idx) :
    ∃ r : ℝ, Host.scatterAdd (F := Ideal) (φ := .f32) d x idx upd i = (r : EReal) := by
  change ∃ r : ℝ, x i + ∑ j ∈ Finset.univ.filter (fun j => d.resultIdx? j idx = some i), upd j = (r : EReal)
  exact real_add (hx i) (real_sum _ _ fun j _ => hu j)

/-- An indexed read of a real array is real at every element: it is some element of the array. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx (d.operandIdx j idx)

/-! ## The host's arrays -/

section Arrays

open Cert.ReferenceIdeal Cert.ReferenceIdeal.Gen Cert.ReferenceIdeal.Read Idealize.ShloMosaic.TcCoe Idealize.SL.Sem
  Idealize.ShloMosaic.StableHlo

/-- The degrees (a segment sum of ones onto zeros) are real. -/
theorem degs_real (x6 : (⟨S800000, .i32⟩ : BufTy).Contents (Elt Ideal)) (j : S50000.Idx) :
    ∃ r : ℝ, val_main_v3 (F := Ideal) x6 j = (r : EReal) :=
  scatterAdd_real _ _ _ _ (fun _ => zero_real) (fun _ => one_real) j

/-- The degree norm, the degrees raised to at least one and then to the power minus one half, is real. -/
theorem nrm_real (x6 : (⟨S800000, .i32⟩ : BufTy).Contents (Elt Ideal)) (i : Cert.ReferenceIdeal.S50000x1.Idx) :
    ∃ r : ℝ, Cert.ReferenceIdeal.Read.val_main_v7 (F := Ideal) x6 i = (r : EReal) := by
  rw [val_main_v7_apply, val_main_v6_apply, val_main_v4_apply, val_main_call0_v1_apply, val_main_call0_v0_apply,
    val_main_cst_1_apply, val_main_v5_apply, val_main_cst_2_apply]
  simp only [Ideal.hostPowf_def, Ideal.maximumf_def, Ideal.ofBits_def]
  exact real_pow (real_max one_real (degs_real x6 _)) neg_half_real

/-- The normed features, each feature entry times its row's degree norm, are real when the features are. -/
theorem normed_real (x0 : (⟨S50000x128, .f32⟩ : BufTy).Contents (Elt Ideal))
    (x6 : (⟨S800000, .i32⟩ : BufTy).Contents (Elt Ideal)) (hx0 : ∀ i, ∃ r : ℝ, x0 i = (r : EReal)) (k : S50000x128.Idx) :
    ∃ r : ℝ, val_main_v9 (F := Ideal) x0 x6 k = (r : EReal) := by
  rw [val_main_v9_apply, val_main_v8_apply, Ideal.mulf_def]
  exact real_mul (hx0 k) (nrm_real x6 _)

/-- The aggregate, the segment sum onto zeros of the gathered rows of the normed features, is real when the features are. -/
theorem agg_real (x0 : (⟨S50000x128, .f32⟩ : BufTy).Contents (Elt Ideal))
    (x5 x6 : (⟨S800000, .i32⟩ : BufTy).Contents (Elt Ideal)) (hx0 : ∀ i, ∃ r : ℝ, x0 i = (r : EReal))
    (i : Cert.ReferenceIdeal.S50000x128.Idx) :
    ∃ r : ℝ, Cert.ReferenceIdeal.Read.val_main_v19 (F := Ideal) x0 x5 x6 i = (r : EReal) :=
  scatterAdd_real _ _ _ _ (fun _ => zero_real) (fun j => gather_real _ _ _ (normed_real x0 x6 hx0) j) i

end Arrays

end Cert.Finite

end
-- ==== Proof.Algebra.lean ====
/-
  The two arrangements of the batch normalisation agree on real data.

  With the column a real vector x of length N = 50000, mean μ = (∑ x) / N, the sum of squared deviations is
  ∑ (x - μ)² = ∑ x² - 2 μ ∑ x + N μ² = ∑ x² - N μ², so (∑ x²) / N - μ² = (∑ (x - μ)²) / N: one number v, and the
  second form shows v ≥ 0. Hence v + ε > 0, its reciprocal root is a real ρ, and both outputs are the residual
  plus the positive part of one real, x γ ρ + (β - μ γ ρ) = (x - μ) ρ γ + β.
-/
import proofs.«182140_j34411277975785_1_alg».proof.Proof.Spec

noncomputable section

namespace Cert.Spec

open Idealize.ShloMosaic
open scoped BigOperators

/-! ### The two constants -/

/-- The pattern of the divisor denotes the real 50000 = (2^23 + 4411392) · 2^(142 - 127 - 23). -/
theorem Nf_eq : Nf = ((50000 : ℝ) : EReal) := by
  simp [Nf, Ideal.ofBits, Ideal.ieee, -EReal.coe_mul]; norm_num

/-- The real the pattern of ε denotes: (2^23 + 2606508) · 2^(110 - 127 - 23). -/
def epsR : ℝ := 10995116 * (2 : ℝ) ^ (-40 : ℤ)

/-- ε is positive. -/
theorem epsR_pos : 0 < epsR := by unfold epsR; positivity

/-- The pattern of ε denotes that real. -/
theorem eps_eq : eps = ((epsR : ℝ) : EReal) := by
  simp [eps, epsR, Ideal.ofBits, Ideal.ieee, -EReal.coe_mul]

/-! ### Coercion and finite sums -/

/-- The coercion of a finite sum of reals is the sum of the coercions. -/
theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### The real computation -/

/-- The real column mean (∑ x) / N. -/
def mu (x : Fin 50000 → Fin 128 → ℝ) (j : Fin 128) : ℝ := (∑ r, x r j) * (1 / 50000)

/-- The real column variance in its centred form (∑ (x - μ)²) / N. -/
def vr (x : Fin 50000 → Fin 128 → ℝ) (j : Fin 128) : ℝ :=
  (∑ r, (x r j - mu x j) * (x r j - mu x j)) * (1 / 50000)

/-- ∑ (x - m)² = ∑ x² - 2 m ∑ x + N m², for any real m. -/
theorem sum_sq_dev (y : Fin 50000 → ℝ) (m : ℝ) :
    ∑ r, (y r - m) * (y r - m) = (∑ r, y r * y r) - 2 * m * (∑ r, y r) + 50000 * (m * m) := by
  have hexp : ∀ r, (y r - m) * (y r - m) = y r * y r - 2 * m * y r + m * m := fun r => by ring
  simp only [hexp, Finset.sum_add_distrib, Finset.sum_sub_distrib, ← Finset.mul_sum, Finset.sum_const,
    Finset.card_univ, Fintype.card_fin, nsmul_eq_mul]
  push_cast; ring

/-- The uncentred variance (∑ x²) / N - μ² is the centred one. -/
theorem var_uncentred (x : Fin 50000 → Fin 128 → ℝ) (j : Fin 128) :
    (∑ r, x r j * x r j) * (1 / 50000) - mu x j * mu x j = vr x j := by
  have hS : (∑ r, x r j) = 50000 * mu x j := by unfold mu; ring
  rw [vr, sum_sq_dev (fun r => x r j) (mu x j), hS]; ring

/-- The variance is nonnegative: a sum of squares over a positive count. -/
theorem vr_nonneg (x : Fin 50000 → Fin 128 → ℝ) (j : Fin 128) : 0 ≤ vr x j :=
  mul_nonneg (Finset.sum_nonneg fun _ _ => mul_self_nonneg _) (by norm_num)

/-! ### The pieces on real data -/

/-- The column sum of real data is the real sum. -/
theorem colSum_coe (x : Fin 50000 → Fin 128 → ℝ) (j : Fin 128) :
    colSum (fun r j => ((x r j : ℝ) : EReal)) j = ((∑ r, x r j : ℝ) : EReal) := by
  simp only [colSum, coe_finsum]

/-- The column sum of squares of real data is the real sum of squares. -/
theorem colSumSq_coe (x : Fin 50000 → Fin 128 → ℝ) (j : Fin 128) :
    colSumSq (fun r j => ((x r j : ℝ) : EReal)) j = ((∑ r, x r j * x r j : ℝ) : EReal) := by
  simp only [colSumSq, coe_finsum, EReal.coe_mul]

/-- The kernel's mean on real data is μ. -/
theorem meanK_coe (x : Fin 50000 → Fin 128 → ℝ) (j : Fin 128) :
    meanK (fun r j => ((x r j : ℝ) : EReal)) j = ((mu x j : ℝ) : EReal) := by
  rw [meanK, Nf_eq, Ideal.div_coe (by norm_num), colSum_coe, ← EReal.coe_mul, mu]

/-- The reference's mean on real data is μ. -/
theorem meanR_coe (x : Fin 50000 → Fin 128 → ℝ) (j : Fin 128) :
    meanR (fun r j => ((x r j : ℝ) : EReal)) j = ((mu x j : ℝ) : EReal) := by
  rw [meanR, zero_add, Nf_eq, Ideal.div_coe (by norm_num), colSum_coe, ← EReal.coe_mul, mu]

/-- The kernel's variance on real data is v. -/
theorem varK_coe (x : Fin 50000 → Fin 128 → ℝ) (j : Fin 128) :
    varK (fun r j => ((x r j : ℝ) : EReal)) j = ((vr x j : ℝ) : EReal) := by
  rw [varK, meanK_coe, Nf_eq, Ideal.div_coe (by norm_num), colSumSq_coe, ← EReal.coe_mul, ← EReal.coe_mul,
    ← EReal.coe_sub, var_uncentred]

/-- The reference's variance on real data is v. -/
theorem varR_coe (x : Fin 50000 → Fin 128 → ℝ) (j : Fin 128) :
    varR (fun r j => ((x r j : ℝ) : EReal)) j = ((vr x j : ℝ) : EReal) := by
  rw [varR, meanR_coe, zero_add, Nf_eq, Ideal.div_coe (by norm_num)]
  simp only [← EReal.coe_sub, ← EReal.coe_mul, ← coe_finsum]
  rfl

/-- The reciprocal root of a positive real is a real. -/
theorem rsqrt_coe_pos {t : ℝ} (ht : 0 < t) : Ideal.rsqrt (t : EReal) = (((Real.sqrt t)⁻¹ : ℝ) : EReal) := by
  rw [Ideal.rsqrt_coe, if_neg (not_lt.mpr ht.le), if_neg ht.ne']

/-! ### The two outputs -/

/-- On real data the kernel's arrangement and the reference's give the same output: both are the residual plus
    the positive part of the same real, since x γ ρ + (β - μ γ ρ) = (x - μ) ρ γ + β with ρ = 1 / √(v + ε). -/
theorem outK_eq_outR (h : Fin 50000 → Fin 128 → EReal) (γ β : Fin 128 → EReal) (feat : Fin 50000 → Fin 128 → EReal)
    (hh : ∀ r j, ∃ x : ℝ, h r j = (x : EReal)) (hγ : ∀ j, ∃ x : ℝ, γ j = (x : EReal))
    (hβ : ∀ j, ∃ x : ℝ, β j = (x : EReal))
    (r : Fin 50000) (j : Fin 128) : Cert.Spec.outK h γ β feat r j = Cert.Spec.outR h γ β feat r j := by
  choose x hx using hh
  choose g hg using hγ
  choose b hb using hβ
  obtain rfl : h = fun r j => ((x r j : ℝ) : EReal) := funext fun r => funext fun j => hx r j
  obtain rfl : γ = fun j => ((g j : ℝ) : EReal) := funext hg
  obtain rfl : β = fun j => ((b j : ℝ) : EReal) := funext hb
  have hpos : 0 < vr x j + epsR := add_pos_of_nonneg_of_pos (vr_nonneg x j) epsR_pos
  have hreal : ((x r j * (g j * (Real.sqrt (vr x j + epsR))⁻¹)
        + (b j - mu x j * (g j * (Real.sqrt (vr x j + epsR))⁻¹)) : ℝ) : EReal)
      = (((x r j - mu x j) * (Real.sqrt (vr x j + epsR))⁻¹ * g j + b j : ℝ) : EReal) := by
    congr 1; ring
  simp only [outK, outR, scaleK, shiftK, meanK_coe, meanR_coe, varK_coe, varR_coe, eps_eq, ← EReal.coe_add,
    rsqrt_coe_pos hpos, ← EReal.coe_mul, ← EReal.coe_sub]
  exact congrArg (fun t => feat r j + max t 0) hreal

end Cert.Spec

end
-- ==== Proof.lean ====
/-
  The certificate of a graph-convolution layer: degree-normalised neighbour aggregation, a linear map, batch
  normalisation over the nodes, ReLU and a residual. The kernel's program does the aggregation on the host, then one
  Pallas region computes the pre-activation matrix block by block together with the column sums of its entries and of
  their squares, the host folds mean and variance into one scale and one shift per column, and a second Pallas region
  applies them with the ReLU and the residual. The reference does everything on the host with the textbook variance.

  * The three frames: the two kernel programs run as a chain of host stretches and kernel regions, each region a
    pipeline whose body is run symbolically (the first region carries its two running sums from point to point); the
    reference's frame is its run with the result dropped.
  * preserves: the ideal pass rewrote nothing.
  * algebraic: index by index both results are `feat + max (normalised h) 0` for one and the same matrix `h`; the
    kernel's `E[h²] - E[h]²` and the reference's `E[(h - E h)²]` agree because every entry of `h` is a real under
    the finiteness precondition (the aggregation and the degree norm of finite data are finite).
-/
import proofs.«182140_j34411277975785_1_alg».proof.Defs
import proofs.«182140_j34411277975785_1_alg».proof.Proof.KRun
import proofs.«182140_j34411277975785_1_alg».proof.Proof.KIRun
import proofs.«182140_j34411277975785_1_alg».proof.Proof.KIValue
import proofs.«182140_j34411277975785_1_alg».proof.Proof.RefRead
import proofs.«182140_j34411277975785_1_alg».proof.Proof.Finite
import proofs.«182140_j34411277975785_1_alg».proof.Proof.Algebra
import proofs.«182140_j34411277975785_1_alg».proof.Proof.BlockSum
import proofs.«182140_j34411277975785_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Index by index the two results are one function of the arguments. -/
theorem algebraic : Cert.algebraic_KernelIdeal_ReferenceIdeal := by
  intro m ρ m' ρ' hpre hagree
  refine ⟨fun c => Cert.KernelIdeal.Gen.V13 m (Cert.KernelIdeal.Hand.outs m) c Cert.KernelIdeal.main_v40, Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2.1, (hagree c).2.2.2.1,
    (hagree c).2.2.2.2.1, (hagree c).2.2.2.2.2.1, (hagree c).2.2.2.2.2.2]
  obtain ⟨h0, h1, h2, h3, h4⟩ := Cert.Finite.inputs_real _ _ _ _ _ _ _ (hpre c)
  funext i
  obtain ⟨r, j, rfl⟩ : ∃ (r : Fin 50000) (j : Fin 128), i = ix2 r j := ⟨i 0, i 1, eq_ix2 i⟩
  rw [Cert.RefRead.ref_apply]
  refine Eq.trans ?_ (Cert.KernelIdeal.Val.result_apply m c r j).symm
  refine (Cert.Spec.outK_eq_outR _ _ _ _ ?_ (fun j => h3 _) (fun j => h4 _) r j).symm
  exact Cert.Spec.hOf_real _ _ _ _ (fun r k => Cert.Finite.agg_real _ _ _ h0 _) (fun j k => h1 _) (fun j => h2 _)
    (fun r => Cert.Finite.nrm_real _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
